-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x90 : Shape := ⟨2, ![131072, 90]⟩
abbrev S63x256 : Shape := ⟨2, ![63, 256]⟩
abbrev S256 : Shape := ⟨1, ![256]⟩
abbrev S256x256 : Shape := ⟨2, ![256, 256]⟩
abbrev S319x256 : Shape := ⟨2, ![319, 256]⟩
abbrev S256x257 : Shape := ⟨2, ![256, 257]⟩
abbrev S257 : Shape := ⟨1, ![257]⟩
abbrev S283x256 : Shape := ⟨2, ![283, 256]⟩
abbrev S256x3 : Shape := ⟨2, ![256, 3]⟩
abbrev S3 : Shape := ⟨1, ![3]⟩
abbrev S_ : Shape := ⟨0, ![]⟩

class Facts : Prop where
  bcast_S_S131072x90 : S_.BroadcastsInDim S131072x90 (![] : Fin 0 → Fin S131072x90.rank)
  reducesTo_S131072x90_S_d0_1 : S131072x90.ReducesTo [0, 1] S_
  h_S_ : 0 < S_.numel
  bcast_S_S63x256 : S_.BroadcastsInDim S63x256 (![] : Fin 0 → Fin S63x256.rank)
  reducesTo_S63x256_S_d0_1 : S63x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S319x256 : S_.BroadcastsInDim S319x256 (![] : Fin 0 → Fin S319x256.rank)
  reducesTo_S319x256_S_d0_1 : S319x256.ReducesTo [0, 1] S_
  bcast_S_S256x257 : S_.BroadcastsInDim S256x257 (![] : Fin 0 → Fin S256x257.rank)
  reducesTo_S256x257_S_d0_1 : S256x257.ReducesTo [0, 1] S_
  bcast_S_S257 : S_.BroadcastsInDim S257 (![] : Fin 0 → Fin S257.rank)
  reducesTo_S257_S_d0 : S257.ReducesTo [0] S_
  bcast_S_S283x256 : S_.BroadcastsInDim S283x256 (![] : Fin 0 → Fin S283x256.rank)
  reducesTo_S283x256_S_d0_1 : S283x256.ReducesTo [0, 1] S_
  bcast_S_S256x3 : S_.BroadcastsInDim S256x3 (![] : Fin 0 → Fin S256x3.rank)
  reducesTo_S256x3_S_d0_1 : S256x3.ReducesTo [0, 1] S_
  bcast_S_S3 : S_.BroadcastsInDim S3 (![] : Fin 0 → Fin S3.rank)
  reducesTo_S3_S_d0 : S3.ReducesTo [0] S_

variable [Facts]

def fn_part6 {F : FTy → Type} [FloatOps F] (main_arg21 : FVec F S256x3 .f32) (main_arg22 : FVec F S3 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256x3 .f32 := Host.absf main_arg21
  let main_cst_40 : FVec F S_ .f32 := constant S_ .f32 0x7F800000#32
  let main_v105 : FVec F S256x3 .f32 := broadcastInDim S256x3 ![] bcast_S_S256x3 main_cst_40
  let main_v106 : IVec S256x3 1 := cmpf .olt main_v104 main_v105
  let main_c_41 : IVec S_ 1 := constantI S_ 1 1#1
  let main_v107 : IVec S_ 1 := (fun x v => Host.reduce IntOp.andi x v reducesTo_S256x3_S_d0_1 h_S_) main_v106 main_c_41
  let main_v108 : IVec S_ 1 := andi main_v103 main_v107
  let main_v109 : FVec F S3 .f32 := Host.absf main_arg22
  let main_cst_42 : FVec F S_ .f32 := constant S_ .f32 0x7F800000#32
  let main_v110 : FVec F S3 .f32 := broadcastInDim S3 ![] bcast_S_S3 main_cst_42
  let main_v111 : IVec S3 1 := cmpf .olt main_v109 main_v110
  let main_c_43 : IVec S_ 1 := constantI S_ 1 1#1
  let main_v112 : IVec S_ 1 := (fun x v => Host.reduce IntOp.andi x v reducesTo_S3_S_d0 h_S_) main_v111 main_c_43
  let main_v113 : IVec S_ 1 := andi main_v108 main_v112
  main_v113

def fn_part5 {F : FTy → Type} [FloatOps F] (main_arg18 : FVec F S257 .f32) (main_arg19 : FVec F S283x256 .f32) (main_arg20 : FVec F S256 .f32) (main_arg21 : FVec F S256x3 .f32) (main_arg22 : FVec F S3 .f32) (main_v83 : IVec S_ 1) (main_v84 : FVec F S256x257 .f32) (main_cst_32 : FVec F S_ .f32) : IVec S_ 1 :=
  let main_v85 : FVec F S256x257 .f32 := broadcastInDim S256x257 ![] bcast_S_S256x257 main_cst_32
  let main_v86 : IVec S256x257 1 := cmpf .olt main_v84 main_v85
  let main_c_33 : IVec S_ 1 := constantI S_ 1 1#1
  let main_v87 : IVec S_ 1 := (fun x v => Host.reduce IntOp.andi x v reducesTo_S256x257_S_d0_1 h_S_) main_v86 main_c_33
  let main_v88 : IVec S_ 1 := andi main_v83 main_v87
  let main_v89 : FVec F S257 .f32 := Host.absf main_arg18
  let main_cst_34 : FVec F S_ .f32 := constant S_ .f32 0x7F800000#32
  let main_v90 : FVec F S257 .f32 := broadcastInDim S257 ![] bcast_S_S257 main_cst_34
  let main_v91 : IVec S257 1 := cmpf .olt main_v89 main_v90
  let main_c_35 : IVec S_ 1 := constantI S_ 1 1#1
  let main_v92 : IVec S_ 1 := (fun x v => Host.reduce IntOp.andi x v reducesTo_S257_S_d0 h_S_) main_v91 main_c_35
  let main_v93 : IVec S_ 1 := andi main_v88 main_v92
  let main_v94 : FVec F S283x256 .f32 := Host.absf main_arg19
  let main_cst_36 : FVec F S_ .f32 := constant S_ .f32 0x7F800000#32
  let main_v95 : FVec F S283x256 .f32 := broadcastInDim S283x256 ![] bcast_S_S283x256 main_cst_36
  let main_v96 : IVec S283x256 1 := cmpf .olt main_v94 main_v95
  let main_c_37 : IVec S_ 1 := constantI S_ 1 1#1
  let main_v97 : IVec S_ 1 := (fun x v => Host.reduce IntOp.andi x v reducesTo_S283x256_S_d0_1 h_S_) main_v96 main_c_37
  let main_v98 : IVec S_ 1 := andi main_v93 main_v97
  let main_v99 : FVec F S256 .f32 := Host.absf main_arg20
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S256 .f32) (main_arg15 : FVec F S256x256 .f32) (main_arg16 : FVec F S256 .f32) (main_arg17 : FVec F S256x257 .f32) (main_arg18 : FVec F S257 .f32) (main_arg19 : FVec F S283x256 .f32) (main_arg20 : FVec F S256 .f32) (main_arg21 : FVec F S256x3 .f32) (main_arg22 : FVec F S3 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x256 .f32 := Host.absf main_arg15
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x257 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S256x257 .f32) (main_arg18 : FVec F S257 .f32) (main_arg19 : FVec F S283x256 .f32) (main_arg20 : FVec F S256 .f32) (main_arg21 : FVec F S256x3 .f32) (main_arg22 : FVec F S3 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S256x256 .f32) (main_arg8 : FVec F S256 .f32) (main_arg9 : FVec F S319x256 .f32) (main_arg10 : FVec F S256 .f32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S256x257 .f32) (main_arg18 : FVec F S257 .f32) (main_arg19 : FVec F S283x256 .f32) (main_arg20 : FVec F S256 .f32) (main_arg21 : FVec F S256x3 .f32) (main_arg22 : FVec F S3 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S319x256 .f32 := Host.absf main_arg9
  let main_cst_16 : FVec F S_ .f32 := constant S_ .f32 0x7F800000#32
  let main_v45 : FVec F S319x256 .f32 := broadcastInDim S319x256 ![] bcast_S_S319x256 main_cst_16
  let main_v46 : IVec S319x256 1 := cmpf .olt main_v44 main_v45
  let main_c_17 : IVec S_ 1 := constantI S_ 1 1#1
  let main_v47 : IVec S_ 1 := (fun x v => Host.reduce IntOp.andi x v reducesTo_S319x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S319x256 .f32) (main_arg10 : FVec F S256 .f32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S256x257 .f32) (main_arg18 : FVec F S257 .f32) (main_arg19 : FVec F S283x256 .f32) (main_arg20 : FVec F S256 .f32) (main_arg21 : FVec F S256x3 .f32) (main_arg22 : FVec F S3 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S131072x90 .f32) (main_arg1 : FVec F S63x256 .f32) (main_arg2 : FVec F S256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S319x256 .f32) (main_arg10 : FVec F S256 .f32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S256x257 .f32) (main_arg18 : FVec F S257 .f32) (main_arg19 : FVec F S283x256 .f32) (main_arg20 : FVec F S256 .f32) (main_arg21 : FVec F S256x3 .f32) (main_arg22 : FVec F S3 .f32) : IVec S_ 1 :=
  let main_v0 : FVec F S131072x90 .f32 := Host.absf main_arg0
  let main_cst : FVec F S_ .f32 := constant S_ .f32 0x7F800000#32
  let main_v1 : FVec F S131072x90 .f32 := broadcastInDim S131072x90 ![] bcast_S_S131072x90 main_cst
  let main_v2 : IVec S131072x90 1 := cmpf .olt main_v0 main_v1
  let main_c : IVec S_ 1 := constantI S_ 1 1#1
  let main_v3 : IVec S_ 1 := (fun x v => Host.reduce IntOp.andi x v reducesTo_S131072x90_S_d0_1 h_S_) main_v2 main_c
  let main_v4 : FVec F S63x256 .f32 := Host.absf main_arg1
  let main_cst_0 : FVec F S_ .f32 := constant S_ .f32 0x7F800000#32
  let main_v5 : FVec F S63x256 .f32 := broadcastInDim S63x256 ![] bcast_S_S63x256 main_cst_0
  let main_v6 : IVec S63x256 1 := cmpf .olt main_v4 main_v5
  let main_c_1 : IVec S_ 1 := constantI S_ 1 1#1
  let main_v7 : IVec S_ 1 := (fun x v => Host.reduce IntOp.andi x v reducesTo_S63x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S131072x90 : Shape := ⟨2, ![131072, 90]⟩
abbrev S63x256 : Shape := ⟨2, ![63, 256]⟩
abbrev S256 : Shape := ⟨1, ![256]⟩
abbrev S256x256 : Shape := ⟨2, ![256, 256]⟩
abbrev S319x256 : Shape := ⟨2, ![319, 256]⟩
abbrev S256x257 : Shape := ⟨2, ![256, 257]⟩
abbrev S257 : Shape := ⟨1, ![257]⟩
abbrev S283x256 : Shape := ⟨2, ![283, 256]⟩
abbrev S256x3 : Shape := ⟨2, ![256, 3]⟩
abbrev S3 : Shape := ⟨1, ![3]⟩
abbrev S27x256 : Shape := ⟨2, ![27, 256]⟩
abbrev S131072x4 : Shape := ⟨2, ![131072, 4]⟩
abbrev S1024x90 : Shape := ⟨2, ![1024, 90]⟩
abbrev S1024x4 : Shape := ⟨2, ![1024, 4]⟩
abbrev S1024x63 : Shape := ⟨2, ![1024, 63]⟩
abbrev S1024x27 : Shape := ⟨2, ![1024, 27]⟩
abbrev S1024x256 : Shape := ⟨2, ![1024, 256]⟩
abbrev S1x256 : Shape := ⟨2, ![1, 256]⟩
abbrev S1024x257 : Shape := ⟨2, ![1024, 257]⟩
abbrev S1x257 : Shape := ⟨2, ![1, 257]⟩
abbrev S1024x1 : Shape := ⟨2, ![1024, 1]⟩
abbrev S1024x3 : Shape := ⟨2, ![1024, 3]⟩
abbrev S1x3 : Shape := ⟨2, ![1, 3]⟩

abbrev nBuf : Space → Nat
  | .hbm => 42
  | .vmem => 28
  | .smem => 0
  | _ => 0

abbrev bufTy : (tb : Table) → Fin (tcTables nBuf tb) → BufTy
  | .hbm, ⟨0, _⟩ => ⟨S131072x90, .f32⟩
  | .hbm, ⟨1, _⟩ => ⟨S63x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S319x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S256x257, .f32⟩
  | .hbm, ⟨18, _⟩ => ⟨S257, .f32⟩
  | .hbm, ⟨19, _⟩ => ⟨S283x256, .f32⟩
  | .hbm, ⟨20, _⟩ => ⟨S256, .f32⟩
  | .hbm, ⟨21, _⟩ => ⟨S256x3, .f32⟩
  | .hbm, ⟨22, _⟩ => ⟨S3, .f32⟩
  | .hbm, ⟨23, _⟩ => ⟨S131072x90, .bf16⟩
  | .hbm, ⟨24, _⟩ => ⟨S63x256, .bf16⟩
  | .hbm, ⟨25, _⟩ => ⟨S256x256, .bf16⟩
  | .hbm, ⟨26, _⟩ => ⟨S256x256, .bf16⟩
  | .hbm, ⟨27, _⟩ => ⟨S256x256, .bf16⟩
  | .hbm, ⟨28, _⟩ => ⟨S63x256, .f32⟩
  | .hbm, ⟨29, _⟩ => ⟨S63x256, .bf16⟩
  | .hbm, ⟨30, _⟩ => ⟨S256x256, .f32⟩
  | .hbm, ⟨31, _⟩ => ⟨S256x256, .bf16⟩
  | .hbm, ⟨32, _⟩ => ⟨S256x256, .bf16⟩
  | .hbm, ⟨33, _⟩ => ⟨S256x256, .bf16⟩
  | .hbm, ⟨34, _⟩ => ⟨S256x256, .bf16⟩
  | .hbm, ⟨35, _⟩ => ⟨S256x257, .bf16⟩
  | .hbm, ⟨36, _⟩ => ⟨S27x256, .f32⟩
  | .hbm, ⟨37, _⟩ => ⟨S27x256, .bf16⟩
  | .hbm, ⟨38, _⟩ => ⟨S256x256, .f32⟩
  | .hbm, ⟨39, _⟩ => ⟨S256x256, .bf16⟩
  | .hbm, ⟨40, _⟩ => ⟨S256x3, .bf16⟩
  | .hbm, ⟨41, _⟩ => ⟨S131072x4, .f32⟩
  | .local _ .vmem, ⟨0, _⟩ => ⟨S1024x90, .bf16⟩
  | .local _ .vmem, ⟨1, _⟩ => ⟨S1024x90, .bf16⟩
  | .local _ .vmem, ⟨2, _⟩ => ⟨S63x256, .bf16⟩
  | .local _ .vmem, ⟨3, _⟩ => ⟨S256, .f32⟩
  | .local _ .vmem, ⟨4, _⟩ => ⟨S256x256, .bf16⟩
  | .local _ .vmem, ⟨5, _⟩ => ⟨S256, .f32⟩
  | .local _ .vmem, ⟨6, _⟩ => ⟨S256x256, .bf16⟩
  | .local _ .vmem, ⟨7, _⟩ => ⟨S256, .f32⟩
  | .local _ .vmem, ⟨8, _⟩ => ⟨S256x256, .bf16⟩
  | .local _ .vmem, ⟨9, _⟩ => ⟨S256, .f32⟩
  | .local _ .vmem, ⟨10, _⟩ => ⟨S63x256, .bf16⟩
  | .local _ .vmem, ⟨11, _⟩ => ⟨S256x256, .bf16⟩
  | .local _ .vmem, ⟨12, _⟩ => ⟨S256, .f32⟩
  | .local _ .vmem, ⟨13, _⟩ => ⟨S256x256, .bf16⟩
  | .local _ .vmem, ⟨14, _⟩ => ⟨S256, .f32⟩
  | .local _ .vmem, ⟨15, _⟩ => ⟨S256x256, .bf16⟩
  | .local _ .vmem, ⟨16, _⟩ => ⟨S256, .f32⟩
  | .local _ .vmem, ⟨17, _⟩ => ⟨S256x256, .bf16⟩
  | .local _ .vmem, ⟨18, _⟩ => ⟨S256, .f32⟩
  | .local _ .vmem, ⟨19, _⟩ => ⟨S256x257, .bf16⟩
  | .local _ .vmem, ⟨20, _⟩ => ⟨S257, .f32⟩
  | .local _ .vmem, ⟨21, _⟩ => ⟨S27x256, .bf16⟩
  | .local _ .vmem, ⟨22, _⟩ => ⟨S256x256, .bf16⟩
  | .local _ .vmem, ⟨23, _⟩ => ⟨S256, .f32⟩
  | .local _ .vmem, ⟨24, _⟩ => ⟨S256x3, .bf16⟩
  | .local _ .vmem, ⟨25, _⟩ => ⟨S3, .f32⟩
  | .local _ .vmem, ⟨26, _⟩ => ⟨S1024x4, .f32⟩
  | .local _ .vmem, ⟨27, _⟩ => ⟨S1024x4, .f32⟩
  | _, _ => ⟨S131072x90, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg25_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem25_1 : DmaSem sig := 27

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x90 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S63x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S63x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x257 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S257 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S27x256 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x256 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S256x3 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S3 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S1024x4 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

class Facts₀ : Prop where
  bitsLt_bf16_f32 : FTy.bits .bf16 < FTy.bits .f32
  slices_S319x256_S63x256_0_0 : S319x256.Slices ![0, 0] S63x256
  slices_S319x256_S256x256_63_0 : S319x256.Slices ![63, 0] S256x256
  slices_S283x256_S27x256_0_0 : S283x256.Slices ![0, 0] S27x256
  slices_S283x256_S256x256_27_0 : S283x256.Slices ![27, 0] S256x256
  inb_S1024x90_S1024x90_0_0 : ∀ a, (![0, 0] : Fin 2 → Nat) a + S1024x90.size a ≤ S1024x90.size a
  h_S1024x90 : 0 < S1024x90.numel
  shapeCasts_S1024x90_S1024x90 : S1024x90.ShapeCasts S1024x90
  slices_S1024x90_o0_0_S1024x63 : S1024x90.Slices ![0, 0] S1024x63
  slices_S1024x90_o0_63_S1024x27 : S1024x90.Slices ![0, 63] S1024x27
  inb_S63x256_S63x256_0_0 : ∀ a, (![0, 0] : Fin 2 → Nat) a + S63x256.size a ≤ S63x256.size a
  h_S63x256 : 0 < S63x256.numel
  shapeCasts_S63x256_S63x256 : S63x256.ShapeCasts S63x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x257_S256x257_0_0 : ∀ a, (![0, 0] : Fin 2 → Nat) a + S256x257.size a ≤ S256x257.size a
  h_S256x257 : 0 < S256x257.numel
  shapeCasts_S256x257_S256x257 : S256x257.ShapeCasts S256x257
  inb_S257_S257_0 : ∀ a, (![0] : Fin 1 → Nat) a + S257.size a ≤ S257.size a
  h_S257 : 0 < S257.numel
  shapeCasts_S257_S1x257 : S257.ShapeCasts S1x257
  broadcasts_S1x257_S1024x257 : S1x257.Broadcasts S1024x257
  slices_S1024x257_o0_0_S1024x1 : S1024x257.Slices ![0, 0] S1024x1
  slices_S1024x257_o0_1_S1024x256 : S1024x257.Slices ![0, 1] S1024x256
  inb_S27x256_S27x256_0_0 : ∀ a, (![0, 0] : Fin 2 → Nat) a + S27x256.size a ≤ S27x256.size a
  h_S27x256 : 0 < S27x256.numel
  shapeCasts_S27x256_S27x256 : S27x256.ShapeCasts S27x256
  inb_S256x3_S256x3_0_0 : ∀ a, (![0, 0] : Fin 2 → Nat) a + S256x3.size a ≤ S256x3.size a
  h_S256x3 : 0 < S256x3.numel
  shapeCasts_S256x3_S256x3 : S256x3.ShapeCasts S256x3
  inb_S3_S3_0 : ∀ a, (![0] : Fin 1 → Nat) a + S3.size a ≤ S3.size a
  h_S3 : 0 < S3.numel
  shapeCasts_S3_S1x3 : S3.ShapeCasts S1x3
  broadcasts_S1x3_S1024x3 : S1x3.Broadcasts S1024x3
  inb_S1024x4_S1024x3_0_0 : ∀ a, (![0, 0] : Fin 2 → Nat) a + S1024x3.size a ≤ S1024x4.size a
  h_S1024x3 : 0 < S1024x3.numel
  inb_S1024x4_S1024x1_0_3 : ∀ a, (![0, 3] : Fin 2 → Nat) a + S1024x1.size a ≤ S1024x4.size a
  h_S1024x1 : 0 < S1024x1.numel
  dot_S1024x63_S63x256_S1024x256_1_0_0_1_n_n_wf : DotDims.WF S1024x63 S63x256 S1024x256 [1] [0] [0] [1] [] []
  dot_S1024x256_S256x256_S1024x256_1_0_0_1_n_n_wf : DotDims.WF S1024x256 S256x256 S1024x256 [1] [0] [0] [1] [] []
  dot_S1024x256_S256x257_S1024x257_1_0_0_1_n_n_wf : DotDims.WF S1024x256 S256x257 S1024x257 [1] [0] [0] [1] [] []
  dot_S1024x27_S27x256_S1024x256_1_0_0_1_n_n_wf : DotDims.WF S1024x27 S27x256 S1024x256 [1] [0] [0] [1] [] []
  dot_S1024x256_S256x3_S1024x3_1_0_0_1_n_n_wf : DotDims.WF S1024x256 S256x3 S1024x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x90.size a ≤ S131072x90.size a
  hwx0_0 : ∀ i : grid0.Coords, EltTy.bits .bf16 = 32 ∨ (Rect.block (s := S131072x90) S1024x90.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S63x256.size a ≤ S63x256.size a
  hwx0_1 : ∀ i : grid0.Coords, EltTy.bits .bf16 = 32 ∨ (Rect.block (s := S63x256) S63x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S63x256.size a ≤ S63x256.size a
  hwx0_9 : ∀ i : grid0.Coords, EltTy.bits .bf16 = 32 ∨ (Rect.block (s := S63x256) S63x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .bf16 = 32 ∨ (Rect.block (s := S256x256) S256x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S256x256.size a
  hwx0_12 : ∀ i : grid0.Coords, EltTy.bits .bf16 = 32 ∨ (Rect.block (s := S256x256) S256x256.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256.size a ≤ S256.size a
  hwx0_13 : ∀ i : grid0.Coords, EltTy.bits .f32 = 32 ∨ (Rect.block (s := S256) S256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x256.size a ≤ S256x256.size a
  hwx0_14 : ∀ i : grid0.Coords, EltTy.bits .bf16 = 32 ∨ (Rect.block (s := S256x256) S256x256.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256.size a ≤ S256.size a
  hwx0_15 : ∀ i : grid0.Coords, EltTy.bits .f32 = 32 ∨ (Rect.block (s := S256) S256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256x256.size a ≤ S256x256.size a
  hwx0_16 : ∀ i : grid0.Coords, EltTy.bits .bf16 = 32 ∨ (Rect.block (s := S256x256) S256x256.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256.size a ≤ S256.size a
  hwx0_17 : ∀ i : grid0.Coords, EltTy.bits .f32 = 32 ∨ (Rect.block (s := S256) S256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256x257.size a ≤ S256x257.size a
  hwx0_18 : ∀ i : grid0.Coords, EltTy.bits .bf16 = 32 ∨ (Rect.block (s := S256x257) S256x257.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S257.size a ≤ S257.size a
  hwx0_19 : ∀ i : grid0.Coords, EltTy.bits .f32 = 32 ∨ (Rect.block (s := S257) S257.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S27x256.size a ≤ S27x256.size a
  hwx0_20 : ∀ i : grid0.Coords, EltTy.bits .bf16 = 32 ∨ (Rect.block (s := S27x256) S27x256.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S256x256.size a ≤ S256x256.size a
  hwx0_21 : ∀ i : grid0.Coords, EltTy.bits .bf16 = 32 ∨ (Rect.block (s := S256x256) S256x256.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S256.size a ≤ S256.size a
  hwx0_22 : ∀ i : grid0.Coords, EltTy.bits .f32 = 32 ∨ (Rect.block (s := S256) S256.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S256x3.size a ≤ S256x3.size a
  hwx0_23 : ∀ i : grid0.Coords, EltTy.bits .bf16 = 32 ∨ (Rect.block (s := S256x3) S256x3.size (cc0_transform_23 i) (hinb0_23 i)).WholeWords (EltTy.packing .bf16)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S3.size a ≤ S3.size a
  hwx0_24 : ∀ i : grid0.Coords, EltTy.bits .f32 = 32 ∨ (Rect.block (s := S3) S3.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S1024x4.size a ≤ S131072x4.size a
  hwx0_25 : ∀ i : grid0.Coords, EltTy.bits .f32 = 32 ∨ (Rect.block (s := S131072x4) S1024x4.size (cc0_transform_25 i) (hinb0_25 i)).WholeWords (EltTy.packing .f32)

variable [Facts₀]

def dot_S1024x63_S63x256_S1024x256_1_0_0_1_n_n : DotDims S1024x63 S63x256 S1024x256 where
  lhsContracting := [1]
  rhsContracting := [0]
  lhsNonContracting := [0]
  rhsNonContracting := [1]
  lhsBatch := []
  rhsBatch := []
  wf := dot_S1024x63_S63x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x257_S1024x257_1_0_0_1_n_n : DotDims S1024x256 S256x257 S1024x257 where
  lhsContracting := [1]
  rhsContracting := [0]
  lhsNonContracting := [0]
  rhsNonContracting := [1]
  lhsBatch := []
  rhsBatch := []
  wf := dot_S1024x256_S256x257_S1024x257_1_0_0_1_n_n_wf
def dot_S1024x27_S27x256_S1024x256_1_0_0_1_n_n : DotDims S1024x27 S27x256 S1024x256 where
  lhsContracting := [1]
  rhsContracting := [0]
  lhsNonContracting := [0]
  rhsNonContracting := [1]
  lhsBatch := []
  rhsBatch := []
  wf := dot_S1024x27_S27x256_S1024x256_1_0_0_1_n_n_wf
def dot_S1024x256_S256x3_S1024x3_1_0_0_1_n_n : DotDims S1024x256 S256x3 S1024x3 where
  lhsContracting := [1]
  rhsContracting := [0]
  lhsNonContracting := [0]
  rhsNonContracting := [1]
  lhsBatch := []
  rhsBatch := []
  wf := dot_S1024x256_S256x3_S1024x3_1_0_0_1_n_n_wf

abbrev win0_0 : Pipeline.Window sig grid0 :=
  Pipeline.Window.ofSpec (Memref.whole main_v0) S1024x90.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S63x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S63x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v9) S256x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v10) S256x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg14) S256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v11) S256x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg16) S256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v12) S256x257.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg18) S257.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v14) S27x256.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v16) S256x256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg20) S256.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v17) S256x3.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg22) S3.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v18) S1024x4.size cc0_transform_25 reads0_25 true false 2 stage0_25 sem0_25
    hrank0 hreads0_25 hinb0_25 nbuf0_25 (Memref.isWhole_whole _) hwx0_25 hstage0_25

abbrev win0 : Fin 26 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | ⟨_ + 26, h⟩ => absurd h (Nat.not_lt.2 (Nat.le_add_left _ _))
abbrev spec0 : Fin 26 → Pipeline.WinSpec sig grid0.rank := fun w => (win0 w).toWinSpec

class Facts : Prop extends Facts₀ where

variable [Facts]
-- ==== ReferenceIdeal.lean ====
abbrev S131072x90 : Shape := ⟨2, ![131072, 90]⟩
abbrev S63x256 : Shape := ⟨2, ![63, 256]⟩
abbrev S256 : Shape := ⟨1, ![256]⟩
abbrev S256x256 : Shape := ⟨2, ![256, 256]⟩
abbrev S319x256 : Shape := ⟨2, ![319, 256]⟩
abbrev S256x257 : Shape := ⟨2, ![256, 257]⟩
abbrev S257 : Shape := ⟨1, ![257]⟩
abbrev S283x256 : Shape := ⟨2, ![283, 256]⟩
abbrev S256x3 : Shape := ⟨2, ![256, 3]⟩
abbrev S3 : Shape := ⟨1, ![3]⟩
abbrev S131072x63 : Shape := ⟨2, ![131072, 63]⟩
abbrev S131072x27 : Shape := ⟨2, ![131072, 27]⟩
abbrev S131072x256 : Shape := ⟨2, ![131072, 256]⟩
abbrev S1x256 : Shape := ⟨2, ![1, 256]⟩
abbrev S_ : Shape := ⟨0, ![]⟩
abbrev S131072x319 : Shape := ⟨2, ![131072, 319]⟩
abbrev S131072x257 : Shape := ⟨2, ![131072, 257]⟩
abbrev S1x257 : Shape := ⟨2, ![1, 257]⟩
abbrev S131072x1 : Shape := ⟨2, ![131072, 1]⟩
abbrev S131072x283 : Shape := ⟨2, ![131072, 283]⟩
abbrev S131072x3 : Shape := ⟨2, ![131072, 3]⟩
abbrev S1x3 : Shape := ⟨2, ![1, 3]⟩
abbrev S131072x4 : Shape := ⟨2, ![131072, 4]⟩

abbrev nBuf : Space → Nat
  | .hbm => 101
  | .vmem => 0
  | .smem => 0
  | _ => 0

abbrev bufTy : (tb : Table) → Fin (tcTables nBuf tb) → BufTy
  | .hbm, ⟨0, _⟩ => ⟨S131072x90, .f32⟩
  | .hbm, ⟨1, _⟩ => ⟨S63x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S319x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S256x257, .f32⟩
  | .hbm, ⟨18, _⟩ => ⟨S257, .f32⟩
  | .hbm, ⟨19, _⟩ => ⟨S283x256, .f32⟩
  | .hbm, ⟨20, _⟩ => ⟨S256, .f32⟩
  | .hbm, ⟨21, _⟩ => ⟨S256x3, .f32⟩
  | .hbm, ⟨22, _⟩ => ⟨S3, .f32⟩
  | .hbm, ⟨23, _⟩ => ⟨S131072x63, .f32⟩
  | .hbm, ⟨24, _⟩ => ⟨S131072x27, .f32⟩
  | .hbm, ⟨25, _⟩ => ⟨S131072x256, .f32⟩
  | .hbm, ⟨26, _⟩ => ⟨S1x256, .f32⟩
  | .hbm, ⟨27, _⟩ => ⟨S131072x256, .f32⟩
  | .hbm, ⟨28, _⟩ => ⟨S131072x256, .f32⟩
  | .hbm, ⟨29, _⟩ => ⟨S_, .f32⟩
  | .hbm, ⟨30, _⟩ => ⟨S131072x256, .f32⟩
  | .hbm, ⟨31, _⟩ => ⟨S131072x256, .f32⟩
  | .hbm, ⟨32, _⟩ => ⟨S131072x256, .f32⟩
  | .hbm, ⟨33, _⟩ => ⟨S1x256, .f32⟩
  | .hbm, ⟨34, _⟩ => ⟨S131072x256, .f32⟩
  | .hbm, ⟨35, _⟩ => ⟨S131072x256, .f32⟩
  | .hbm, ⟨36, _⟩ => ⟨S_, .f32⟩
  | .hbm, ⟨37, _⟩ => ⟨S131072x256, .f32⟩
  | .hbm, ⟨38, _⟩ => ⟨S131072x256, .f32⟩
  | .hbm, ⟨39, _⟩ => ⟨S131072x256, .f32⟩
  | .hbm, ⟨40, _⟩ => ⟨S1x256, .f32⟩
  | .hbm, ⟨41, _⟩ => ⟨S131072x256, .f32⟩
  | .hbm, ⟨42, _⟩ => ⟨S131072x256, .f32⟩
  | .hbm, ⟨43, _⟩ => ⟨S_, .f32⟩
  | .hbm, ⟨44, _⟩ => ⟨S131072x256, .f32⟩
  | .hbm, ⟨45, _⟩ => ⟨S131072x256, .f32⟩
  | .hbm, ⟨46, _⟩ => ⟨S131072x256, .f32⟩
  | .hbm, ⟨47, _⟩ => ⟨S1x256, .f32⟩
  | .hbm, ⟨48, _⟩ => ⟨S131072x256, .f32⟩
  | .hbm, ⟨49, _⟩ => ⟨S131072x256, .f32⟩
  | .hbm, ⟨50, _⟩ => ⟨S_, .f32⟩
  | .hbm, ⟨51, _⟩ => ⟨S131072x256, .f32⟩
  | .hbm, ⟨52, _⟩ => ⟨S131072x256, .f32⟩
  | .hbm, ⟨53, _⟩ => ⟨S131072x319, .f32⟩
  | .hbm, ⟨54, _⟩ => ⟨S131072x256, .f32⟩
  | .hbm, ⟨55, _⟩ => ⟨S1x256, .f32⟩
  | .hbm, ⟨56, _⟩ => ⟨S131072x256, .f32⟩
  | .hbm, ⟨57, _⟩ => ⟨S131072x256, .f32⟩
  | .hbm, ⟨58, _⟩ => ⟨S_, .f32⟩
  | .hbm, ⟨59, _⟩ => ⟨S131072x256, .f32⟩
  | .hbm, ⟨60, _⟩ => ⟨S131072x256, .f32⟩
  | .hbm, ⟨61, _⟩ => ⟨S131072x256, .f32⟩
  | .hbm, ⟨62, _⟩ => ⟨S1x256, .f32⟩
  | .hbm, ⟨63, _⟩ => ⟨S131072x256, .f32⟩
  | .hbm, ⟨64, _⟩ => ⟨S131072x256, .f32⟩
  | .hbm, ⟨65, _⟩ => ⟨S_, .f32⟩
  | .hbm, ⟨66, _⟩ => ⟨S131072x256, .f32⟩
  | .hbm, ⟨67, _⟩ => ⟨S131072x256, .f32⟩
  | .hbm, ⟨68, _⟩ => ⟨S131072x256, .f32⟩
  | .hbm, ⟨69, _⟩ => ⟨S1x256, .f32⟩
  | .hbm, ⟨70, _⟩ => ⟨S131072x256, .f32⟩
  | .hbm, ⟨71, _⟩ => ⟨S131072x256, .f32⟩
  | .hbm, ⟨72, _⟩ => ⟨S_, .f32⟩
  | .hbm, ⟨73, _⟩ => ⟨S131072x256, .f32⟩
  | .hbm, ⟨74, _⟩ => ⟨S131072x256, .f32⟩
  | .hbm, ⟨75, _⟩ => ⟨S131072x256, .f32⟩
  | .hbm, ⟨76, _⟩ => ⟨S1x256, .f32⟩
  | .hbm, ⟨77, _⟩ => ⟨S131072x256, .f32⟩
  | .hbm, ⟨78, _⟩ => ⟨S131072x256, .f32⟩
  | .hbm, ⟨79, _⟩ => ⟨S_, .f32⟩
  | .hbm, ⟨80, _⟩ => ⟨S131072x256, .f32⟩
  | .hbm, ⟨81, _⟩ => ⟨S131072x256, .f32⟩
  | .hbm, ⟨82, _⟩ => ⟨S131072x257, .f32⟩
  | .hbm, ⟨83, _⟩ => ⟨S1x257, .f32⟩
  | .hbm, ⟨84, _⟩ => ⟨S131072x257, .f32⟩
  | .hbm, ⟨85, _⟩ => ⟨S131072x257, .f32⟩
  | .hbm, ⟨86, _⟩ => ⟨S131072x1, .f32⟩
  | .hbm, ⟨87, _⟩ => ⟨S131072x256, .f32⟩
  | .hbm, ⟨88, _⟩ => ⟨S131072x283, .f32⟩
  | .hbm, ⟨89, _⟩ => ⟨S131072x256, .f32⟩
  | .hbm, ⟨90, _⟩ => ⟨S1x256, .f32⟩
  | .hbm, ⟨91, _⟩ => ⟨S131072x256, .f32⟩
  | .hbm, ⟨92, _⟩ => ⟨S131072x256, .f32⟩
  | .hbm, ⟨93, _⟩ => ⟨S_, .f32⟩
  | .hbm, ⟨94, _⟩ => ⟨S131072x256, .f32⟩
  | .hbm, ⟨95, _⟩ => ⟨S131072x256, .f32⟩
  | .hbm, ⟨96, _⟩ => ⟨S131072x3, .f32⟩
  | .hbm, ⟨97, _⟩ => ⟨S1x3, .f32⟩
  | .hbm, ⟨98, _⟩ => ⟨S131072x3, .f32⟩
  | .hbm, ⟨99, _⟩ => ⟨S131072x3, .f32⟩
  | .hbm, ⟨100, _⟩ => ⟨S131072x4, .f32⟩
  | _, _ => ⟨S131072x90, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_call0_cst : Ref sig .tc := ⟨.hbm, 29, rfl⟩
abbrev main_call0_v0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_call1_cst : Ref sig .tc := ⟨.hbm, 36, rfl⟩
abbrev main_call1_v0 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_call2_cst : Ref sig .tc := ⟨.hbm, 43, rfl⟩
abbrev main_call2_v0 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_call3_cst : Ref sig .tc := ⟨.hbm, 50, rfl⟩
abbrev main_call3_v0 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_call4_cst : Ref sig .tc := ⟨.hbm, 58, rfl⟩
abbrev main_call4_v0 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_call5_cst : Ref sig .tc := ⟨.hbm, 65, rfl⟩
abbrev main_call5_v0 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_call6_cst : Ref sig .tc := ⟨.hbm, 72, rfl⟩
abbrev main_call6_v0 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_call7_cst : Ref sig .tc := ⟨.hbm, 79, rfl⟩
abbrev main_call7_v0 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_call8_cst : Ref sig .tc := ⟨.hbm, 93, rfl⟩
abbrev main_call8_v0 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩

abbrev nD : Nat := 1
abbrev τ : Topo := Topo.v7x

variable {F : FTy → Type} [FloatOps F]

class Facts₀ : Prop where
  slices_S131072x90_S131072x63_0_0 : S131072x90.Slices ![0, 0] S131072x63
  slices_S131072x90_S131072x27_0_63 : S131072x90.Slices ![0, 63] S131072x27
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  concatenates_S131072x63_S131072x256_S131072x319_d1 : Shape.Concatenates [S131072x63, S131072x256] S131072x319 1
  bcast_S257_S1x257_1 : S257.BroadcastsInDim S1x257 (![1] : Fin 1 → Fin S1x257.rank)
  bcast_S1x257_S131072x257_0_1 : S1x257.BroadcastsInDim S131072x257 (![0, 1] : Fin 2 → Fin S131072x257.rank)
  slices_S131072x257_S131072x1_0_0 : S131072x257.Slices ![0, 0] S131072x1
  slices_S131072x257_S131072x256_0_1 : S131072x257.Slices ![0, 1] S131072x256
  concatenates_S131072x27_S131072x256_S131072x283_d1 : Shape.Concatenates [S131072x27, S131072x256] S131072x283 1
  bcast_S3_S1x3_1 : S3.BroadcastsInDim S1x3 (![1] : Fin 1 → Fin S1x3.rank)
  bcast_S1x3_S131072x3_0_1 : S1x3.BroadcastsInDim S131072x3 (![0, 1] : Fin 2 → Fin S131072x3.rank)
  concatenates_S131072x3_S131072x1_S131072x4_d1 : Shape.Concatenates [S131072x3, S131072x1] S131072x4 1
  dot_S131072x63_S63x256_S131072x256_1_0_0_1_n_n_wf : DotDims.WF S131072x63 S63x256 S131072x256 [1] [0] [0] [1] [] []
  dot_S131072x256_S256x256_S131072x256_1_0_0_1_n_n_wf : DotDims.WF S131072x256 S256x256 S131072x256 [1] [0] [0] [1] [] []
  dot_S131072x319_S319x256_S131072x256_1_0_0_1_n_n_wf : DotDims.WF S131072x319 S319x256 S131072x256 [1] [0] [0] [1] [] []
  dot_S131072x256_S256x257_S131072x257_1_0_0_1_n_n_wf : DotDims.WF S131072x256 S256x257 S131072x257 [1] [0] [0] [1] [] []
  dot_S131072x283_S283x256_S131072x256_1_0_0_1_n_n_wf : DotDims.WF S131072x283 S283x256 S131072x256 [1] [0] [0] [1] [] []
  dot_S131072x256_S256x3_S131072x3_1_0_0_1_n_n_wf : DotDims.WF S131072x256 S256x3 S131072x3 [1] [0] [0] [1] [] []

variable [Facts₀]

def dot_S131072x63_S63x256_S131072x256_1_0_0_1_n_n : DotDims S131072x63 S63x256 S131072x256 where
  lhsContracting := [1]
  rhsContracting := [0]
  lhsNonContracting := [0]
  rhsNonContracting := [1]
  lhsBatch := []
  rhsBatch := []
  wf := dot_S131072x63_S63x256_S131072x256_1_0_0_1_n_n_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def dot_S131072x319_S319x256_S131072x256_1_0_0_1_n_n : DotDims S131072x319 S319x256 S131072x256 where
  lhsContracting := [1]
  rhsContracting := [0]
  lhsNonContracting := [0]
  rhsNonContracting := [1]
  lhsBatch := []
  rhsBatch := []
  wf := dot_S131072x319_S319x256_S131072x256_1_0_0_1_n_n_wf
def dot_S131072x256_S256x257_S131072x257_1_0_0_1_n_n : DotDims S131072x256 S256x257 S131072x257 where
  lhsContracting := [1]
  rhsContracting := [0]
  lhsNonContracting := [0]
  rhsNonContracting := [1]
  lhsBatch := []
  rhsBatch := []
  wf := dot_S131072x256_S256x257_S131072x257_1_0_0_1_n_n_wf
def dot_S131072x283_S283x256_S131072x256_1_0_0_1_n_n : DotDims S131072x283 S283x256 S131072x256 where
  lhsContracting := [1]
  rhsContracting := [0]
  lhsNonContracting := [0]
  rhsNonContracting := [1]
  lhsBatch := []
  rhsBatch := []
  wf := dot_S131072x283_S283x256_S131072x256_1_0_0_1_n_n_wf
def dot_S131072x256_S256x3_S131072x3_1_0_0_1_n_n : DotDims S131072x256 S256x3 S131072x3 where
  lhsContracting := [1]
  rhsContracting := [0]
  lhsNonContracting := [0]
  rhsNonContracting := [1]
  lhsBatch := []
  rhsBatch := []
  wf := dot_S131072x256_S256x3_S131072x3_1_0_0_1_n_n_wf

class Facts : Prop extends Facts₀ where

variable [Facts]
-- ==== Proof.Spec.lean ====
/-
  The network that both programs compute, written row by row on extended reals.

  One input row has 90 entries: 63 positional channels followed by 27 view channels. A first trunk of four
  rectified affine layers maps the positional channels to 256 hidden values. A second trunk starts from the
  positional channels JOINED with those hidden values (a skip connection), so its first layer has 319 inputs;
  three more rectified layers and one plain affine layer give 257 values, of which entry 0 is the density and
  the other 256 are features. The colour head joins the view channels with the features (283 inputs), applies
  one rectified layer and one plain affine layer, and gives 3 values. The output row is the three colour
  values followed by the density.

  An affine layer on a joined vector is the sum of two products, one with the upper rows of the weight matrix
  and one with the lower rows (`dotRow_cat`): a finite sum over `Fin (K₁ + K₂)` splits into the sums over its
  two ranges, which holds in any additive commutative monoid, so also on the extended reals with their
  infinities. Nothing else is used to compare the two programs.
-/
import Idealize.ShloMosaic.PureOps.Ideal
import Idealize.ShloMosaic.Lib.ValueIdx

noncomputable section

namespace Nerf

open Idealize.ShloMosaic Idealize.ShloMosaic.ValueIdx

/-! ## Rows, matrices and vectors read out of arrays -/

/-- Row `r` of a rank-2 array. -/
def row {R C : ℕ} (X : (⟨2, ![R, C]⟩ : Shape).Idx → EReal) (r : Fin R) : Fin C → EReal := fun k => X (ix2 r k)

/-- A rank-2 array as a matrix. -/
def mat {K N : ℕ} (W : (⟨2, ![K, N]⟩ : Shape).Idx → EReal) : Fin K → Fin N → EReal := fun k j => W (ix2 k j)

/-- A rank-1 array as a vector. -/
def vec {N : ℕ} (b : (⟨1, ![N]⟩ : Shape).Idx → EReal) : Fin N → EReal := fun j => b (ix1 j)

/-! ## Layers -/

/-- A row vector times a matrix. -/
def dotRow {K N : ℕ} (v : Fin K → EReal) (w : Fin K → Fin N → EReal) : Fin N → EReal :=
  fun j => ∑ k : Fin K, v k * w k j

/-- An affine layer. -/
def lin {K N : ℕ} (v : Fin K → EReal) (w : Fin K → Fin N → EReal) (b : Fin N → EReal) : Fin N → EReal :=
  fun j => dotRow v w j + b j

/-- An affine layer on two inputs, each with its own weight matrix. -/
def lin2 {K₁ K₂ N : ℕ} (u : Fin K₁ → EReal) (wu : Fin K₁ → Fin N → EReal) (v : Fin K₂ → EReal)
    (wv : Fin K₂ → Fin N → EReal) (b : Fin N → EReal) : Fin N → EReal :=
  fun j => (dotRow u wu j + dotRow v wv j) + b j

/-- The rectifier. -/
def relu {N : ℕ} (v : Fin N → EReal) : Fin N → EReal := fun j => max (v j) 0

/-! ## Joining two vectors, and the rows of a matrix that go with each part -/

/-- `u` followed by `v`. -/
def cat {K₁ K₂ K : ℕ} (hK : K₁ + K₂ = K) (u : Fin K₁ → EReal) (v : Fin K₂ → EReal) : Fin K → EReal :=
  fun k => if h : k.val < K₁ then u ⟨k.val, h⟩ else v ⟨k.val - K₁, by have := k.isLt; omega⟩

/-- The first `K₁` rows of a matrix. -/
def top {K₁ K₂ K N : ℕ} (hK : K₁ + K₂ = K) (w : Fin K → Fin N → EReal) : Fin K₁ → Fin N → EReal :=
  fun k => w ⟨k.val, by have := k.isLt; omega⟩

/-- The last `K₂` rows of a matrix. -/
def bot {K₁ K₂ K N : ℕ} (hK : K₁ + K₂ = K) (w : Fin K → Fin N → EReal) : Fin K₂ → Fin N → EReal :=
  fun k => w ⟨K₁ + k.val, by have := k.isLt; omega⟩

/-- The first `K₁` entries of a vector. -/
def headPart {K₁ K₂ K : ℕ} (hK : K₁ + K₂ = K) (x : Fin K → EReal) : Fin K₁ → EReal :=
  fun k => x ⟨k.val, by have := k.isLt; omega⟩

/-- The last `K₂` entries of a vector. -/
def tailPart {K₁ K₂ K : ℕ} (hK : K₁ + K₂ = K) (x : Fin K → EReal) : Fin K₂ → EReal :=
  fun k => x ⟨K₁ + k.val, by have := k.isLt; omega⟩

/-- A joined vector times a matrix is the first part times the upper rows plus the second part times the lower
    rows: the sum over `Fin (K₁ + K₂)` splits into the sums over its two ranges. -/
theorem dotRow_cat {K₁ K₂ K N : ℕ} (hK : K₁ + K₂ = K) (u : Fin K₁ → EReal) (v : Fin K₂ → EReal)
    (w : Fin K → Fin N → EReal) (j : Fin N) :
    dotRow (cat hK u v) w j = dotRow u (top hK w) j + dotRow v (bot hK w) j := by
  subst hK
  unfold dotRow
  rw [Fin.sum_univ_add]
  congr 1
  · refine Finset.sum_congr rfl fun k _ => ?_
    have hk : (Fin.castAdd K₂ k).val < K₁ := k.isLt
    simp only [cat, top, dif_pos hk]
    rfl
  · refine Finset.sum_congr rfl fun k _ => ?_
    have hk : ¬ (Fin.natAdd K₁ k).val < K₁ := by simp [Fin.natAdd]
    simp only [cat, bot, dif_neg hk]
    congr 2
    · exact Fin.ext (by simp [Fin.natAdd])

/-- So an affine layer on a joined vector is the two-input layer with the matrix's upper and lower rows. -/
theorem lin_cat {K₁ K₂ K N : ℕ} (hK : K₁ + K₂ = K) (u : Fin K₁ → EReal) (v : Fin K₂ → EReal)
    (w : Fin K → Fin N → EReal) (b : Fin N → EReal) :
    lin (cat hK u v) w b = lin2 u (top hK w) v (bot hK w) b := by
  funext j
  unfold lin lin2
  rw [dotRow_cat]

/-! ## The network on one row -/

/-- The first trunk: four rectified affine layers from the 63 positional channels. -/
def trunk1 (p : Fin 63 → EReal)
    (d1w : Fin 63 → Fin 256 → EReal) (d1b : Fin 256 → EReal) (d2w : Fin 256 → Fin 256 → EReal) (d2b : Fin 256 → EReal)
    (d3w : Fin 256 → Fin 256 → EReal) (d3b : Fin 256 → EReal) (d4w : Fin 256 → Fin 256 → EReal) (d4b : Fin 256 → EReal) :
    Fin 256 → EReal :=
  relu (lin (relu (lin (relu (lin (relu (lin p d1w d1b)) d2w d2b)) d3w d3b)) d4w d4b)

/-- The second trunk: a rectified two-input layer on the positional channels and the first trunk's values,
    then three rectified affine layers. -/
def trunk2 (p : Fin 63 → EReal) (h : Fin 256 → EReal)
    (e1p : Fin 63 → Fin 256 → EReal) (e1h : Fin 256 → Fin 256 → EReal) (e1b : Fin 256 → EReal)
    (e2w : Fin 256 → Fin 256 → EReal) (e2b : Fin 256 → EReal) (e3w : Fin 256 → Fin 256 → EReal) (e3b : Fin 256 → EReal)
    (e4w : Fin 256 → Fin 256 → EReal) (e4b : Fin 256 → EReal) : Fin 256 → EReal :=
  relu (lin (relu (lin (relu (lin (relu (lin2 p e1p h e1h e1b)) e2w e2b)) e3w e3b)) e4w e4b)

/-- The density (entry 0) and the 256 features (entries 1 to 256): one affine layer, not rectified. -/
def hid (g : Fin 256 → EReal) (e5w : Fin 256 → Fin 257 → EReal) (e5b : Fin 257 → EReal) : Fin 257 → EReal :=
  lin g e5w e5b

/-- The colour head: a rectified two-input layer on the view channels and the features, then an affine layer. -/
def colour (v : Fin 27 → EReal) (f : Fin 256 → EReal)
    (c1v : Fin 27 → Fin 256 → EReal) (c1f : Fin 256 → Fin 256 → EReal) (c1b : Fin 256 → EReal)
    (c2w : Fin 256 → Fin 3 → EReal) (c2b : Fin 3 → EReal) : Fin 3 → EReal :=
  lin (relu (lin2 v c1v f c1f c1b)) c2w c2b

/-- The 257 values of one input row. -/
def hidRow (x : Fin 90 → EReal)
    (d1w : Fin 63 → Fin 256 → EReal) (d1b : Fin 256 → EReal) (d2w : Fin 256 → Fin 256 → EReal) (d2b : Fin 256 → EReal)
    (d3w : Fin 256 → Fin 256 → EReal) (d3b : Fin 256 → EReal) (d4w : Fin 256 → Fin 256 → EReal) (d4b : Fin 256 → EReal)
    (e1w : Fin 319 → Fin 256 → EReal) (e1b : Fin 256 → EReal)
    (e2w : Fin 256 → Fin 256 → EReal) (e2b : Fin 256 → EReal) (e3w : Fin 256 → Fin 256 → EReal) (e3b : Fin 256 → EReal)
    (e4w : Fin 256 → Fin 256 → EReal) (e4b : Fin 256 → EReal)
    (e5w : Fin 256 → Fin 257 → EReal) (e5b : Fin 257 → EReal) : Fin 257 → EReal :=
  hid (trunk2 (headPart (K₁ := 63) (K₂ := 27) rfl x)
      (trunk1 (headPart (K₁ := 63) (K₂ := 27) rfl x) d1w d1b d2w d2b d3w d3b d4w d4b)
      (top (K₁ := 63) (K₂ := 256) rfl e1w) (bot (K₁ := 63) (K₂ := 256) rfl e1w) e1b e2w e2b e3w e3b e4w e4b) e5w e5b

/-- The output row: three colour values, then the density. -/
def outRow (x : Fin 90 → EReal)
    (d1w : Fin 63 → Fin 256 → EReal) (d1b : Fin 256 → EReal) (d2w : Fin 256 → Fin 256 → EReal) (d2b : Fin 256 → EReal)
    (d3w : Fin 256 → Fin 256 → EReal) (d3b : Fin 256 → EReal) (d4w : Fin 256 → Fin 256 → EReal) (d4b : Fin 256 → EReal)
    (e1w : Fin 319 → Fin 256 → EReal) (e1b : Fin 256 → EReal)
    (e2w : Fin 256 → Fin 256 → EReal) (e2b : Fin 256 → EReal) (e3w : Fin 256 → Fin 256 → EReal) (e3b : Fin 256 → EReal)
    (e4w : Fin 256 → Fin 256 → EReal) (e4b : Fin 256 → EReal)
    (e5w : Fin 256 → Fin 257 → EReal) (e5b : Fin 257 → EReal)
    (c1w : Fin 283 → Fin 256 → EReal) (c1b : Fin 256 → EReal) (c2w : Fin 256 → Fin 3 → EReal) (c2b : Fin 3 → EReal) :
    Fin 4 → EReal :=
  fun q =>
    if h : q.val < 3 then
      colour (tailPart (K₁ := 63) (K₂ := 27) rfl x)
        (tailPart (K₁ := 1) (K₂ := 256) rfl
          (hidRow x d1w d1b d2w d2b d3w d3b d4w d4b e1w e1b e2w e2b e3w e3b e4w e4b e5w e5b))
        (top (K₁ := 27) (K₂ := 256) rfl c1w) (bot (K₁ := 27) (K₂ := 256) rfl c1w) c1b c2w c2b ⟨q.val, h⟩
    else hidRow x d1w d1b d2w d2b d3w d3b d4w d4b e1w e1b e2w e2b e3w e3b e4w e4b e5w e5b ⟨0, by decide⟩

/-! ## The whole result array -/

/-- The result array as one function of the 23 argument arrays: row `r` of the result is the network on row `r`
    of the first argument. -/
def G (X : (⟨2, ![131072, 90]⟩ : Shape).Idx → EReal)
    (A1 : (⟨2, ![63, 256]⟩ : Shape).Idx → EReal) (A2 : (⟨1, ![256]⟩ : Shape).Idx → EReal)
    (A3 : (⟨2, ![256, 256]⟩ : Shape).Idx → EReal) (A4 : (⟨1, ![256]⟩ : Shape).Idx → EReal)
    (A5 : (⟨2, ![256, 256]⟩ : Shape).Idx → EReal) (A6 : (⟨1, ![256]⟩ : Shape).Idx → EReal)
    (A7 : (⟨2, ![256, 256]⟩ : Shape).Idx → EReal) (A8 : (⟨1, ![256]⟩ : Shape).Idx → EReal)
    (A9 : (⟨2, ![319, 256]⟩ : Shape).Idx → EReal) (A10 : (⟨1, ![256]⟩ : Shape).Idx → EReal)
    (A11 : (⟨2, ![256, 256]⟩ : Shape).Idx → EReal) (A12 : (⟨1, ![256]⟩ : Shape).Idx → EReal)
    (A13 : (⟨2, ![256, 256]⟩ : Shape).Idx → EReal) (A14 : (⟨1, ![256]⟩ : Shape).Idx → EReal)
    (A15 : (⟨2, ![256, 256]⟩ : Shape).Idx → EReal) (A16 : (⟨1, ![256]⟩ : Shape).Idx → EReal)
    (A17 : (⟨2, ![256, 257]⟩ : Shape).Idx → EReal) (A18 : (⟨1, ![257]⟩ : Shape).Idx → EReal)
    (A19 : (⟨2, ![283, 256]⟩ : Shape).Idx → EReal) (A20 : (⟨1, ![256]⟩ : Shape).Idx → EReal)
    (A21 : (⟨2, ![256, 3]⟩ : Shape).Idx → EReal) (A22 : (⟨1, ![3]⟩ : Shape).Idx → EReal) :
    (⟨2, ![131072, 4]⟩ : Shape).Idx → EReal :=
  fun i => outRow (row X (i 0)) (mat A1) (vec A2) (mat A3) (vec A4) (mat A5) (vec A6) (mat A7) (vec A8)
    (mat A9) (vec A10) (mat A11) (vec A12) (mat A13) (vec A14) (mat A15) (vec A16) (mat A17) (vec A18)
    (mat A19) (vec A20) (mat A21) (vec A22) (i 1)

end Nerf

end
-- ==== Proof.KernelPay.lean ====
/-
  The kernel's two stored values at one row of a block, as the network of Spec on that row.

  The body loads a block of 1024 input rows and every weight matrix and bias vector whole, and stores two
  values: a [1024, 3] colour value and a [1024, 1] density value. Each is a composition of matrix products
  into a zero accumulator, bias additions (the bias broadcast along the rows), rectifiers (a maximum with
  the zero splat), narrowing conversions (the identity on extended reals) and column slices. Read at row
  `p`, every product is a sum over the contracted axis of the row's entries times the matrix's entries, so
  each value at row `p` is the corresponding stage of the network applied to row `p` of the input block.
-/
import proofs.«139490_j46471546142968_1_alg».proof.Proof.Gen.KernelIdeal.Skeleton
import proofs.«139490_j46471546142968_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Nerf

/-! ### The product of a [1024, 63] array with a [63, 256] array -/

/- The operand indices of this product at an output index and a contraction index, one coordinate at a time: the left
   operand is read at (output row, contracted index) and the right operand at (contracted index, output column). -/

theorem lhs_dot_S1024x63_S63x256_S1024x256_1_0_0_1_n_n_0 (i : S1024x256.Idx) (q : dot_S1024x63_S63x256_S1024x256_1_0_0_1_n_n.contr.Idx) :
    (dot_S1024x63_S63x256_S1024x256_1_0_0_1_n_n.lhsIdx i q 0).val = (i 0).val := by
  unfold DotDims.lhsIdx
  rw [dif_neg (show ¬(0 : Fin S1024x63.rank) ∈ dot_S1024x63_S63x256_S1024x256_1_0_0_1_n_n.lhsBatch by decide), dif_pos (show (0 : Fin S1024x63.rank) ∈ dot_S1024x63_S63x256_S1024x256_1_0_0_1_n_n.lhsNonContracting by decide)]
  rfl
theorem lhs_dot_S1024x63_S63x256_S1024x256_1_0_0_1_n_n_1 (i : S1024x256.Idx) (q : dot_S1024x63_S63x256_S1024x256_1_0_0_1_n_n.contr.Idx) :
    (dot_S1024x63_S63x256_S1024x256_1_0_0_1_n_n.lhsIdx i q 1).val = (q ⟨0, by decide⟩).val :=
  dot_S1024x63_S63x256_S1024x256_1_0_0_1_n_n.lhsIdx_val_of_single rfl i q
theorem rhs_dot_S1024x63_S63x256_S1024x256_1_0_0_1_n_n_0 (i : S1024x256.Idx) (q : dot_S1024x63_S63x256_S1024x256_1_0_0_1_n_n.contr.Idx) :
    (dot_S1024x63_S63x256_S1024x256_1_0_0_1_n_n.rhsIdx i q 0).val = (q ⟨0, by decide⟩).val :=
  dot_S1024x63_S63x256_S1024x256_1_0_0_1_n_n.rhsIdx_val_of_single rfl i q
theorem rhs_dot_S1024x63_S63x256_S1024x256_1_0_0_1_n_n_1 (i : S1024x256.Idx) (q : dot_S1024x63_S63x256_S1024x256_1_0_0_1_n_n.contr.Idx) :
    (dot_S1024x63_S63x256_S1024x256_1_0_0_1_n_n.rhsIdx i q 1).val = (i 1).val := by
  unfold DotDims.rhsIdx
  rw [dif_neg (show ¬(1 : Fin S63x256.rank) ∈ dot_S1024x63_S63x256_S1024x256_1_0_0_1_n_n.rhsBatch by decide), dif_pos (show (1 : Fin S63x256.rank) ∈ dot_S1024x63_S63x256_S1024x256_1_0_0_1_n_n.rhsNonContracting by decide)]
  rfl

/-- Into a zero accumulator, entry (p, j) of the product is the sum over the contracted axis of the left operand's
    row p times the right operand's column j. -/
theorem mm63_apply (l : FVec Ideal S1024x63 .bf16) (r : FVec Ideal S63x256 .bf16) (p : Fin 1024) (j : Fin 256) :
    FloatOps.matmul dot_S1024x63_S63x256_S1024x256_1_0_0_1_n_n none l r (constant (F := Ideal) S1024x256 .f32 0x00000000#32) (ix2 p j)
      = ∑ k : Fin 63, l (ix2 p k) * r (ix2 k j) := by
  rw [Ideal.matmul_constant_zero_apply, ← Equiv.sum_comp (contrEquiv1 dot_S1024x63_S63x256_S1024x256_1_0_0_1_n_n 63 rfl rfl).symm]
  refine Finset.sum_congr rfl fun k _ => ?_
  have hk := contrEquiv1_symm_val dot_S1024x63_S63x256_S1024x256_1_0_0_1_n_n 63 rfl rfl k
  have el : dot_S1024x63_S63x256_S1024x256_1_0_0_1_n_n.lhsIdx (ix2 p j) ((contrEquiv1 dot_S1024x63_S63x256_S1024x256_1_0_0_1_n_n 63 rfl rfl).symm k) = ix2 p k := funext fun a => Fin.ext (by
    match a with
    | ⟨0, _⟩ => exact lhs_dot_S1024x63_S63x256_S1024x256_1_0_0_1_n_n_0 _ _
    | ⟨1, _⟩ => exact (lhs_dot_S1024x63_S63x256_S1024x256_1_0_0_1_n_n_1 _ _).trans hk)
  have er : dot_S1024x63_S63x256_S1024x256_1_0_0_1_n_n.rhsIdx (ix2 p j) ((contrEquiv1 dot_S1024x63_S63x256_S1024x256_1_0_0_1_n_n 63 rfl rfl).symm k) = ix2 k j := funext fun a => Fin.ext (by
    match a with
    | ⟨0, _⟩ => exact (rhs_dot_S1024x63_S63x256_S1024x256_1_0_0_1_n_n_0 _ _).trans hk
    | ⟨1, _⟩ => exact rhs_dot_S1024x63_S63x256_S1024x256_1_0_0_1_n_n_1 _ _)
  rw [el, er]

/-! ### The product of a [1024, 256] array with a [256, 256] array -/

/- The operand indices of this product at an output index and a contraction index, one coordinate at a time: the left
   operand is read at (output row, contracted index) and the right operand at (contracted index, output column). -/

theorem lhs_dot_S1024x256_S256x256_S1024x256_1_0_0_1_n_n_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhs_dot_S1024x256_S256x256_S1024x256_1_0_0_1_n_n_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhs_dot_S1024x256_S256x256_S1024x256_1_0_0_1_n_n_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhs_dot_S1024x256_S256x256_S1024x256_1_0_0_1_n_n_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- Into a zero accumulator, entry (p, j) of the product is the sum over the contracted axis of the left operand's
    row p times the right operand's column j. -/
theorem mm256_apply (l : FVec Ideal S1024x256 .bf16) (r : FVec Ideal S256x256 .bf16) (p : Fin 1024) (j : Fin 256) :
    FloatOps.matmul dot_S1024x256_S256x256_S1024x256_1_0_0_1_n_n none l r (constant (F := Ideal) S1024x256 .f32 0x00000000#32) (ix2 p j)
      = ∑ k : Fin 256, l (ix2 p k) * r (ix2 k j) := by
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p j) ((contrEquiv1 dot_S1024x256_S256x256_S1024x256_1_0_0_1_n_n 256 rfl rfl).symm k) = ix2 p k := funext fun a => Fin.ext (by
    match a with
    | ⟨0, _⟩ => exact lhs_dot_S1024x256_S256x256_S1024x256_1_0_0_1_n_n_0 _ _
    | ⟨1, _⟩ => exact (lhs_dot_S1024x256_S256x256_S1024x256_1_0_0_1_n_n_1 _ _).trans hk)
  have er : dot_S1024x256_S256x256_S1024x256_1_0_0_1_n_n.rhsIdx (ix2 p j) ((contrEquiv1 dot_S1024x256_S256x256_S1024x256_1_0_0_1_n_n 256 rfl rfl).symm k) = ix2 k j := funext fun a => Fin.ext (by
    match a with
    | ⟨0, _⟩ => exact (rhs_dot_S1024x256_S256x256_S1024x256_1_0_0_1_n_n_0 _ _).trans hk
    | ⟨1, _⟩ => exact rhs_dot_S1024x256_S256x256_S1024x256_1_0_0_1_n_n_1 _ _)
  rw [el, er]

/-! ### The product of a [1024, 256] array with a [256, 257] array -/

/- The operand indices of this product at an output index and a contraction index, one coordinate at a time: the left
   operand is read at (output row, contracted index) and the right operand at (contracted index, output column). -/

theorem lhs_dot_S1024x256_S256x257_S1024x257_1_0_0_1_n_n_0 (i : S1024x257.Idx) (q : dot_S1024x256_S256x257_S1024x257_1_0_0_1_n_n.contr.Idx) :
    (dot_S1024x256_S256x257_S1024x257_1_0_0_1_n_n.lhsIdx i q 0).val = (i 0).val := by
  unfold DotDims.lhsIdx
  rw [dif_neg (show ¬(0 : Fin S1024x256.rank) ∈ dot_S1024x256_S256x257_S1024x257_1_0_0_1_n_n.lhsBatch by decide), dif_pos (show (0 : Fin S1024x256.rank) ∈ dot_S1024x256_S256x257_S1024x257_1_0_0_1_n_n.lhsNonContracting by decide)]
  rfl
theorem lhs_dot_S1024x256_S256x257_S1024x257_1_0_0_1_n_n_1 (i : S1024x257.Idx) (q : dot_S1024x256_S256x257_S1024x257_1_0_0_1_n_n.contr.Idx) :
    (dot_S1024x256_S256x257_S1024x257_1_0_0_1_n_n.lhsIdx i q 1).val = (q ⟨0, by decide⟩).val :=
  dot_S1024x256_S256x257_S1024x257_1_0_0_1_n_n.lhsIdx_val_of_single rfl i q
theorem rhs_dot_S1024x256_S256x257_S1024x257_1_0_0_1_n_n_0 (i : S1024x257.Idx) (q : dot_S1024x256_S256x257_S1024x257_1_0_0_1_n_n.contr.Idx) :
    (dot_S1024x256_S256x257_S1024x257_1_0_0_1_n_n.rhsIdx i q 0).val = (q ⟨0, by decide⟩).val :=
  dot_S1024x256_S256x257_S1024x257_1_0_0_1_n_n.rhsIdx_val_of_single rfl i q
theorem rhs_dot_S1024x256_S256x257_S1024x257_1_0_0_1_n_n_1 (i : S1024x257.Idx) (q : dot_S1024x256_S256x257_S1024x257_1_0_0_1_n_n.contr.Idx) :
    (dot_S1024x256_S256x257_S1024x257_1_0_0_1_n_n.rhsIdx i q 1).val = (i 1).val := by
  unfold DotDims.rhsIdx
  rw [dif_neg (show ¬(1 : Fin S256x257.rank) ∈ dot_S1024x256_S256x257_S1024x257_1_0_0_1_n_n.rhsBatch by decide), dif_pos (show (1 : Fin S256x257.rank) ∈ dot_S1024x256_S256x257_S1024x257_1_0_0_1_n_n.rhsNonContracting by decide)]
  rfl

/-- Into a zero accumulator, entry (p, j) of the product is the sum over the contracted axis of the left operand's
    row p times the right operand's column j. -/
theorem mm257_apply (l : FVec Ideal S1024x256 .bf16) (r : FVec Ideal S256x257 .bf16) (p : Fin 1024) (j : Fin 257) :
    FloatOps.matmul dot_S1024x256_S256x257_S1024x257_1_0_0_1_n_n none l r (constant (F := Ideal) S1024x257 .f32 0x00000000#32) (ix2 p j)
      = ∑ k : Fin 256, l (ix2 p k) * r (ix2 k j) := by
  rw [Ideal.matmul_constant_zero_apply, ← Equiv.sum_comp (contrEquiv1 dot_S1024x256_S256x257_S1024x257_1_0_0_1_n_n 256 rfl rfl).symm]
  refine Finset.sum_congr rfl fun k _ => ?_
  have hk := contrEquiv1_symm_val dot_S1024x256_S256x257_S1024x257_1_0_0_1_n_n 256 rfl rfl k
  have el : dot_S1024x256_S256x257_S1024x257_1_0_0_1_n_n.lhsIdx (ix2 p j) ((contrEquiv1 dot_S1024x256_S256x257_S1024x257_1_0_0_1_n_n 256 rfl rfl).symm k) = ix2 p k := funext fun a => Fin.ext (by
    match a with
    | ⟨0, _⟩ => exact lhs_dot_S1024x256_S256x257_S1024x257_1_0_0_1_n_n_0 _ _
    | ⟨1, _⟩ => exact (lhs_dot_S1024x256_S256x257_S1024x257_1_0_0_1_n_n_1 _ _).trans hk)
  have er : dot_S1024x256_S256x257_S1024x257_1_0_0_1_n_n.rhsIdx (ix2 p j) ((contrEquiv1 dot_S1024x256_S256x257_S1024x257_1_0_0_1_n_n 256 rfl rfl).symm k) = ix2 k j := funext fun a => Fin.ext (by
    match a with
    | ⟨0, _⟩ => exact (rhs_dot_S1024x256_S256x257_S1024x257_1_0_0_1_n_n_0 _ _).trans hk
    | ⟨1, _⟩ => exact rhs_dot_S1024x256_S256x257_S1024x257_1_0_0_1_n_n_1 _ _)
  rw [el, er]

/-! ### The product of a [1024, 27] array with a [27, 256] array -/

/- The operand indices of this product at an output index and a contraction index, one coordinate at a time: the left
   operand is read at (output row, contracted index) and the right operand at (contracted index, output column). -/

theorem lhs_dot_S1024x27_S27x256_S1024x256_1_0_0_1_n_n_0 (i : S1024x256.Idx) (q : dot_S1024x27_S27x256_S1024x256_1_0_0_1_n_n.contr.Idx) :
    (dot_S1024x27_S27x256_S1024x256_1_0_0_1_n_n.lhsIdx i q 0).val = (i 0).val := by
  unfold DotDims.lhsIdx
  rw [dif_neg (show ¬(0 : Fin S1024x27.rank) ∈ dot_S1024x27_S27x256_S1024x256_1_0_0_1_n_n.lhsBatch by decide), dif_pos (show (0 : Fin S1024x27.rank) ∈ dot_S1024x27_S27x256_S1024x256_1_0_0_1_n_n.lhsNonContracting by decide)]
  rfl
theorem lhs_dot_S1024x27_S27x256_S1024x256_1_0_0_1_n_n_1 (i : S1024x256.Idx) (q : dot_S1024x27_S27x256_S1024x256_1_0_0_1_n_n.contr.Idx) :
    (dot_S1024x27_S27x256_S1024x256_1_0_0_1_n_n.lhsIdx i q 1).val = (q ⟨0, by decide⟩).val :=
  dot_S1024x27_S27x256_S1024x256_1_0_0_1_n_n.lhsIdx_val_of_single rfl i q
theorem rhs_dot_S1024x27_S27x256_S1024x256_1_0_0_1_n_n_0 (i : S1024x256.Idx) (q : dot_S1024x27_S27x256_S1024x256_1_0_0_1_n_n.contr.Idx) :
    (dot_S1024x27_S27x256_S1024x256_1_0_0_1_n_n.rhsIdx i q 0).val = (q ⟨0, by decide⟩).val :=
  dot_S1024x27_S27x256_S1024x256_1_0_0_1_n_n.rhsIdx_val_of_single rfl i q
theorem rhs_dot_S1024x27_S27x256_S1024x256_1_0_0_1_n_n_1 (i : S1024x256.Idx) (q : dot_S1024x27_S27x256_S1024x256_1_0_0_1_n_n.contr.Idx) :
    (dot_S1024x27_S27x256_S1024x256_1_0_0_1_n_n.rhsIdx i q 1).val = (i 1).val := by
  unfold DotDims.rhsIdx
  rw [dif_neg (show ¬(1 : Fin S27x256.rank) ∈ dot_S1024x27_S27x256_S1024x256_1_0_0_1_n_n.rhsBatch by decide), dif_pos (show (1 : Fin S27x256.rank) ∈ dot_S1024x27_S27x256_S1024x256_1_0_0_1_n_n.rhsNonContracting by decide)]
  rfl

/-- Into a zero accumulator, entry (p, j) of the product is the sum over the contracted axis of the left operand's
    row p times the right operand's column j. -/
theorem mm27_apply (l : FVec Ideal S1024x27 .bf16) (r : FVec Ideal S27x256 .bf16) (p : Fin 1024) (j : Fin 256) :
    FloatOps.matmul dot_S1024x27_S27x256_S1024x256_1_0_0_1_n_n none l r (constant (F := Ideal) S1024x256 .f32 0x00000000#32) (ix2 p j)
      = ∑ k : Fin 27, l (ix2 p k) * r (ix2 k j) := by
  rw [Ideal.matmul_constant_zero_apply, ← Equiv.sum_comp (contrEquiv1 dot_S1024x27_S27x256_S1024x256_1_0_0_1_n_n 27 rfl rfl).symm]
  refine Finset.sum_congr rfl fun k _ => ?_
  have hk := contrEquiv1_symm_val dot_S1024x27_S27x256_S1024x256_1_0_0_1_n_n 27 rfl rfl k
  have el : dot_S1024x27_S27x256_S1024x256_1_0_0_1_n_n.lhsIdx (ix2 p j) ((contrEquiv1 dot_S1024x27_S27x256_S1024x256_1_0_0_1_n_n 27 rfl rfl).symm k) = ix2 p k := funext fun a => Fin.ext (by
    match a with
    | ⟨0, _⟩ => exact lhs_dot_S1024x27_S27x256_S1024x256_1_0_0_1_n_n_0 _ _
    | ⟨1, _⟩ => exact (lhs_dot_S1024x27_S27x256_S1024x256_1_0_0_1_n_n_1 _ _).trans hk)
  have er : dot_S1024x27_S27x256_S1024x256_1_0_0_1_n_n.rhsIdx (ix2 p j) ((contrEquiv1 dot_S1024x27_S27x256_S1024x256_1_0_0_1_n_n 27 rfl rfl).symm k) = ix2 k j := funext fun a => Fin.ext (by
    match a with
    | ⟨0, _⟩ => exact (rhs_dot_S1024x27_S27x256_S1024x256_1_0_0_1_n_n_0 _ _).trans hk
    | ⟨1, _⟩ => exact rhs_dot_S1024x27_S27x256_S1024x256_1_0_0_1_n_n_1 _ _)
  rw [el, er]

/-! ### The product of a [1024, 256] array with a [256, 3] array -/

/- The operand indices of this product at an output index and a contraction index, one coordinate at a time: the left
   operand is read at (output row, contracted index) and the right operand at (contracted index, output column). -/

theorem lhs_dot_S1024x256_S256x3_S1024x3_1_0_0_1_n_n_0 (i : S1024x3.Idx) (q : dot_S1024x256_S256x3_S1024x3_1_0_0_1_n_n.contr.Idx) :
    (dot_S1024x256_S256x3_S1024x3_1_0_0_1_n_n.lhsIdx i q 0).val = (i 0).val := by
  unfold DotDims.lhsIdx
  rw [dif_neg (show ¬(0 : Fin S1024x256.rank) ∈ dot_S1024x256_S256x3_S1024x3_1_0_0_1_n_n.lhsBatch by decide), dif_pos (show (0 : Fin S1024x256.rank) ∈ dot_S1024x256_S256x3_S1024x3_1_0_0_1_n_n.lhsNonContracting by decide)]
  rfl
theorem lhs_dot_S1024x256_S256x3_S1024x3_1_0_0_1_n_n_1 (i : S1024x3.Idx) (q : dot_S1024x256_S256x3_S1024x3_1_0_0_1_n_n.contr.Idx) :
    (dot_S1024x256_S256x3_S1024x3_1_0_0_1_n_n.lhsIdx i q 1).val = (q ⟨0, by decide⟩).val :=
  dot_S1024x256_S256x3_S1024x3_1_0_0_1_n_n.lhsIdx_val_of_single rfl i q
theorem rhs_dot_S1024x256_S256x3_S1024x3_1_0_0_1_n_n_0 (i : S1024x3.Idx) (q : dot_S1024x256_S256x3_S1024x3_1_0_0_1_n_n.contr.Idx) :
    (dot_S1024x256_S256x3_S1024x3_1_0_0_1_n_n.rhsIdx i q 0).val = (q ⟨0, by decide⟩).val :=
  dot_S1024x256_S256x3_S1024x3_1_0_0_1_n_n.rhsIdx_val_of_single rfl i q
theorem rhs_dot_S1024x256_S256x3_S1024x3_1_0_0_1_n_n_1 (i : S1024x3.Idx) (q : dot_S1024x256_S256x3_S1024x3_1_0_0_1_n_n.contr.Idx) :
    (dot_S1024x256_S256x3_S1024x3_1_0_0_1_n_n.rhsIdx i q 1).val = (i 1).val := by
  unfold DotDims.rhsIdx
  rw [dif_neg (show ¬(1 : Fin S256x3.rank) ∈ dot_S1024x256_S256x3_S1024x3_1_0_0_1_n_n.rhsBatch by decide), dif_pos (show (1 : Fin S256x3.rank) ∈ dot_S1024x256_S256x3_S1024x3_1_0_0_1_n_n.rhsNonContracting by decide)]
  rfl

/-- Into a zero accumulator, entry (p, j) of the product is the sum over the contracted axis of the left operand's
    row p times the right operand's column j. -/
theorem mm3_apply (l : FVec Ideal S1024x256 .bf16) (r : FVec Ideal S256x3 .bf16) (p : Fin 1024) (j : Fin 3) :
    FloatOps.matmul dot_S1024x256_S256x3_S1024x3_1_0_0_1_n_n none l r (constant (F := Ideal) S1024x3 .f32 0x00000000#32) (ix2 p j)
      = ∑ k : Fin 256, l (ix2 p k) * r (ix2 k j) := by
  rw [Ideal.matmul_constant_zero_apply, ← Equiv.sum_comp (contrEquiv1 dot_S1024x256_S256x3_S1024x3_1_0_0_1_n_n 256 rfl rfl).symm]
  refine Finset.sum_congr rfl fun k _ => ?_
  have hk := contrEquiv1_symm_val dot_S1024x256_S256x3_S1024x3_1_0_0_1_n_n 256 rfl rfl k
  have el : dot_S1024x256_S256x3_S1024x3_1_0_0_1_n_n.lhsIdx (ix2 p j) ((contrEquiv1 dot_S1024x256_S256x3_S1024x3_1_0_0_1_n_n 256 rfl rfl).symm k) = ix2 p k := funext fun a => Fin.ext (by
    match a with
    | ⟨0, _⟩ => exact lhs_dot_S1024x256_S256x3_S1024x3_1_0_0_1_n_n_0 _ _
    | ⟨1, _⟩ => exact (lhs_dot_S1024x256_S256x3_S1024x3_1_0_0_1_n_n_1 _ _).trans hk)
  have er : dot_S1024x256_S256x3_S1024x3_1_0_0_1_n_n.rhsIdx (ix2 p j) ((contrEquiv1 dot_S1024x256_S256x3_S1024x3_1_0_0_1_n_n 256 rfl rfl).symm k) = ix2 k j := funext fun a => Fin.ext (by
    match a with
    | ⟨0, _⟩ => exact (rhs_dot_S1024x256_S256x3_S1024x3_1_0_0_1_n_n_0 _ _).trans hk
    | ⟨1, _⟩ => exact rhs_dot_S1024x256_S256x3_S1024x3_1_0_0_1_n_n_1 _ _)
  rw [el, er]

/-! ### The pieces of a layer, read at one row -/

/-- A bias vector laid along the rows reads, at (p, j), entry j of the vector. -/
theorem bias_at {N : ℕ} (b : (⟨1, ![N]⟩ : Shape).Idx → EReal) (hc : (⟨1, ![N]⟩ : Shape).ShapeCasts ⟨2, ![1, N]⟩)
    (hb : (⟨2, ![1, N]⟩ : Shape).Broadcasts ⟨2, ![1024, N]⟩) (p : Fin 1024) (j : Fin N) :
    broadcastTo ⟨2, ![1024, N]⟩ (shapeCast ⟨2, ![1, N]⟩ b hc) hb (ix2 p j) = vec b j := by
  rw [broadcastTo_1b_ab_apply, shapeCast_a_1a_apply]
  rfl

/-- The rectifier followed by the narrowing conversion: if row p of `a` is `v`, row p of the result is `relu v`. -/
theorem relu_at (a : FVec Ideal S1024x256 .f32) (ht : FTy.bits .bf16 < FTy.bits .f32) (p : Fin 1024) (v : Fin 256 → EReal)
    (hv : ∀ j, a (ix2 p j) = v j) (j : Fin 256) :
    (truncf .bf16 (maximumf a (broadcast S1024x256 (Scalar.ofBits .f32 0x00000000#32))) ht : FVec Ideal S1024x256 .bf16) (ix2 p j)
      = relu v j := by
  show max (a (ix2 p j)) (Ideal.ofBits .f32 0x00000000#32) = max (v j) 0
  rw [hv, Ideal.ofBits_zero_f32]

/-- A sum of two arrays at a row. -/
theorem add_at {N : ℕ} (a b : (⟨2, ![1024, N]⟩ : Shape).Idx → EReal) (p : Fin 1024) (u v : Fin N → EReal)
    (ha : ∀ j, a (ix2 p j) = u j) (hb : ∀ j, b (ix2 p j) = v j) (j : Fin N) :
    (addf (F := Ideal) (φ := .f32) a b) (ix2 p j) = u j + v j := by
  show a (ix2 p j) + b (ix2 p j) = _
  rw [ha, hb]

/-- The product with a weight matrix at a row: if row p of `h` is `v`, row p of the product is `dotRow v (mat w)`. -/
theorem mm63_at (h : FVec Ideal S1024x63 .bf16) (w : FVec Ideal S63x256 .bf16) (hc : S63x256.ShapeCasts S63x256) (p : Fin 1024)
    (v : Fin 63 → EReal) (hv : ∀ k, h (ix2 p k) = v k) (j : Fin 256) :
    matmul dot_S1024x63_S63x256_S1024x256_1_0_0_1_n_n none h (shapeCast S63x256 w hc) (constant (F := Ideal) S1024x256 .f32 0x00000000#32) (ix2 p j)
      = dotRow v (mat w) j := by
  rw [shapeCast_self]
  refine (mm63_apply h w p j).trans ?_
  unfold dotRow
  exact Finset.sum_congr rfl fun k _ => by rw [hv k]; rfl

/-- The product with a weight matrix at a row: if row p of `h` is `v`, row p of the product is `dotRow v (mat w)`. -/
theorem mm256_at (h : FVec Ideal S1024x256 .bf16) (w : FVec Ideal S256x256 .bf16) (hc : S256x256.ShapeCasts S256x256) (p : Fin 1024)
    (v : Fin 256 → EReal) (hv : ∀ k, h (ix2 p k) = v k) (j : Fin 256) :
    matmul dot_S1024x256_S256x256_S1024x256_1_0_0_1_n_n none h (shapeCast S256x256 w hc) (constant (F := Ideal) S1024x256 .f32 0x00000000#32) (ix2 p j)
      = dotRow v (mat w) j := by
  rw [shapeCast_self]
  refine (mm256_apply h w p j).trans ?_
  unfold dotRow
  exact Finset.sum_congr rfl fun k _ => by rw [hv k]; rfl

/-- The product with a weight matrix at a row: if row p of `h` is `v`, row p of the product is `dotRow v (mat w)`. -/
theorem mm257_at (h : FVec Ideal S1024x256 .bf16) (w : FVec Ideal S256x257 .bf16) (hc : S256x257.ShapeCasts S256x257) (p : Fin 1024)
    (v : Fin 256 → EReal) (hv : ∀ k, h (ix2 p k) = v k) (j : Fin 257) :
    matmul dot_S1024x256_S256x257_S1024x257_1_0_0_1_n_n none h (shapeCast S256x257 w hc) (constant (F := Ideal) S1024x257 .f32 0x00000000#32) (ix2 p j)
      = dotRow v (mat w) j := by
  rw [shapeCast_self]
  refine (mm257_apply h w p j).trans ?_
  unfold dotRow
  exact Finset.sum_congr rfl fun k _ => by rw [hv k]; rfl

/-- The product with a weight matrix at a row: if row p of `h` is `v`, row p of the product is `dotRow v (mat w)`. -/
theorem mm27_at (h : FVec Ideal S1024x27 .bf16) (w : FVec Ideal S27x256 .bf16) (hc : S27x256.ShapeCasts S27x256) (p : Fin 1024)
    (v : Fin 27 → EReal) (hv : ∀ k, h (ix2 p k) = v k) (j : Fin 256) :
    matmul dot_S1024x27_S27x256_S1024x256_1_0_0_1_n_n none h (shapeCast S27x256 w hc) (constant (F := Ideal) S1024x256 .f32 0x00000000#32) (ix2 p j)
      = dotRow v (mat w) j := by
  rw [shapeCast_self]
  refine (mm27_apply h w p j).trans ?_
  unfold dotRow
  exact Finset.sum_congr rfl fun k _ => by rw [hv k]; rfl

/-- The product with a weight matrix at a row: if row p of `h` is `v`, row p of the product is `dotRow v (mat w)`. -/
theorem mm3_at (h : FVec Ideal S1024x256 .bf16) (w : FVec Ideal S256x3 .bf16) (hc : S256x3.ShapeCasts S256x3) (p : Fin 1024)
    (v : Fin 256 → EReal) (hv : ∀ k, h (ix2 p k) = v k) (j : Fin 3) :
    matmul dot_S1024x256_S256x3_S1024x3_1_0_0_1_n_n none h (shapeCast S256x3 w hc) (constant (F := Ideal) S1024x3 .f32 0x00000000#32) (ix2 p j)
      = dotRow v (mat w) j := by
  rw [shapeCast_self]
  refine (mm3_apply h w p j).trans ?_
  unfold dotRow
  exact Finset.sum_congr rfl fun k _ => by rw [hv k]; rfl

/-- A rectified affine layer on 256 inputs at a row. -/
theorem layer256_at (h : FVec Ideal S1024x256 .bf16) (w : FVec Ideal S256x256 .bf16) (b : FVec Ideal S256 .f32)
    (hc : S256x256.ShapeCasts S256x256) (hc' : S256.ShapeCasts S1x256) (hb : S1x256.Broadcasts S1024x256)
    (ht : FTy.bits .bf16 < FTy.bits .f32) (p : Fin 1024) (v : Fin 256 → EReal) (hv : ∀ k, h (ix2 p k) = v k) (j : Fin 256) :
    (truncf .bf16 (maximumf (addf (matmul dot_S1024x256_S256x256_S1024x256_1_0_0_1_n_n none h (shapeCast S256x256 w hc) (constant S1024x256 .f32 0x00000000#32))
        (broadcastTo S1024x256 (shapeCast S1x256 b hc') hb)) (broadcast S1024x256 (Scalar.ofBits .f32 0x00000000#32))) ht : FVec Ideal S1024x256 .bf16) (ix2 p j)
      = relu (lin v (mat w) (vec b)) j :=
  relu_at _ ht p _ (fun j' => add_at _ _ p _ _ (fun j'' => mm256_at h w hc p v hv j'') (fun j'' => bias_at b hc' hb p j'') j') j

/-- A rectified affine layer on 63 inputs at a row. -/
theorem layer63_at (h : FVec Ideal S1024x63 .bf16) (w : FVec Ideal S63x256 .bf16) (b : FVec Ideal S256 .f32)
    (hc : S63x256.ShapeCasts S63x256) (hc' : S256.ShapeCasts S1x256) (hb : S1x256.Broadcasts S1024x256)
    (ht : FTy.bits .bf16 < FTy.bits .f32) (p : Fin 1024) (v : Fin 63 → EReal) (hv : ∀ k, h (ix2 p k) = v k) (j : Fin 256) :
    (truncf .bf16 (maximumf (addf (matmul dot_S1024x63_S63x256_S1024x256_1_0_0_1_n_n none h (shapeCast S63x256 w hc) (constant S1024x256 .f32 0x00000000#32))
        (broadcastTo S1024x256 (shapeCast S1x256 b hc') hb)) (broadcast S1024x256 (Scalar.ofBits .f32 0x00000000#32))) ht : FVec Ideal S1024x256 .bf16) (ix2 p j)
      = relu (lin v (mat w) (vec b)) j :=
  relu_at _ ht p _ (fun j' => add_at _ _ p _ _ (fun j'' => mm63_at h w hc p v hv j'') (fun j'' => bias_at b hc' hb p j'') j') j

/-- A bias addition and rectifier applied to a finished product: if row p of `m` is `dotRow v w`, row p of the result is
    the rectified affine layer `relu (lin v w b)`. -/
theorem biasrelu_at (m : FVec Ideal S1024x256 .f32) (b : FVec Ideal S256 .f32)
    (hc' : S256.ShapeCasts S1x256) (hb : S1x256.Broadcasts S1024x256) (ht : FTy.bits .bf16 < FTy.bits .f32) (p : Fin 1024)
    (v : Fin 256 → EReal) (w : Fin 256 → Fin 256 → EReal) (hm : ∀ j, m (ix2 p j) = dotRow v w j) (j : Fin 256) :
    (truncf .bf16 (maximumf (addf m (broadcastTo S1024x256 (shapeCast S1x256 b hc') hb))
        (broadcast S1024x256 (Scalar.ofBits .f32 0x00000000#32))) ht : FVec Ideal S1024x256 .bf16) (ix2 p j)
      = relu (lin v w (vec b)) j :=
  relu_at _ ht p _ (fun j' => add_at _ _ p _ _ hm (fun j'' => bias_at b hc' hb p j'') j') j

/-- A rectified two-input layer on 63 and 256 inputs at a row. -/
theorem layer63_256_at (h1 : FVec Ideal S1024x63 .bf16) (w1 : FVec Ideal S63x256 .bf16) (h2 : FVec Ideal S1024x256 .bf16)
    (w2 : FVec Ideal S256x256 .bf16) (b : FVec Ideal S256 .f32)
    (hc1 : S63x256.ShapeCasts S63x256) (hc2 : S256x256.ShapeCasts S256x256) (hc' : S256.ShapeCasts S1x256)
    (hb : S1x256.Broadcasts S1024x256) (ht : FTy.bits .bf16 < FTy.bits .f32) (p : Fin 1024)
    (u : Fin 63 → EReal) (v : Fin 256 → EReal) (hu : ∀ k, h1 (ix2 p k) = u k) (hv : ∀ k, h2 (ix2 p k) = v k) (j : Fin 256) :
    (truncf .bf16 (maximumf (addf (addf (matmul dot_S1024x63_S63x256_S1024x256_1_0_0_1_n_n none h1 (shapeCast S63x256 w1 hc1) (constant S1024x256 .f32 0x00000000#32))
          (matmul dot_S1024x256_S256x256_S1024x256_1_0_0_1_n_n none h2 (shapeCast S256x256 w2 hc2) (constant S1024x256 .f32 0x00000000#32)))
        (broadcastTo S1024x256 (shapeCast S1x256 b hc') hb)) (broadcast S1024x256 (Scalar.ofBits .f32 0x00000000#32))) ht : FVec Ideal S1024x256 .bf16) (ix2 p j)
      = relu (lin2 u (mat w1) v (mat w2) (vec b)) j :=
  relu_at _ ht p _ (fun j' => add_at _ _ p _ _
    (fun i => add_at _ _ p _ _ (fun i' => mm63_at h1 w1 hc1 p u hu i') (fun i' => mm256_at h2 w2 hc2 p v hv i') i)
    (fun i => bias_at b hc' hb p i) j') j

/-- A rectified two-input layer on 27 and 256 inputs at a row. -/
theorem layer27_256_at (h1 : FVec Ideal S1024x27 .bf16) (w1 : FVec Ideal S27x256 .bf16) (h2 : FVec Ideal S1024x256 .bf16)
    (w2 : FVec Ideal S256x256 .bf16) (b : FVec Ideal S256 .f32)
    (hc1 : S27x256.ShapeCasts S27x256) (hc2 : S256x256.ShapeCasts S256x256) (hc' : S256.ShapeCasts S1x256)
    (hb : S1x256.Broadcasts S1024x256) (ht : FTy.bits .bf16 < FTy.bits .f32) (p : Fin 1024)
    (u : Fin 27 → EReal) (v : Fin 256 → EReal) (hu : ∀ k, h1 (ix2 p k) = u k) (hv : ∀ k, h2 (ix2 p k) = v k) (j : Fin 256) :
    (truncf .bf16 (maximumf (addf (addf (matmul dot_S1024x27_S27x256_S1024x256_1_0_0_1_n_n none h1 (shapeCast S27x256 w1 hc1) (constant S1024x256 .f32 0x00000000#32))
          (matmul dot_S1024x256_S256x256_S1024x256_1_0_0_1_n_n none h2 (shapeCast S256x256 w2 hc2) (constant S1024x256 .f32 0x00000000#32)))
        (broadcastTo S1024x256 (shapeCast S1x256 b hc') hb)) (broadcast S1024x256 (Scalar.ofBits .f32 0x00000000#32))) ht : FVec Ideal S1024x256 .bf16) (ix2 p j)
      = relu (lin2 u (mat w1) v (mat w2) (vec b)) j :=
  relu_at _ ht p _ (fun j' => add_at _ _ p _ _
    (fun i => add_at _ _ p _ _ (fun i' => mm27_at h1 w1 hc1 p u hu i') (fun i' => mm256_at h2 w2 hc2 p v hv i') i)
    (fun i => bias_at b hc' hb p i) j') j

/-! ### The payloads at a row -/

/-- The first 63 columns of the input block: the positional channels of row p. -/
theorem pay3_at (x0 : Vec Ideal S1024x90 .bf16) (p : Fin 1024) (k : Fin 63) :
    k0_pay3 (F := Ideal) x0 (ix2 p k) = headPart (K₁ := 63) (K₂ := 27) rfl (row x0 p) k := by
  unfold k0_pay3 k0_pay2
  rw [shapeCast_self]
  exact slice2_axis1_apply 0 x0 _ p k ⟨k.val, by have := k.isLt; omega⟩ (Nat.zero_add _).symm

/-- The last 27 columns of the input block: the view channels of row p. -/
theorem pay4_at (x0 : Vec Ideal S1024x90 .bf16) (p : Fin 1024) (k : Fin 27) :
    k0_pay4 (F := Ideal) x0 (ix2 p k) = tailPart (K₁ := 63) (K₂ := 27) rfl (row x0 p) k := by
  unfold k0_pay4 k0_pay2
  rw [shapeCast_self]
  exact slice2_axis1_apply 63 x0 _ p k ⟨63 + k.val, by have := k.isLt; omega⟩ rfl

/-- The first trunk up to its fourth product (the fourth bias is added by the next stage). -/
theorem pay5_at (x0 : Vec Ideal S1024x90 .bf16) (x1 : Vec Ideal S63x256 .bf16) (x2 : Vec Ideal S256 .f32) (x3 : Vec Ideal S256x256 .bf16)
    (x4 : Vec Ideal S256 .f32) (x5 : Vec Ideal S256x256 .bf16) (x6 : Vec Ideal S256 .f32) (x7 : Vec Ideal S256x256 .bf16)
    (p : Fin 1024) (j : Fin 256) :
    k0_pay5 (F := Ideal) x0 x1 x2 x3 x4 x5 x6 x7 (ix2 p j)
      = dotRow (relu (lin (relu (lin (relu (lin (headPart (K₁ := 63) (K₂ := 27) rfl (row x0 p)) (mat x1) (vec x2))) (mat x3) (vec x4)))
          (mat x5) (vec x6))) (mat x7) j := by
  unfold k0_pay5
  refine mm256_at _ _ _ p _ (fun k => ?_) j
  refine layer256_at _ _ _ _ _ _ _ p _ (fun k => ?_) k
  refine layer256_at _ _ _ _ _ _ _ p _ (fun k => ?_) k
  refine layer63_at _ _ _ _ _ _ _ p _ (fun k => ?_) k
  exact pay3_at x0 p k

/-- The fourth bias and rectifier of the first trunk, then the second trunk up to its third layer. `P` is row p of the
    positional channels and `dotRow H w7` row p of the first trunk's fourth product. -/
theorem pay6_at (v2 : FVec Ideal S1024x63 .bf16) (x8 : Vec Ideal S256 .f32) (v37 : FVec Ideal S1024x256 .f32) (x11 : Vec Ideal S256 .f32)
    (x9 : Vec Ideal S63x256 .bf16) (x10 : Vec Ideal S256x256 .bf16) (x12 : Vec Ideal S256x256 .bf16) (x13 : Vec Ideal S256 .f32)
    (x14 : Vec Ideal S256x256 .bf16) (x15 : Vec Ideal S256 .f32) (p : Fin 1024)
    (P : Fin 63 → EReal) (H : Fin 256 → EReal) (w7 : Fin 256 → Fin 256 → EReal)
    (hP : ∀ k, v2 (ix2 p k) = P k) (hm : ∀ j, v37 (ix2 p j) = dotRow H w7 j) (j : Fin 256) :
    k0_pay6 (F := Ideal) v2 x8 v37 x11 x9 x10 x12 x13 x14 x15 (ix2 p j)
      = relu (lin (relu (lin (relu (lin2 P (mat x9) (relu (lin H w7 (vec x8))) (mat x10) (vec x11))) (mat x12) (vec x13)))
          (mat x14) (vec x15)) j := by
  unfold k0_pay6
  refine layer256_at _ _ _ _ _ _ _ p _ (fun k => ?_) j
  refine layer256_at _ _ _ _ _ _ _ p _ (fun k => ?_) k
  refine layer63_256_at _ _ _ _ _ _ _ _ _ _ p _ _ hP (fun k => ?_) k
  exact biasrelu_at _ _ _ _ _ p H w7 hm k

/-- The second trunk's fourth layer and the plain affine layer that gives the 257 values. `g` is row p of the input. -/
theorem pay7_at (v77 : FVec Ideal S1024x256 .bf16) (x16 : Vec Ideal S256x256 .bf16) (x17 : Vec Ideal S256 .f32)
    (x18 : Vec Ideal S256x257 .bf16) (x19 : Vec Ideal S257 .f32) (p : Fin 1024) (g : Fin 256 → EReal)
    (hg : ∀ k, v77 (ix2 p k) = g k) (j : Fin 257) :
    k0_pay7 (F := Ideal) v77 x16 x17 x18 x19 (ix2 p j) = hid (relu (lin g (mat x16) (vec x17))) (mat x18) (vec x19) j := by
  unfold k0_pay7 hid lin
  refine add_at _ _ p _ _ (fun i => mm257_at _ _ _ p _ (fun k => ?_) i) (fun i => bias_at _ _ _ p i) j
  exact layer256_at _ _ _ _ _ _ _ p _ hg k

/-- The density: column 0 of the 257 values. -/
theorem pay8_at (v77 : FVec Ideal S1024x256 .bf16) (x16 : Vec Ideal S256x256 .bf16) (x17 : Vec Ideal S256 .f32)
    (x18 : Vec Ideal S256x257 .bf16) (x19 : Vec Ideal S257 .f32) (p : Fin 1024) (g : Fin 256 → EReal)
    (hg : ∀ k, v77 (ix2 p k) = g k) :
    k0_pay8 (F := Ideal) v77 x16 x17 x18 x19 (ix2 p (0 : Fin 1))
      = hid (relu (lin g (mat x16) (vec x17))) (mat x18) (vec x19) ⟨0, by decide⟩ := by
  unfold k0_pay8
  refine (slice2_axis1_apply 0 _ _ p (0 : Fin 1) (⟨0, by decide⟩ : Fin 257) rfl).trans ?_
  exact pay7_at v77 x16 x17 x18 x19 p g hg _

/-- The colour head up to its last product (the last bias is added by the stored value). `V` is row p of the view
    channels and `g` row p of the second trunk's third layer. -/
theorem pay9_at (v3 : FVec Ideal S1024x27 .bf16) (v77 : FVec Ideal S1024x256 .bf16) (x16 : Vec Ideal S256x256 .bf16)
    (x17 : Vec Ideal S256 .f32) (x18 : Vec Ideal S256x257 .bf16) (x19 : Vec Ideal S257 .f32) (x22 : Vec Ideal S256 .f32)
    (x20 : Vec Ideal S27x256 .bf16) (x21 : Vec Ideal S256x256 .bf16) (x23 : Vec Ideal S256x3 .bf16) (p : Fin 1024)
    (V : Fin 27 → EReal) (g : Fin 256 → EReal) (hV : ∀ k, v3 (ix2 p k) = V k) (hg : ∀ k, v77 (ix2 p k) = g k) (q : Fin 3) :
    k0_pay9 (F := Ideal) v3 v77 x16 x17 x18 x19 x22 x20 x21 x23 (ix2 p q)
      = dotRow (relu (lin2 V (mat x20)
          (tailPart (K₁ := 1) (K₂ := 256) rfl (hid (relu (lin g (mat x16) (vec x17))) (mat x18) (vec x19))) (mat x21) (vec x22)))
          (mat x23) q := by
  unfold k0_pay9
  refine mm3_at _ _ _ p _ (fun k => ?_) q
  refine layer27_256_at _ _ _ _ _ _ _ _ _ _ p _ _ hV (fun i => ?_) k
  refine (truncf_apply (ψ := .bf16) (φ := .f32) _ bitsLt_bf16_f32 (ix2 p i)).trans ?_
  refine (slice2_axis1_apply 1 _ _ p i (⟨1 + i.val, by have := i.isLt; omega⟩ : Fin 257) rfl).trans ?_
  exact pay7_at v77 x16 x17 x18 x19 p g hg _

/-- The last bias laid along the rows. -/
theorem pay10_at (x24 : Vec Ideal S3 .f32) (p : Fin 1024) (q : Fin 3) : k0_pay10 (F := Ideal) x24 (ix2 p q) = vec x24 q := by
  unfold k0_pay10
  exact bias_at x24 _ _ p q

/-! ### The two stored values -/

/-- The stored density at row `p` of the block: entry 0 of the 257 values of the network on row `p`. -/
theorem den_apply (x0 : Vec Ideal S1024x90 .bf16) (x1 : Vec Ideal S63x256 .bf16) (x2 : Vec Ideal S256 .f32) (x3 : Vec Ideal S256x256 .bf16) (x4 : Vec Ideal S256 .f32) (x5 : Vec Ideal S256x256 .bf16) (x6 : Vec Ideal S256 .f32) (x7 : Vec Ideal S256x256 .bf16) (x8 : Vec Ideal S256 .f32) (x9 : Vec Ideal S63x256 .bf16) (x10 : Vec Ideal S256x256 .bf16) (x11 : Vec Ideal S256 .f32) (x12 : Vec Ideal S256x256 .bf16) (x13 : Vec Ideal S256 .f32) (x14 : Vec Ideal S256x256 .bf16) (x15 : Vec Ideal S256 .f32) (x16 : Vec Ideal S256x256 .bf16) (x17 : Vec Ideal S256 .f32) (x18 : Vec Ideal S256x257 .bf16) (x19 : Vec Ideal S257 .f32) (p : Fin 1024) :
    k0_pay8 (F := Ideal) (k0_pay6 (k0_pay3 x0) x8 (k0_pay5 x0 x1 x2 x3 x4 x5 x6 x7) x11 x9 x10 x12 x13 x14 x15) x16 x17 x18 x19 (ix2 p (0 : Fin 1))
      = (hid (trunk2 (headPart (K₁ := 63) (K₂ := 27) rfl (row x0 p)) (trunk1 (headPart (K₁ := 63) (K₂ := 27) rfl (row x0 p)) (mat x1) (vec x2) (mat x3) (vec x4) (mat x5) (vec x6) (mat x7) (vec x8)) (mat x9) (mat x10) (vec x11) (mat x12) (vec x13) (mat x14) (vec x15) (mat x16) (vec x17)) (mat x18) (vec x19)) ⟨0, by decide⟩ := by
  unfold trunk2 trunk1
  exact pay8_at _ x16 x17 x18 x19 p _ (fun k =>
    pay6_at _ x8 _ x11 x9 x10 x12 x13 x14 x15 p _ _ _ (fun i => pay3_at x0 p i) (fun i => pay5_at x0 x1 x2 x3 x4 x5 x6 x7 p i) k)

/-- The stored colour at row `p`, channel `q`, of the block: the colour head on row `p`. -/
theorem rgb_apply (x0 : Vec Ideal S1024x90 .bf16) (x1 : Vec Ideal S63x256 .bf16) (x2 : Vec Ideal S256 .f32) (x3 : Vec Ideal S256x256 .bf16) (x4 : Vec Ideal S256 .f32) (x5 : Vec Ideal S256x256 .bf16) (x6 : Vec Ideal S256 .f32) (x7 : Vec Ideal S256x256 .bf16) (x8 : Vec Ideal S256 .f32) (x9 : Vec Ideal S63x256 .bf16) (x10 : Vec Ideal S256x256 .bf16) (x11 : Vec Ideal S256 .f32) (x12 : Vec Ideal S256x256 .bf16) (x13 : Vec Ideal S256 .f32) (x14 : Vec Ideal S256x256 .bf16) (x15 : Vec Ideal S256 .f32) (x16 : Vec Ideal S256x256 .bf16) (x17 : Vec Ideal S256 .f32) (x18 : Vec Ideal S256x257 .bf16) (x19 : Vec Ideal S257 .f32) (x20 : Vec Ideal S27x256 .bf16) (x21 : Vec Ideal S256x256 .bf16) (x22 : Vec Ideal S256 .f32) (x23 : Vec Ideal S256x3 .bf16) (x24 : Vec Ideal S3 .f32) (p : Fin 1024) (q : Fin 3) :
    k0_pay1 (F := Ideal) (k0_pay9 (k0_pay4 x0) (k0_pay6 (k0_pay3 x0) x8 (k0_pay5 x0 x1 x2 x3 x4 x5 x6 x7) x11 x9 x10 x12 x13 x14 x15) x16 x17 x18 x19 x22 x20 x21 x23) (k0_pay10 x24) (ix2 p q)
      = colour (tailPart (K₁ := 63) (K₂ := 27) rfl (row x0 p)) (tailPart (K₁ := 1) (K₂ := 256) rfl (hid (trunk2 (headPart (K₁ := 63) (K₂ := 27) rfl (row x0 p)) (trunk1 (headPart (K₁ := 63) (K₂ := 27) rfl (row x0 p)) (mat x1) (vec x2) (mat x3) (vec x4) (mat x5) (vec x6) (mat x7) (vec x8)) (mat x9) (mat x10) (vec x11) (mat x12) (vec x13) (mat x14) (vec x15) (mat x16) (vec x17)) (mat x18) (vec x19)))
          (mat x20) (mat x21) (vec x22) (mat x23) (vec x24) q := by
  unfold colour lin trunk2 trunk1
  refine add_at _ _ p _ _ (fun i => pay9_at _ _ x16 x17 x18 x19 x22 x20 x21 x23 p _ _ (fun k => pay4_at x0 p k) (fun k =>
    pay6_at _ x8 _ x11 x9 x10 x12 x13 x14 x15 p _ _ _ (fun i => pay3_at x0 p i) (fun i => pay5_at x0 x1 x2 x3 x4 x5 x6 x7 p i) k) i)
    (fun i => pay10_at x24 p i) q

end Cert.KernelIdeal.Pay

end
-- ==== Proof.KernelBlock.lean ====
/-
  What one grid point of the kernel leaves in its output block, as the network of Spec on the loaded blocks.

  The body stores the three colour columns and the density column of its [1024, 4] output block: two stores
  whose rectangles together cover the block. By KernelPay each stored value at a block row is the network on
  that row of the input block, so the whole output block is one function (`blkOut`) of the loaded blocks.
-/
import proofs.«139490_j46471546142968_1_alg».proof.Proof.KernelIdealValue
import proofs.«139490_j46471546142968_1_alg».proof.Proof.KernelPay
import proofs.«139490_j46471546142968_1_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.GenP Idealize.ShloMosaic Idealize.ShloMosaic.TcCoe Idealize.ShloMosaic.Tactic Idealize.ShloMosaic.ValueIdx Idealize.SL.Sem Nerf
open Idealize.ShloMosaic.Pipeline (Dat)

/-- The output row with the two skip layers' weight matrices given in two parts each, as the kernel holds them. -/
def blkRow (x : Fin 90 → EReal) (d1w : Fin 63 → Fin 256 → EReal) (d1b : Fin 256 → EReal) (d2w : Fin 256 → Fin 256 → EReal) (d2b : Fin 256 → EReal)
    (d3w : Fin 256 → Fin 256 → EReal) (d3b : Fin 256 → EReal) (d4w : Fin 256 → Fin 256 → EReal) (d4b : Fin 256 → EReal)
    (e1p : Fin 63 → Fin 256 → EReal) (e1h : Fin 256 → Fin 256 → EReal) (e1b : Fin 256 → EReal)
    (e2w : Fin 256 → Fin 256 → EReal) (e2b : Fin 256 → EReal) (e3w : Fin 256 → Fin 256 → EReal) (e3b : Fin 256 → EReal)
    (e4w : Fin 256 → Fin 256 → EReal) (e4b : Fin 256 → EReal)
    (e5w : Fin 256 → Fin 257 → EReal) (e5b : Fin 257 → EReal)
    (c1v : Fin 27 → Fin 256 → EReal) (c1f : Fin 256 → Fin 256 → EReal) (c1b : Fin 256 → EReal)
    (c2w : Fin 256 → Fin 3 → EReal) (c2b : Fin 3 → EReal) : Fin 4 → EReal :=
  fun q =>
    if h : q.val < 3 then
      colour (tailPart (K₁ := 63) (K₂ := 27) rfl x) (tailPart (K₁ := 1) (K₂ := 256) rfl (hid (trunk2 (headPart (K₁ := 63) (K₂ := 27) rfl x) (trunk1 (headPart (K₁ := 63) (K₂ := 27) rfl x) d1w d1b d2w d2b d3w d3b d4w d4b) e1p e1h e1b e2w e2b e3w e3b e4w e4b) e5w e5b)) c1v c1f c1b c2w c2b ⟨q.val, h⟩
    else (hid (trunk2 (headPart (K₁ := 63) (K₂ := 27) rfl x) (trunk1 (headPart (K₁ := 63) (K₂ := 27) rfl x) d1w d1b d2w d2b d3w d3b d4w d4b) e1p e1h e1b e2w e2b e3w e3b e4w e4b) e5w e5b) ⟨0, by decide⟩

/-- The network's output row is that row at the upper and lower rows of the two skip layers' matrices. -/
theorem outRow_eq_blkRow (x : Fin 90 → EReal)
    (d1w : Fin 63 → Fin 256 → EReal) (d1b : Fin 256 → EReal) (d2w : Fin 256 → Fin 256 → EReal) (d2b : Fin 256 → EReal)
    (d3w : Fin 256 → Fin 256 → EReal) (d3b : Fin 256 → EReal) (d4w : Fin 256 → Fin 256 → EReal) (d4b : Fin 256 → EReal)
    (e1w : Fin 319 → Fin 256 → EReal) (e1b : Fin 256 → EReal)
    (e2w : Fin 256 → Fin 256 → EReal) (e2b : Fin 256 → EReal) (e3w : Fin 256 → Fin 256 → EReal) (e3b : Fin 256 → EReal)
    (e4w : Fin 256 → Fin 256 → EReal) (e4b : Fin 256 → EReal)
    (e5w : Fin 256 → Fin 257 → EReal) (e5b : Fin 257 → EReal)
    (c1w : Fin 283 → Fin 256 → EReal) (c1b : Fin 256 → EReal) (c2w : Fin 256 → Fin 3 → EReal) (c2b : Fin 3 → EReal) :
    outRow x d1w d1b d2w d2b d3w d3b d4w d4b e1w e1b e2w e2b e3w e3b e4w e4b e5w e5b c1w c1b c2w c2b
      = blkRow x d1w d1b d2w d2b d3w d3b d4w d4b (top (K₁ := 63) (K₂ := 256) rfl e1w) (bot (K₁ := 63) (K₂ := 256) rfl e1w) e1b
          e2w e2b e3w e3b e4w e4b e5w e5b (top (K₁ := 27) (K₂ := 256) rfl c1w) (bot (K₁ := 27) (K₂ := 256) rfl c1w) c1b c2w c2b := rfl

/-- What one grid point leaves in the output block, as a function of the blocks the body loaded: row `y 0`
    of the block is the network on row `y 0` of the input block. -/
def blkOut (x0 : Vec Ideal S1024x90 .bf16) (x1 : Vec Ideal S63x256 .bf16) (x2 : Vec Ideal S256 .f32) (x3 : Vec Ideal S256x256 .bf16) (x4 : Vec Ideal S256 .f32) (x5 : Vec Ideal S256x256 .bf16) (x6 : Vec Ideal S256 .f32) (x7 : Vec Ideal S256x256 .bf16) (x8 : Vec Ideal S256 .f32) (x9 : Vec Ideal S63x256 .bf16) (x10 : Vec Ideal S256x256 .bf16) (x11 : Vec Ideal S256 .f32) (x12 : Vec Ideal S256x256 .bf16) (x13 : Vec Ideal S256 .f32) (x14 : Vec Ideal S256x256 .bf16) (x15 : Vec Ideal S256 .f32) (x16 : Vec Ideal S256x256 .bf16) (x17 : Vec Ideal S256 .f32) (x18 : Vec Ideal S256x257 .bf16) (x19 : Vec Ideal S257 .f32) (x20 : Vec Ideal S27x256 .bf16) (x21 : Vec Ideal S256x256 .bf16) (x22 : Vec Ideal S256 .f32) (x23 : Vec Ideal S256x3 .bf16) (x24 : Vec Ideal S3 .f32) : S1024x4.Idx → EReal :=
  fun y => blkRow (row x0 (y 0)) (mat x1) (vec x2) (mat x3) (vec x4) (mat x5) (vec x6) (mat x7) (vec x8) (mat x9) (mat x10) (vec x11) (mat x12) (vec x13) (mat x14) (vec x15) (mat x16) (vec x17) (mat x18) (vec x19) (mat x20) (mat x21) (vec x22) (mat x23) (vec x24) (y 1)

theorem hz2 : (![0, 0] : Fin 2 → Nat) = fun _ => 0 := funext fun a => by fin_cases a <;> rfl
theorem hz1 : (![0] : Fin 1 → Nat) = fun _ => 0 := funext fun a => by fin_cases a; rfl

/-- The body's two stores, last first: the density column at offset [0, 3], the three colour columns at [0, 0]. -/
theorem out0_canon (c : Dev nD) (i : grid0.Coords) (arg1 : Memref sig .tc .vmem S1024x90 .bf16) (harg1 : arg1.IsWhole) (arg2 : Memref sig .tc .vmem S63x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S63x256 .bf16) (harg10 : arg10.IsWhole) (arg11 : Memref sig .tc .vmem S256x256 .bf16) (harg11 : arg11.IsWhole) (arg12 : Memref sig .tc .vmem S256 .f32) (harg12 : arg12.IsWhole) (arg13 : Memref sig .tc .vmem S256x256 .bf16) (harg13 : arg13.IsWhole) (arg14 : Memref sig .tc .vmem S256 .f32) (harg14 : arg14.IsWhole) (arg15 : Memref sig .tc .vmem S256x256 .bf16) (harg15 : arg15.IsWhole) (arg16 : Memref sig .tc .vmem S256 .f32) (harg16 : arg16.IsWhole) (arg17 : Memref sig .tc .vmem S256x256 .bf16) (harg17 : arg17.IsWhole) (arg18 : Memref sig .tc .vmem S256 .f32) (harg18 : arg18.IsWhole) (arg19 : Memref sig .tc .vmem S256x257 .bf16) (harg19 : arg19.IsWhole) (arg20 : Memref sig .tc .vmem S257 .f32) (harg20 : arg20.IsWhole) (arg21 : Memref sig .tc .vmem S27x256 .bf16) (harg21 : arg21.IsWhole) (arg22 : Memref sig .tc .vmem S256x256 .bf16) (harg22 : arg22.IsWhole) (arg23 : Memref sig .tc .vmem S256 .f32) (harg23 : arg23.IsWhole) (arg24 : Memref sig .tc .vmem S256x3 .bf16) (harg24 : arg24.IsWhole) (arg25 : Memref sig .tc .vmem S3 .f32) (harg25 : arg25.IsWhole) (arg26 : Memref sig .tc .vmem S1024x4 .f32) (harg26 : arg26.IsWhole) (x0 : Vec Ideal S1024x90 .bf16) (x1 : Vec Ideal S63x256 .bf16) (x2 : Vec Ideal S256 .f32) (x3 : Vec Ideal S256x256 .bf16) (x4 : Vec Ideal S256 .f32) (x5 : Vec Ideal S256x256 .bf16) (x6 : Vec Ideal S256 .f32) (x7 : Vec Ideal S256x256 .bf16) (x8 : Vec Ideal S256 .f32) (x9 : Vec Ideal S63x256 .bf16) (x10 : Vec Ideal S256x256 .bf16) (x11 : Vec Ideal S256 .f32) (x12 : Vec Ideal S256x256 .bf16) (x13 : Vec Ideal S256 .f32) (x14 : Vec Ideal S256x256 .bf16) (x15 : Vec Ideal S256 .f32) (x16 : Vec Ideal S256x256 .bf16) (x17 : Vec Ideal S256 .f32) (x18 : Vec Ideal S256x257 .bf16) (x19 : Vec Ideal S257 .f32) (x20 : Vec Ideal S27x256 .bf16) (x21 : Vec Ideal S256x256 .bf16) (x22 : Vec Ideal S256 .f32) (x23 : Vec Ideal S256x3 .bf16) (x24 : Vec Ideal S3 .f32) :
    out0_A_25 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23 x24
      = View.canon [⟨Rect.unit ![0, 3] ![1024, 1] inb_S1024x4_S1024x1_0_3, k0_pay8 (F := Ideal) (k0_pay6 (k0_pay3 x0) x8 (k0_pay5 x0 x1 x2 x3 x4 x5 x6 x7) x11 x9 x10 x12 x13 x14 x15) x16 x17 x18 x19⟩,
          ⟨Rect.unit ![0, 0] ![1024, 3] inb_S1024x4_S1024x3_0_0, k0_pay1 (F := Ideal) (k0_pay9 (k0_pay4 x0) (k0_pay6 (k0_pay3 x0) x8 (k0_pay5 x0 x1 x2 x3 x4 x5 x6 x7) x11 x9 x10 x12 x13 x14 x15) x16 x17 x18 x19 x22 x20 x21 x23) (k0_pay10 x24)⟩] := by
  unfold out0_A_25
  rw [View.read_writes_eq_canon _ _ _ (cover0_A_25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23 x24)]
  unfold kernelRun0_A
  dsimp only
  sl_unfold_words
  simp only [View.readAt_eq_ld, Memref.IsWhole.read_unread, View.ld_unit_zero (S := S1024x90) hz2, View.ld_unit_zero (S := S63x256) hz2,
    View.ld_unit_zero (S := S256x256) hz2, View.ld_unit_zero (S := S256x257) hz2, View.ld_unit_zero (S := S27x256) hz2,
    View.ld_unit_zero (S := S256x3) hz2, View.ld_unit_zero (S := S256) hz1, View.ld_unit_zero (S := S257) hz1, View.ld_unit_zero (S := S3) hz1]

/-- The density store's value at its local index is the block function at the index's place in the block: column 3. -/
theorem den_piece (x0 : Vec Ideal S1024x90 .bf16) (x1 : Vec Ideal S63x256 .bf16) (x2 : Vec Ideal S256 .f32) (x3 : Vec Ideal S256x256 .bf16) (x4 : Vec Ideal S256 .f32) (x5 : Vec Ideal S256x256 .bf16) (x6 : Vec Ideal S256 .f32) (x7 : Vec Ideal S256x256 .bf16) (x8 : Vec Ideal S256 .f32) (x9 : Vec Ideal S63x256 .bf16) (x10 : Vec Ideal S256x256 .bf16) (x11 : Vec Ideal S256 .f32) (x12 : Vec Ideal S256x256 .bf16) (x13 : Vec Ideal S256 .f32) (x14 : Vec Ideal S256x256 .bf16) (x15 : Vec Ideal S256 .f32) (x16 : Vec Ideal S256x256 .bf16) (x17 : Vec Ideal S256 .f32) (x18 : Vec Ideal S256x257 .bf16) (x19 : Vec Ideal S257 .f32) (x20 : Vec Ideal S27x256 .bf16) (x21 : Vec Ideal S256x256 .bf16) (x22 : Vec Ideal S256 .f32) (x23 : Vec Ideal S256x3 .bf16) (x24 : Vec Ideal S3 .f32) (x : (⟨2, ![1024, 1]⟩ : Shape).Idx) :
    k0_pay8 (F := Ideal) (k0_pay6 (k0_pay3 x0) x8 (k0_pay5 x0 x1 x2 x3 x4 x5 x6 x7) x11 x9 x10 x12 x13 x14 x15) x16 x17 x18 x19 x = blkOut x0 x1 x2 x3 x4 x5 x6 x7 x8 x9 x10 x11 x12 x13 x14 x15 x16 x17 x18 x19 x20 x21 x22 x23 x24 ((Rect.unit (s := S1024x4) ![0, 3] ![1024, 1] inb_S1024x4_S1024x1_0_3).emb x) := by
  obtain ⟨p, q, rfl⟩ : ∃ (p : Fin 1024) (q : Fin 1), x = ix2 p q := ⟨x 0, x 1, eq_ix2 x⟩
  obtain rfl : q = 0 := Subsingleton.elim _ _
  have e0 : (Rect.unit (s := S1024x4) ![0, 3] ![1024, 1] inb_S1024x4_S1024x1_0_3).emb (ix2 p (0 : Fin 1))
      = ix2 (n0 := 1024) (n1 := 4) p ⟨3, by decide⟩ := by
    funext a; apply Fin.ext
    match a with
    | ⟨0, _⟩ => show 0 + 1 * p.val = p.val; omega
    | ⟨1, _⟩ => rfl
  rw [e0]
  refine (Pay.den_apply x0 x1 x2 x3 x4 x5 x6 x7 x8 x9 x10 x11 x12 x13 x14 x15 x16 x17 x18 x19 p).trans ?_
  show _ = blkRow (row x0 p) (mat x1) (vec x2) (mat x3) (vec x4) (mat x5) (vec x6) (mat x7) (vec x8) (mat x9) (mat x10) (vec x11) (mat x12) (vec x13) (mat x14) (vec x15) (mat x16) (vec x17) (mat x18) (vec x19) (mat x20) (mat x21) (vec x22) (mat x23) (vec x24) ⟨3, by decide⟩
  unfold blkRow
  rw [dif_neg (by decide)]

/-- The colour store's value at its local index is the block function at the same row and column. -/
theorem rgb_piece (x0 : Vec Ideal S1024x90 .bf16) (x1 : Vec Ideal S63x256 .bf16) (x2 : Vec Ideal S256 .f32) (x3 : Vec Ideal S256x256 .bf16) (x4 : Vec Ideal S256 .f32) (x5 : Vec Ideal S256x256 .bf16) (x6 : Vec Ideal S256 .f32) (x7 : Vec Ideal S256x256 .bf16) (x8 : Vec Ideal S256 .f32) (x9 : Vec Ideal S63x256 .bf16) (x10 : Vec Ideal S256x256 .bf16) (x11 : Vec Ideal S256 .f32) (x12 : Vec Ideal S256x256 .bf16) (x13 : Vec Ideal S256 .f32) (x14 : Vec Ideal S256x256 .bf16) (x15 : Vec Ideal S256 .f32) (x16 : Vec Ideal S256x256 .bf16) (x17 : Vec Ideal S256 .f32) (x18 : Vec Ideal S256x257 .bf16) (x19 : Vec Ideal S257 .f32) (x20 : Vec Ideal S27x256 .bf16) (x21 : Vec Ideal S256x256 .bf16) (x22 : Vec Ideal S256 .f32) (x23 : Vec Ideal S256x3 .bf16) (x24 : Vec Ideal S3 .f32) (x : (⟨2, ![1024, 3]⟩ : Shape).Idx) :
    k0_pay1 (F := Ideal) (k0_pay9 (k0_pay4 x0) (k0_pay6 (k0_pay3 x0) x8 (k0_pay5 x0 x1 x2 x3 x4 x5 x6 x7) x11 x9 x10 x12 x13 x14 x15) x16 x17 x18 x19 x22 x20 x21 x23) (k0_pay10 x24) x = blkOut x0 x1 x2 x3 x4 x5 x6 x7 x8 x9 x10 x11 x12 x13 x14 x15 x16 x17 x18 x19 x20 x21 x22 x23 x24 ((Rect.unit (s := S1024x4) ![0, 0] ![1024, 3] inb_S1024x4_S1024x3_0_0).emb x) := by
  obtain ⟨p, q, rfl⟩ : ∃ (p : Fin 1024) (q : Fin 3), x = ix2 p q := ⟨x 0, x 1, eq_ix2 x⟩
  have e0 : (Rect.unit (s := S1024x4) ![0, 0] ![1024, 3] inb_S1024x4_S1024x3_0_0).emb (ix2 p q)
      = ix2 (n0 := 1024) (n1 := 4) p ⟨q.val, by have := q.isLt; omega⟩ := by
    funext a; apply Fin.ext
    match a with
    | ⟨0, _⟩ => show 0 + 1 * p.val = p.val; omega
    | ⟨1, _⟩ => show 0 + 1 * q.val = q.val; omega
  rw [e0]
  refine (Pay.rgb_apply x0 x1 x2 x3 x4 x5 x6 x7 x8 x9 x10 x11 x12 x13 x14 x15 x16 x17 x18 x19 x20 x21 x22 x23 x24 p q).trans ?_
  show _ = blkRow (row x0 p) (mat x1) (vec x2) (mat x3) (vec x4) (mat x5) (vec x6) (mat x7) (vec x8) (mat x9) (mat x10) (vec x11) (mat x12) (vec x13) (mat x14) (vec x15) (mat x16) (vec x17) (mat x18) (vec x19) (mat x20) (mat x21) (vec x22) (mat x23) (vec x24) ⟨q.val, by have := q.isLt; omega⟩
  unfold blkRow
  rw [dif_pos (show (⟨q.val, by have := q.isLt; omega⟩ : Fin 4).val < 3 from q.isLt)]

/-- So the output block after one grid point is the block function of the loaded blocks, at every index. -/
theorem out0_apply (c : Dev nD) (i : grid0.Coords) (arg1 : Memref sig .tc .vmem S1024x90 .bf16) (harg1 : arg1.IsWhole) (arg2 : Memref sig .tc .vmem S63x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S63x256 .bf16) (harg10 : arg10.IsWhole) (arg11 : Memref sig .tc .vmem S256x256 .bf16) (harg11 : arg11.IsWhole) (arg12 : Memref sig .tc .vmem S256 .f32) (harg12 : arg12.IsWhole) (arg13 : Memref sig .tc .vmem S256x256 .bf16) (harg13 : arg13.IsWhole) (arg14 : Memref sig .tc .vmem S256 .f32) (harg14 : arg14.IsWhole) (arg15 : Memref sig .tc .vmem S256x256 .bf16) (harg15 : arg15.IsWhole) (arg16 : Memref sig .tc .vmem S256 .f32) (harg16 : arg16.IsWhole) (arg17 : Memref sig .tc .vmem S256x256 .bf16) (harg17 : arg17.IsWhole) (arg18 : Memref sig .tc .vmem S256 .f32) (harg18 : arg18.IsWhole) (arg19 : Memref sig .tc .vmem S256x257 .bf16) (harg19 : arg19.IsWhole) (arg20 : Memref sig .tc .vmem S257 .f32) (harg20 : arg20.IsWhole) (arg21 : Memref sig .tc .vmem S27x256 .bf16) (harg21 : arg21.IsWhole) (arg22 : Memref sig .tc .vmem S256x256 .bf16) (harg22 : arg22.IsWhole) (arg23 : Memref sig .tc .vmem S256 .f32) (harg23 : arg23.IsWhole) (arg24 : Memref sig .tc .vmem S256x3 .bf16) (harg24 : arg24.IsWhole) (arg25 : Memref sig .tc .vmem S3 .f32) (harg25 : arg25.IsWhole) (arg26 : Memref sig .tc .vmem S1024x4 .f32) (harg26 : arg26.IsWhole) (x0 : Vec Ideal S1024x90 .bf16) (x1 : Vec Ideal S63x256 .bf16) (x2 : Vec Ideal S256 .f32) (x3 : Vec Ideal S256x256 .bf16) (x4 : Vec Ideal S256 .f32) (x5 : Vec Ideal S256x256 .bf16) (x6 : Vec Ideal S256 .f32) (x7 : Vec Ideal S256x256 .bf16) (x8 : Vec Ideal S256 .f32) (x9 : Vec Ideal S63x256 .bf16) (x10 : Vec Ideal S256x256 .bf16) (x11 : Vec Ideal S256 .f32) (x12 : Vec Ideal S256x256 .bf16) (x13 : Vec Ideal S256 .f32) (x14 : Vec Ideal S256x256 .bf16) (x15 : Vec Ideal S256 .f32) (x16 : Vec Ideal S256x256 .bf16) (x17 : Vec Ideal S256 .f32) (x18 : Vec Ideal S256x257 .bf16) (x19 : Vec Ideal S257 .f32) (x20 : Vec Ideal S27x256 .bf16) (x21 : Vec Ideal S256x256 .bf16) (x22 : Vec Ideal S256 .f32) (x23 : Vec Ideal S256x3 .bf16) (x24 : Vec Ideal S3 .f32) (y : S1024x4.Idx) :
    out0_A_25 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23 x24 y = blkOut x0 x1 x2 x3 x4 x5 x6 x7 x8 x9 x10 x11 x12 x13 x14 x15 x16 x17 x18 x19 x20 x21 x22 x23 x24 y := by
  rw [out0_canon]
  refine View.canon_apply_of_pieces (Val := Elt Ideal) (S := S1024x4) (e := EltTy.f32) (blkOut x0 x1 x2 x3 x4 x5 x6 x7 x8 x9 x10 x11 x12 x13 x14 x15 x16 x17 x18 x19 x20 x21 x22 x23 x24) _ ?_ y ?_
  · intro pc hpc x
    rcases List.mem_cons.mp hpc with rfl | hpc
    · exact den_piece x0 x1 x2 x3 x4 x5 x6 x7 x8 x9 x10 x11 x12 x13 x14 x15 x16 x17 x18 x19 x20 x21 x22 x23 x24 x
    · rcases List.mem_cons.mp hpc with rfl | hpc
      · exact rgb_piece x0 x1 x2 x3 x4 x5 x6 x7 x8 x9 x10 x11 x12 x13 x14 x15 x16 x17 x18 x19 x20 x21 x22 x23 x24 x
      · exact absurd hpc List.not_mem_nil
  · have h0 : (y 0).val < 1024 := idx2_lt0 y
    have h1 : (y 1).val < 4 := idx2_lt1 y
    by_cases h : (y 1).val < 3
    · refine ⟨_, List.mem_cons_of_mem _ List.mem_cons_self, ?_⟩
      rw [Rect.mem_set_unit]
      intro a
      match a with
      | ⟨0, _⟩ => exact ⟨Nat.zero_le _, by show (y 0).val < 0 + 1024; omega⟩
      | ⟨1, _⟩ => exact ⟨Nat.zero_le _, by show (y 1).val < 0 + 3; omega⟩
    · refine ⟨_, List.mem_cons_self, ?_⟩
      rw [Rect.mem_set_unit]
      intro a
      match a with
      | ⟨0, _⟩ => exact ⟨Nat.zero_le _, by show (y 0).val < 0 + 1024; omega⟩
      | ⟨1, _⟩ => exact ⟨by show 3 ≤ (y 1).val; omega, by show (y 1).val < 3 + 1; omega⟩

end Cert.KernelIdeal.Blocks

end
-- ==== Proof.BlockReads.lean ====
/- A table of 24 cases, one per window of the pallas_call whose block is its whole array (windows 1 to 24: the weight
   matrices and bias vectors). For window w: the block index is zero on every axis at every grid point (decided over
   the 128 points), so the block read at a point is the array as the region finds it; and that array is the argument
   itself, the argument narrowed to bf16 (the identity on extended reals), or a row slice of an argument narrowed. -/
import proofs.«139490_j46471546142968_1_alg».proof.Proof.KernelIdealValue
import Idealize.ShloMosaic.Lib.Pipeline.Value
import Idealize.ShloMosaic.Lib.ValueIdx

set_option maxRecDepth 16384

noncomputable section

namespace Cert.KernelIdeal.BlockReads

open Cert.KernelIdeal Cert.KernelIdeal.Gen Cert.KernelIdeal.GenP Idealize.ShloMosaic Idealize.ShloMosaic.TcCoe Idealize.ShloMosaic.Tactic Idealize.ShloMosaic.ValueIdx Idealize.SL.Sem

variable (m : (ℓ : Loc nD τ sig) → Buf (Elt Ideal) ℓ)

/-- Window 1: its block index is zero at every grid point. -/
theorem idx_1 : ∀ t : Fin cfg0.N, win0_1.index t (0 : Fin 2) = 0 ∧ win0_1.index t (1 : Fin 2) = 0 :=
  (by decide +kernel : ∀ t : Fin grid0.N, _)

/-- The array window 1 stages is argument main_arg1 narrowed to bf16: the same extended reals. -/
theorem V_1 (c : Dev nD) : (V m c main_v1 : S63x256.Idx → EReal) = m ((c : Thread nD τ).loc main_arg1) := by
  dsimp only [V, hostOps0]; after_results; rfl

/-- Window 1: its block at any grid point is that array, whole. -/
theorem blk_1 (c : Dev nD) (t : Fin cfg0.N) : (iblk m c 1 t : S63x256.Idx → EReal)
    = m ((c : Thread nD τ).loc main_arg1) := by
  have e := idx_1 t
  funext y
  refine Eq.trans ?_ (congrFun (V_1 m c) y)
  show V m c main_v1 (((cfg0.win 1).blk t).view.emb y) = V m c main_v1 y
  congr 1
  funext a; apply Fin.ext
  match a with
  | ⟨0, _⟩ => show win0_1.index t (0 : Fin 2) * 63 + 1 * (y 0).val = (y 0).val; omega
  | ⟨1, _⟩ => show win0_1.index t (1 : Fin 2) * 256 + 1 * (y 1).val = (y 1).val; omega

/-- Window 2: its block index is zero at every grid point. -/
theorem idx_2 : ∀ t : Fin cfg0.N, win0_2.index t (0 : Fin 1) = 0 :=
  (by decide +kernel : ∀ t : Fin grid0.N, _)

/-- Window 2: its block at any grid point is that array, whole. -/
theorem blk_2 (c : Dev nD) (t : Fin cfg0.N) : (iblk m c 2 t : S256.Idx → EReal)
    = m ((c : Thread nD τ).loc main_arg2) := by
  have e := idx_2 t
  funext y
  refine Eq.trans ?_ (congrFun (V_main_arg2 m c) y)
  show V m c main_arg2 (((cfg0.win 2).blk t).view.emb y) = V m c main_arg2 y
  congr 1
  funext a; apply Fin.ext
  match a with
  | ⟨0, _⟩ => show win0_2.index t (0 : Fin 1) * 256 + 1 * (y 0).val = (y 0).val; omega

/-- Window 3: its block index is zero at every grid point. -/
theorem idx_3 : ∀ t : Fin cfg0.N, win0_3.index t (0 : Fin 2) = 0 ∧ win0_3.index t (1 : Fin 2) = 0 :=
  (by decide +kernel : ∀ t : Fin grid0.N, _)

/-- The array window 3 stages is argument main_arg3 narrowed to bf16: the same extended reals. -/
theorem V_3 (c : Dev nD) : (V m c main_v2 : S256x256.Idx → EReal) = m ((c : Thread nD τ).loc main_arg3) := by
  dsimp only [V, hostOps0]; after_results; rfl

/-- Window 3: its block at any grid point is that array, whole. -/
theorem blk_3 (c : Dev nD) (t : Fin cfg0.N) : (iblk m c 3 t : S256x256.Idx → EReal)
    = m ((c : Thread nD τ).loc main_arg3) := by
  have e := idx_3 t
  funext y
  refine Eq.trans ?_ (congrFun (V_3 m c) y)
  show V m c main_v2 (((cfg0.win 3).blk t).view.emb y) = V m c main_v2 y
  congr 1
  funext a; apply Fin.ext
  match a with
  | ⟨0, _⟩ => show win0_3.index t (0 : Fin 2) * 256 + 1 * (y 0).val = (y 0).val; omega
  | ⟨1, _⟩ => show win0_3.index t (1 : Fin 2) * 256 + 1 * (y 1).val = (y 1).val; omega

/-- Window 4: its block index is zero at every grid point. -/
theorem idx_4 : ∀ t : Fin cfg0.N, win0_4.index t (0 : Fin 1) = 0 :=
  (by decide +kernel : ∀ t : Fin grid0.N, _)

/-- Window 4: its block at any grid point is that array, whole. -/
theorem blk_4 (c : Dev nD) (t : Fin cfg0.N) : (iblk m c 4 t : S256.Idx → EReal)
    = m ((c : Thread nD τ).loc main_arg4) := by
  have e := idx_4 t
  funext y
  refine Eq.trans ?_ (congrFun (V_main_arg4 m c) y)
  show V m c main_arg4 (((cfg0.win 4).blk t).view.emb y) = V m c main_arg4 y
  congr 1
  funext a; apply Fin.ext
  match a with
  | ⟨0, _⟩ => show win0_4.index t (0 : Fin 1) * 256 + 1 * (y 0).val = (y 0).val; omega

/-- Window 5: its block index is zero at every grid point. -/
theorem idx_5 : ∀ t : Fin cfg0.N, win0_5.index t (0 : Fin 2) = 0 ∧ win0_5.index t (1 : Fin 2) = 0 :=
  (by decide +kernel : ∀ t : Fin grid0.N, _)

/-- The array window 5 stages is argument main_arg5 narrowed to bf16: the same extended reals. -/
theorem V_5 (c : Dev nD) : (V m c main_v3 : S256x256.Idx → EReal) = m ((c : Thread nD τ).loc main_arg5) := by
  dsimp only [V, hostOps0]; after_results; rfl

/-- Window 5: its block at any grid point is that array, whole. -/
theorem blk_5 (c : Dev nD) (t : Fin cfg0.N) : (iblk m c 5 t : S256x256.Idx → EReal)
    = m ((c : Thread nD τ).loc main_arg5) := by
  have e := idx_5 t
  funext y
  refine Eq.trans ?_ (congrFun (V_5 m c) y)
  show V m c main_v3 (((cfg0.win 5).blk t).view.emb y) = V m c main_v3 y
  congr 1
  funext a; apply Fin.ext
  match a with
  | ⟨0, _⟩ => show win0_5.index t (0 : Fin 2) * 256 + 1 * (y 0).val = (y 0).val; omega
  | ⟨1, _⟩ => show win0_5.index t (1 : Fin 2) * 256 + 1 * (y 1).val = (y 1).val; omega

/-- Window 6: its block index is zero at every grid point. -/
theorem idx_6 : ∀ t : Fin cfg0.N, win0_6.index t (0 : Fin 1) = 0 :=
  (by decide +kernel : ∀ t : Fin grid0.N, _)

/-- Window 6: its block at any grid point is that array, whole. -/
theorem blk_6 (c : Dev nD) (t : Fin cfg0.N) : (iblk m c 6 t : S256.Idx → EReal)
    = m ((c : Thread nD τ).loc main_arg6) := by
  have e := idx_6 t
  funext y
  refine Eq.trans ?_ (congrFun (V_main_arg6 m c) y)
  show V m c main_arg6 (((cfg0.win 6).blk t).view.emb y) = V m c main_arg6 y
  congr 1
  funext a; apply Fin.ext
  match a with
  | ⟨0, _⟩ => show win0_6.index t (0 : Fin 1) * 256 + 1 * (y 0).val = (y 0).val; omega

/-- Window 7: its block index is zero at every grid point. -/
theorem idx_7 : ∀ t : Fin cfg0.N, win0_7.index t (0 : Fin 2) = 0 ∧ win0_7.index t (1 : Fin 2) = 0 :=
  (by decide +kernel : ∀ t : Fin grid0.N, _)

/-- The array window 7 stages is argument main_arg7 narrowed to bf16: the same extended reals. -/
theorem V_7 (c : Dev nD) : (V m c main_v4 : S256x256.Idx → EReal) = m ((c : Thread nD τ).loc main_arg7) := by
  dsimp only [V, hostOps0]; after_results; rfl

/-- Window 7: its block at any grid point is that array, whole. -/
theorem blk_7 (c : Dev nD) (t : Fin cfg0.N) : (iblk m c 7 t : S256x256.Idx → EReal)
    = m ((c : Thread nD τ).loc main_arg7) := by
  have e := idx_7 t
  funext y
  refine Eq.trans ?_ (congrFun (V_7 m c) y)
  show V m c main_v4 (((cfg0.win 7).blk t).view.emb y) = V m c main_v4 y
  congr 1
  funext a; apply Fin.ext
  match a with
  | ⟨0, _⟩ => show win0_7.index t (0 : Fin 2) * 256 + 1 * (y 0).val = (y 0).val; omega
  | ⟨1, _⟩ => show win0_7.index t (1 : Fin 2) * 256 + 1 * (y 1).val = (y 1).val; omega

/-- Window 8: its block index is zero at every grid point. -/
theorem idx_8 : ∀ t : Fin cfg0.N, win0_8.index t (0 : Fin 1) = 0 :=
  (by decide +kernel : ∀ t : Fin grid0.N, _)

/-- Window 8: its block at any grid point is that array, whole. -/
theorem blk_8 (c : Dev nD) (t : Fin cfg0.N) : (iblk m c 8 t : S256.Idx → EReal)
    = m ((c : Thread nD τ).loc main_arg8) := by
  have e := idx_8 t
  funext y
  refine Eq.trans ?_ (congrFun (V_main_arg8 m c) y)
  show V m c main_arg8 (((cfg0.win 8).blk t).view.emb y) = V m c main_arg8 y
  congr 1
  funext a; apply Fin.ext
  match a with
  | ⟨0, _⟩ => show win0_8.index t (0 : Fin 1) * 256 + 1 * (y 0).val = (y 0).val; omega

/-- Window 9: its block index is zero at every grid point. -/
theorem idx_9 : ∀ t : Fin cfg0.N, win0_9.index t (0 : Fin 2) = 0 ∧ win0_9.index t (1 : Fin 2) = 0 :=
  (by decide +kernel : ∀ t : Fin grid0.N, _)

/-- The array window 9 stages is 63 rows of argument main_arg9 from row 0 on, narrowed to bf16. -/
theorem V_9 (c : Dev nD) : (V m c main_v6 : S63x256.Idx → EReal)
    = extractStridedSlice S63x256 ![0, 0] (m ((c : Thread nD τ).loc main_arg9)) slices_S319x256_S63x256_0_0 := by
  dsimp only [V, hostOps0]; after_results; rfl

/-- Window 9: its block at any grid point is that array, whole. -/
theorem blk_9 (c : Dev nD) (t : Fin cfg0.N) : (iblk m c 9 t : S63x256.Idx → EReal)
    = extractStridedSlice S63x256 ![0, 0] (m ((c : Thread nD τ).loc main_arg9)) slices_S319x256_S63x256_0_0 := by
  have e := idx_9 t
  funext y
  refine Eq.trans ?_ (congrFun (V_9 m c) y)
  show V m c main_v6 (((cfg0.win 9).blk t).view.emb y) = V m c main_v6 y
  congr 1
  funext a; apply Fin.ext
  match a with
  | ⟨0, _⟩ => show win0_9.index t (0 : Fin 2) * 63 + 1 * (y 0).val = (y 0).val; omega
  | ⟨1, _⟩ => show win0_9.index t (1 : Fin 2) * 256 + 1 * (y 1).val = (y 1).val; omega

/-- Window 10: its block index is zero at every grid point. -/
theorem idx_10 : ∀ t : Fin cfg0.N, win0_10.index t (0 : Fin 2) = 0 ∧ win0_10.index t (1 : Fin 2) = 0 :=
  (by decide +kernel : ∀ t : Fin grid0.N, _)

/-- The array window 10 stages is 256 rows of argument main_arg9 from row 63 on, narrowed to bf16. -/
theorem V_10 (c : Dev nD) : (V m c main_v8 : S256x256.Idx → EReal)
    = extractStridedSlice S256x256 ![63, 0] (m ((c : Thread nD τ).loc main_arg9)) slices_S319x256_S256x256_63_0 := by
  dsimp only [V, hostOps0]; after_results; rfl

/-- Window 10: its block at any grid point is that array, whole. -/
theorem blk_10 (c : Dev nD) (t : Fin cfg0.N) : (iblk m c 10 t : S256x256.Idx → EReal)
    = extractStridedSlice S256x256 ![63, 0] (m ((c : Thread nD τ).loc main_arg9)) slices_S319x256_S256x256_63_0 := by
  have e := idx_10 t
  funext y
  refine Eq.trans ?_ (congrFun (V_10 m c) y)
  show V m c main_v8 (((cfg0.win 10).blk t).view.emb y) = V m c main_v8 y
  congr 1
  funext a; apply Fin.ext
  match a with
  | ⟨0, _⟩ => show win0_10.index t (0 : Fin 2) * 256 + 1 * (y 0).val = (y 0).val; omega
  | ⟨1, _⟩ => show win0_10.index t (1 : Fin 2) * 256 + 1 * (y 1).val = (y 1).val; omega

/-- Window 11: its block index is zero at every grid point. -/
theorem idx_11 : ∀ t : Fin cfg0.N, win0_11.index t (0 : Fin 1) = 0 :=
  (by decide +kernel : ∀ t : Fin grid0.N, _)

/-- Window 11: its block at any grid point is that array, whole. -/
theorem blk_11 (c : Dev nD) (t : Fin cfg0.N) : (iblk m c 11 t : S256.Idx → EReal)
    = m ((c : Thread nD τ).loc main_arg10) := by
  have e := idx_11 t
  funext y
  refine Eq.trans ?_ (congrFun (V_main_arg10 m c) y)
  show V m c main_arg10 (((cfg0.win 11).blk t).view.emb y) = V m c main_arg10 y
  congr 1
  funext a; apply Fin.ext
  match a with
  | ⟨0, _⟩ => show win0_11.index t (0 : Fin 1) * 256 + 1 * (y 0).val = (y 0).val; omega

/-- Window 12: its block index is zero at every grid point. -/
theorem idx_12 : ∀ t : Fin cfg0.N, win0_12.index t (0 : Fin 2) = 0 ∧ win0_12.index t (1 : Fin 2) = 0 :=
  (by decide +kernel : ∀ t : Fin grid0.N, _)

/-- The array window 12 stages is argument main_arg11 narrowed to bf16: the same extended reals. -/
theorem V_12 (c : Dev nD) : (V m c main_v9 : S256x256.Idx → EReal) = m ((c : Thread nD τ).loc main_arg11) := by
  dsimp only [V, hostOps0]; after_results; rfl

/-- Window 12: its block at any grid point is that array, whole. -/
theorem blk_12 (c : Dev nD) (t : Fin cfg0.N) : (iblk m c 12 t : S256x256.Idx → EReal)
    = m ((c : Thread nD τ).loc main_arg11) := by
  have e := idx_12 t
  funext y
  refine Eq.trans ?_ (congrFun (V_12 m c) y)
  show V m c main_v9 (((cfg0.win 12).blk t).view.emb y) = V m c main_v9 y
  congr 1
  funext a; apply Fin.ext
  match a with
  | ⟨0, _⟩ => show win0_12.index t (0 : Fin 2) * 256 + 1 * (y 0).val = (y 0).val; omega
  | ⟨1, _⟩ => show win0_12.index t (1 : Fin 2) * 256 + 1 * (y 1).val = (y 1).val; omega

/-- Window 13: its block index is zero at every grid point. -/
theorem idx_13 : ∀ t : Fin cfg0.N, win0_13.index t (0 : Fin 1) = 0 :=
  (by decide +kernel : ∀ t : Fin grid0.N, _)

/-- Window 13: its block at any grid point is that array, whole. -/
theorem blk_13 (c : Dev nD) (t : Fin cfg0.N) : (iblk m c 13 t : S256.Idx → EReal)
    = m ((c : Thread nD τ).loc main_arg12) := by
  have e := idx_13 t
  funext y
  refine Eq.trans ?_ (congrFun (V_main_arg12 m c) y)
  show V m c main_arg12 (((cfg0.win 13).blk t).view.emb y) = V m c main_arg12 y
  congr 1
  funext a; apply Fin.ext
  match a with
  | ⟨0, _⟩ => show win0_13.index t (0 : Fin 1) * 256 + 1 * (y 0).val = (y 0).val; omega

/-- Window 14: its block index is zero at every grid point. -/
theorem idx_14 : ∀ t : Fin cfg0.N, win0_14.index t (0 : Fin 2) = 0 ∧ win0_14.index t (1 : Fin 2) = 0 :=
  (by decide +kernel : ∀ t : Fin grid0.N, _)

/-- The array window 14 stages is argument main_arg13 narrowed to bf16: the same extended reals. -/
theorem V_14 (c : Dev nD) : (V m c main_v10 : S256x256.Idx → EReal) = m ((c : Thread nD τ).loc main_arg13) := by
  dsimp only [V, hostOps0]; after_results; rfl

/-- Window 14: its block at any grid point is that array, whole. -/
theorem blk_14 (c : Dev nD) (t : Fin cfg0.N) : (iblk m c 14 t : S256x256.Idx → EReal)
    = m ((c : Thread nD τ).loc main_arg13) := by
  have e := idx_14 t
  funext y
  refine Eq.trans ?_ (congrFun (V_14 m c) y)
  show V m c main_v10 (((cfg0.win 14).blk t).view.emb y) = V m c main_v10 y
  congr 1
  funext a; apply Fin.ext
  match a with
  | ⟨0, _⟩ => show win0_14.index t (0 : Fin 2) * 256 + 1 * (y 0).val = (y 0).val; omega
  | ⟨1, _⟩ => show win0_14.index t (1 : Fin 2) * 256 + 1 * (y 1).val = (y 1).val; omega

/-- Window 15: its block index is zero at every grid point. -/
theorem idx_15 : ∀ t : Fin cfg0.N, win0_15.index t (0 : Fin 1) = 0 :=
  (by decide +kernel : ∀ t : Fin grid0.N, _)

/-- Window 15: its block at any grid point is that array, whole. -/
theorem blk_15 (c : Dev nD) (t : Fin cfg0.N) : (iblk m c 15 t : S256.Idx → EReal)
    = m ((c : Thread nD τ).loc main_arg14) := by
  have e := idx_15 t
  funext y
  refine Eq.trans ?_ (congrFun (V_main_arg14 m c) y)
  show V m c main_arg14 (((cfg0.win 15).blk t).view.emb y) = V m c main_arg14 y
  congr 1
  funext a; apply Fin.ext
  match a with
  | ⟨0, _⟩ => show win0_15.index t (0 : Fin 1) * 256 + 1 * (y 0).val = (y 0).val; omega

/-- Window 16: its block index is zero at every grid point. -/
theorem idx_16 : ∀ t : Fin cfg0.N, win0_16.index t (0 : Fin 2) = 0 ∧ win0_16.index t (1 : Fin 2) = 0 :=
  (by decide +kernel : ∀ t : Fin grid0.N, _)

/-- The array window 16 stages is argument main_arg15 narrowed to bf16: the same extended reals. -/
theorem V_16 (c : Dev nD) : (V m c main_v11 : S256x256.Idx → EReal) = m ((c : Thread nD τ).loc main_arg15) := by
  dsimp only [V, hostOps0]; after_results; rfl

/-- Window 16: its block at any grid point is that array, whole. -/
theorem blk_16 (c : Dev nD) (t : Fin cfg0.N) : (iblk m c 16 t : S256x256.Idx → EReal)
    = m ((c : Thread nD τ).loc main_arg15) := by
  have e := idx_16 t
  funext y
  refine Eq.trans ?_ (congrFun (V_16 m c) y)
  show V m c main_v11 (((cfg0.win 16).blk t).view.emb y) = V m c main_v11 y
  congr 1
  funext a; apply Fin.ext
  match a with
  | ⟨0, _⟩ => show win0_16.index t (0 : Fin 2) * 256 + 1 * (y 0).val = (y 0).val; omega
  | ⟨1, _⟩ => show win0_16.index t (1 : Fin 2) * 256 + 1 * (y 1).val = (y 1).val; omega

/-- Window 17: its block index is zero at every grid point. -/
theorem idx_17 : ∀ t : Fin cfg0.N, win0_17.index t (0 : Fin 1) = 0 :=
  (by decide +kernel : ∀ t : Fin grid0.N, _)

/-- Window 17: its block at any grid point is that array, whole. -/
theorem blk_17 (c : Dev nD) (t : Fin cfg0.N) : (iblk m c 17 t : S256.Idx → EReal)
    = m ((c : Thread nD τ).loc main_arg16) := by
  have e := idx_17 t
  funext y
  refine Eq.trans ?_ (congrFun (V_main_arg16 m c) y)
  show V m c main_arg16 (((cfg0.win 17).blk t).view.emb y) = V m c main_arg16 y
  congr 1
  funext a; apply Fin.ext
  match a with
  | ⟨0, _⟩ => show win0_17.index t (0 : Fin 1) * 256 + 1 * (y 0).val = (y 0).val; omega

/-- Window 18: its block index is zero at every grid point. -/
theorem idx_18 : ∀ t : Fin cfg0.N, win0_18.index t (0 : Fin 2) = 0 ∧ win0_18.index t (1 : Fin 2) = 0 :=
  (by decide +kernel : ∀ t : Fin grid0.N, _)

/-- The array window 18 stages is argument main_arg17 narrowed to bf16: the same extended reals. -/
theorem V_18 (c : Dev nD) : (V m c main_v12 : S256x257.Idx → EReal) = m ((c : Thread nD τ).loc main_arg17) := by
  dsimp only [V, hostOps0]; after_results; rfl

/-- Window 18: its block at any grid point is that array, whole. -/
theorem blk_18 (c : Dev nD) (t : Fin cfg0.N) : (iblk m c 18 t : S256x257.Idx → EReal)
    = m ((c : Thread nD τ).loc main_arg17) := by
  have e := idx_18 t
  funext y
  refine Eq.trans ?_ (congrFun (V_18 m c) y)
  show V m c main_v12 (((cfg0.win 18).blk t).view.emb y) = V m c main_v12 y
  congr 1
  funext a; apply Fin.ext
  match a with
  | ⟨0, _⟩ => show win0_18.index t (0 : Fin 2) * 256 + 1 * (y 0).val = (y 0).val; omega
  | ⟨1, _⟩ => show win0_18.index t (1 : Fin 2) * 257 + 1 * (y 1).val = (y 1).val; omega

/-- Window 19: its block index is zero at every grid point. -/
theorem idx_19 : ∀ t : Fin cfg0.N, win0_19.index t (0 : Fin 1) = 0 :=
  (by decide +kernel : ∀ t : Fin grid0.N, _)

/-- Window 19: its block at any grid point is that array, whole. -/
theorem blk_19 (c : Dev nD) (t : Fin cfg0.N) : (iblk m c 19 t : S257.Idx → EReal)
    = m ((c : Thread nD τ).loc main_arg18) := by
  have e := idx_19 t
  funext y
  refine Eq.trans ?_ (congrFun (V_main_arg18 m c) y)
  show V m c main_arg18 (((cfg0.win 19).blk t).view.emb y) = V m c main_arg18 y
  congr 1
  funext a; apply Fin.ext
  match a with
  | ⟨0, _⟩ => show win0_19.index t (0 : Fin 1) * 257 + 1 * (y 0).val = (y 0).val; omega

/-- Window 20: its block index is zero at every grid point. -/
theorem idx_20 : ∀ t : Fin cfg0.N, win0_20.index t (0 : Fin 2) = 0 ∧ win0_20.index t (1 : Fin 2) = 0 :=
  (by decide +kernel : ∀ t : Fin grid0.N, _)

/-- The array window 20 stages is 27 rows of argument main_arg19 from row 0 on, narrowed to bf16. -/
theorem V_20 (c : Dev nD) : (V m c main_v14 : S27x256.Idx → EReal)
    = extractStridedSlice S27x256 ![0, 0] (m ((c : Thread nD τ).loc main_arg19)) slices_S283x256_S27x256_0_0 := by
  dsimp only [V, hostOps0]; after_results; rfl

/-- Window 20: its block at any grid point is that array, whole. -/
theorem blk_20 (c : Dev nD) (t : Fin cfg0.N) : (iblk m c 20 t : S27x256.Idx → EReal)
    = extractStridedSlice S27x256 ![0, 0] (m ((c : Thread nD τ).loc main_arg19)) slices_S283x256_S27x256_0_0 := by
  have e := idx_20 t
  funext y
  refine Eq.trans ?_ (congrFun (V_20 m c) y)
  show V m c main_v14 (((cfg0.win 20).blk t).view.emb y) = V m c main_v14 y
  congr 1
  funext a; apply Fin.ext
  match a with
  | ⟨0, _⟩ => show win0_20.index t (0 : Fin 2) * 27 + 1 * (y 0).val = (y 0).val; omega
  | ⟨1, _⟩ => show win0_20.index t (1 : Fin 2) * 256 + 1 * (y 1).val = (y 1).val; omega

/-- Window 21: its block index is zero at every grid point. -/
theorem idx_21 : ∀ t : Fin cfg0.N, win0_21.index t (0 : Fin 2) = 0 ∧ win0_21.index t (1 : Fin 2) = 0 :=
  (by decide +kernel : ∀ t : Fin grid0.N, _)

/-- The array window 21 stages is 256 rows of argument main_arg19 from row 27 on, narrowed to bf16. -/
theorem V_21 (c : Dev nD) : (V m c main_v16 : S256x256.Idx → EReal)
    = extractStridedSlice S256x256 ![27, 0] (m ((c : Thread nD τ).loc main_arg19)) slices_S283x256_S256x256_27_0 := by
  dsimp only [V, hostOps0]; after_results; rfl

/-- Window 21: its block at any grid point is that array, whole. -/
theorem blk_21 (c : Dev nD) (t : Fin cfg0.N) : (iblk m c 21 t : S256x256.Idx → EReal)
    = extractStridedSlice S256x256 ![27, 0] (m ((c : Thread nD τ).loc main_arg19)) slices_S283x256_S256x256_27_0 := by
  have e := idx_21 t
  funext y
  refine Eq.trans ?_ (congrFun (V_21 m c) y)
  show V m c main_v16 (((cfg0.win 21).blk t).view.emb y) = V m c main_v16 y
  congr 1
  funext a; apply Fin.ext
  match a with
  | ⟨0, _⟩ => show win0_21.index t (0 : Fin 2) * 256 + 1 * (y 0).val = (y 0).val; omega
  | ⟨1, _⟩ => show win0_21.index t (1 : Fin 2) * 256 + 1 * (y 1).val = (y 1).val; omega

/-- Window 22: its block index is zero at every grid point. -/
theorem idx_22 : ∀ t : Fin cfg0.N, win0_22.index t (0 : Fin 1) = 0 :=
  (by decide +kernel : ∀ t : Fin grid0.N, _)

/-- Window 22: its block at any grid point is that array, whole. -/
theorem blk_22 (c : Dev nD) (t : Fin cfg0.N) : (iblk m c 22 t : S256.Idx → EReal)
    = m ((c : Thread nD τ).loc main_arg20) := by
  have e := idx_22 t
  funext y
  refine Eq.trans ?_ (congrFun (V_main_arg20 m c) y)
  show V m c main_arg20 (((cfg0.win 22).blk t).view.emb y) = V m c main_arg20 y
  congr 1
  funext a; apply Fin.ext
  match a with
  | ⟨0, _⟩ => show win0_22.index t (0 : Fin 1) * 256 + 1 * (y 0).val = (y 0).val; omega

/-- Window 23: its block index is zero at every grid point. -/
theorem idx_23 : ∀ t : Fin cfg0.N, win0_23.index t (0 : Fin 2) = 0 ∧ win0_23.index t (1 : Fin 2) = 0 :=
  (by decide +kernel : ∀ t : Fin grid0.N, _)

/-- The array window 23 stages is argument main_arg21 narrowed to bf16: the same extended reals. -/
theorem V_23 (c : Dev nD) : (V m c main_v17 : S256x3.Idx → EReal) = m ((c : Thread nD τ).loc main_arg21) := by
  dsimp only [V, hostOps0]; after_results; rfl

/-- Window 23: its block at any grid point is that array, whole. -/
theorem blk_23 (c : Dev nD) (t : Fin cfg0.N) : (iblk m c 23 t : S256x3.Idx → EReal)
    = m ((c : Thread nD τ).loc main_arg21) := by
  have e := idx_23 t
  funext y
  refine Eq.trans ?_ (congrFun (V_23 m c) y)
  show V m c main_v17 (((cfg0.win 23).blk t).view.emb y) = V m c main_v17 y
  congr 1
  funext a; apply Fin.ext
  match a with
  | ⟨0, _⟩ => show win0_23.index t (0 : Fin 2) * 256 + 1 * (y 0).val = (y 0).val; omega
  | ⟨1, _⟩ => show win0_23.index t (1 : Fin 2) * 3 + 1 * (y 1).val = (y 1).val; omega

/-- Window 24: its block index is zero at every grid point. -/
theorem idx_24 : ∀ t : Fin cfg0.N, win0_24.index t (0 : Fin 1) = 0 :=
  (by decide +kernel : ∀ t : Fin grid0.N, _)

/-- Window 24: its block at any grid point is that array, whole. -/
theorem blk_24 (c : Dev nD) (t : Fin cfg0.N) : (iblk m c 24 t : S3.Idx → EReal)
    = m ((c : Thread nD τ).loc main_arg22) := by
  have e := idx_24 t
  funext y
  refine Eq.trans ?_ (congrFun (V_main_arg22 m c) y)
  show V m c main_arg22 (((cfg0.win 24).blk t).view.emb y) = V m c main_arg22 y
  congr 1
  funext a; apply Fin.ext
  match a with
  | ⟨0, _⟩ => show win0_24.index t (0 : Fin 1) * 3 + 1 * (y 0).val = (y 0).val; omega

end Cert.KernelIdeal.BlockReads

end
-- ==== Proof.KernelArray.lean ====
/-
  The kernel's run, read as the network of Spec.

  The input block at point `t` is rows `1024 t ..` of the first argument (narrowed to bf16 on the host, which
  changes nothing on extended reals); the weight windows hold their arrays whole (BlockReads), and those arrays
  are the arguments, or for the two skip layers the upper and lower rows of an argument, sliced on the host. So
  point `t` writes back block `t` of `Nerf.G` of the arguments, the 128 blocks cover the result array, and the
  array after the run is `Nerf.G` of the arguments.
-/
import proofs.«139490_j46471546142968_1_alg».proof.Proof.KernelBlock
import proofs.«139490_j46471546142968_1_alg».proof.Proof.BlockReads
import proofs.«139490_j46471546142968_1_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.GenP Idealize.ShloMosaic Idealize.ShloMosaic.TcCoe Idealize.ShloMosaic.Tactic Idealize.ShloMosaic.ValueIdx Idealize.SL.Sem Nerf
open Idealize.ShloMosaic.Pipeline (Dat)

/-- The first 63 rows of the second trunk's first weight matrix, sliced off on the host, are its upper rows. -/
theorem mat_slice_e1_top (A : S319x256.Idx → EReal) :
    mat (extractStridedSlice S63x256 ![0, 0] A slices_S319x256_S63x256_0_0) = top (K₁ := 63) (K₂ := 256) rfl (mat A) := by
  funext k j
  exact extractStridedSlice_apply ![0, 0] A slices_S319x256_S63x256_0_0 (ix2 k j) (ix2 ⟨k.val, by have := k.isLt; omega⟩ j) (fun a => match a with
    | ⟨0, _⟩ => by show k.val = 0 + k.val; omega
    | ⟨1, _⟩ => by show j.val = 0 + j.val; omega)

/-- Its other 256 rows are its lower rows. -/
theorem mat_slice_e1_bot (A : S319x256.Idx → EReal) :
    mat (extractStridedSlice S256x256 ![63, 0] A slices_S319x256_S256x256_63_0) = bot (K₁ := 63) (K₂ := 256) rfl (mat A) := by
  funext k j
  exact extractStridedSlice_apply ![63, 0] A slices_S319x256_S256x256_63_0 (ix2 k j) (ix2 ⟨63 + k.val, by have := k.isLt; omega⟩ j) (fun a => match a with
    | ⟨0, _⟩ => by show 63 + k.val = 63 + k.val; rfl
    | ⟨1, _⟩ => by show j.val = 0 + j.val; omega)

/-- The first 27 rows of the colour head's first weight matrix are its upper rows. -/
theorem mat_slice_c1_top (A : S283x256.Idx → EReal) :
    mat (extractStridedSlice S27x256 ![0, 0] A slices_S283x256_S27x256_0_0) = top (K₁ := 27) (K₂ := 256) rfl (mat A) := by
  funext k j
  exact extractStridedSlice_apply ![0, 0] A slices_S283x256_S27x256_0_0 (ix2 k j) (ix2 ⟨k.val, by have := k.isLt; omega⟩ j) (fun a => match a with
    | ⟨0, _⟩ => by show k.val = 0 + k.val; omega
    | ⟨1, _⟩ => by show j.val = 0 + j.val; omega)

/-- Its other 256 rows are its lower rows. -/
theorem mat_slice_c1_bot (A : S283x256.Idx → EReal) :
    mat (extractStridedSlice S256x256 ![27, 0] A slices_S283x256_S256x256_27_0) = bot (K₁ := 27) (K₂ := 256) rfl (mat A) := by
  funext k j
  exact extractStridedSlice_apply ![27, 0] A slices_S283x256_S256x256_27_0 (ix2 k j) (ix2 ⟨27 + k.val, by have := k.isLt; omega⟩ j) (fun a => match a with
    | ⟨0, _⟩ => by show 27 + k.val = 27 + k.val; rfl
    | ⟨1, _⟩ => by show j.val = 0 + j.val; omega)

/-- The block function at block row `p` is the network's result array at any row `r` of the first argument
    that holds the same 90 entries, when every weight block is the argument it was staged from (for the two skip
    layers: the upper and the lower rows of the argument). -/
theorem blkOut_eq_G (X : S131072x90.Idx → EReal) (A1 : S63x256.Idx → EReal) (A2 : S256.Idx → EReal) (A3 : S256x256.Idx → EReal) (A4 : S256.Idx → EReal) (A5 : S256x256.Idx → EReal) (A6 : S256.Idx → EReal) (A7 : S256x256.Idx → EReal) (A8 : S256.Idx → EReal) (A9 : S319x256.Idx → EReal) (A10 : S256.Idx → EReal) (A11 : S256x256.Idx → EReal) (A12 : S256.Idx → EReal) (A13 : S256x256.Idx → EReal) (A14 : S256.Idx → EReal) (A15 : S256x256.Idx → EReal) (A16 : S256.Idx → EReal) (A17 : S256x257.Idx → EReal) (A18 : S257.Idx → EReal) (A19 : S283x256.Idx → EReal) (A20 : S256.Idx → EReal) (A21 : S256x3.Idx → EReal) (A22 : S3.Idx → EReal)
    (x0 : Vec Ideal S1024x90 .bf16) (x1 : Vec Ideal S63x256 .bf16) (x2 : Vec Ideal S256 .f32) (x3 : Vec Ideal S256x256 .bf16) (x4 : Vec Ideal S256 .f32) (x5 : Vec Ideal S256x256 .bf16) (x6 : Vec Ideal S256 .f32) (x7 : Vec Ideal S256x256 .bf16) (x8 : Vec Ideal S256 .f32) (x9 : Vec Ideal S63x256 .bf16) (x10 : Vec Ideal S256x256 .bf16) (x11 : Vec Ideal S256 .f32) (x12 : Vec Ideal S256x256 .bf16) (x13 : Vec Ideal S256 .f32) (x14 : Vec Ideal S256x256 .bf16) (x15 : Vec Ideal S256 .f32) (x16 : Vec Ideal S256x256 .bf16) (x17 : Vec Ideal S256 .f32) (x18 : Vec Ideal S256x257 .bf16) (x19 : Vec Ideal S257 .f32) (x20 : Vec Ideal S27x256 .bf16) (x21 : Vec Ideal S256x256 .bf16) (x22 : Vec Ideal S256 .f32) (x23 : Vec Ideal S256x3 .bf16) (x24 : Vec Ideal S3 .f32) (p : Fin 1024) (q : Fin 4) (r : Fin 131072)
    (hrow : row x0 p = row X r) (h1 : x1 = A1) (h2 : x2 = A2) (h3 : x3 = A3) (h4 : x4 = A4) (h5 : x5 = A5) (h6 : x6 = A6) (h7 : x7 = A7) (h8 : x8 = A8) (h9 : x9 = extractStridedSlice S63x256 ![0, 0] A9 slices_S319x256_S63x256_0_0) (h10 : x10 = extractStridedSlice S256x256 ![63, 0] A9 slices_S319x256_S256x256_63_0) (h11 : x11 = A10) (h12 : x12 = A11) (h13 : x13 = A12) (h14 : x14 = A13) (h15 : x15 = A14) (h16 : x16 = A15) (h17 : x17 = A16) (h18 : x18 = A17) (h19 : x19 = A18) (h20 : x20 = extractStridedSlice S27x256 ![0, 0] A19 slices_S283x256_S27x256_0_0) (h21 : x21 = extractStridedSlice S256x256 ![27, 0] A19 slices_S283x256_S256x256_27_0) (h22 : x22 = A20) (h23 : x23 = A21) (h24 : x24 = A22) :
    blkOut x0 x1 x2 x3 x4 x5 x6 x7 x8 x9 x10 x11 x12 x13 x14 x15 x16 x17 x18 x19 x20 x21 x22 x23 x24 (ix2 p q) = G X A1 A2 A3 A4 A5 A6 A7 A8 A9 A10 A11 A12 A13 A14 A15 A16 A17 A18 A19 A20 A21 A22 (ix2 r q) := by
  rw [h1, h2, h3, h4, h5, h6, h7, h8, h9, h10, h11, h12, h13, h14, h15, h16, h17, h18, h19, h20, h21, h22, h23, h24]
  have key : blkRow (row x0 p) (mat (A1)) (vec (A2)) (mat (A3)) (vec (A4)) (mat (A5)) (vec (A6)) (mat (A7)) (vec (A8)) (mat (extractStridedSlice S63x256 ![0, 0] A9 slices_S319x256_S63x256_0_0)) (mat (extractStridedSlice S256x256 ![63, 0] A9 slices_S319x256_S256x256_63_0)) (vec (A10)) (mat (A11)) (vec (A12)) (mat (A13)) (vec (A14)) (mat (A15)) (vec (A16)) (mat (A17)) (vec (A18)) (mat (extractStridedSlice S27x256 ![0, 0] A19 slices_S283x256_S27x256_0_0)) (mat (extractStridedSlice S256x256 ![27, 0] A19 slices_S283x256_S256x256_27_0)) (vec (A20)) (mat (A21)) (vec (A22)) q
      = outRow (row X r) (mat A1) (vec A2) (mat A3) (vec A4) (mat A5) (vec A6) (mat A7) (vec A8) (mat A9) (vec A10) (mat A11) (vec A12) (mat A13) (vec A14) (mat A15) (vec A16) (mat A17) (vec A18) (mat A19) (vec A20) (mat A21) (vec A22) q := by
    rw [outRow_eq_blkRow, mat_slice_e1_top, mat_slice_e1_bot, mat_slice_c1_top, mat_slice_c1_bot, hrow]
  exact key

variable (m : (ℓ : Loc nD τ sig) → Buf (Elt Ideal) ℓ) (ρ : Dev nD → PrngReg)

/-- The printed index maps of the input rows' window and of the output window, decided over the grid: point `t`
    takes block `t` along the rows and the one block along the channels. -/
theorem idx_facts : ∀ t : Fin cfg0.N, win0_0.index t (0 : Fin 2) = t.val ∧ win0_0.index t (1 : Fin 2) = 0
    ∧ win0_25.index t (0 : Fin 2) = t.val ∧ win0_25.index t (1 : Fin 2) = 0 :=
  (by decide +kernel : ∀ t : Fin grid0.N, _)

/-- The array the input rows' window stages is the first argument narrowed to bf16: the same extended reals. -/
theorem V_0 (c : Dev nD) : (V m c main_v0 : S131072x90.Idx → EReal) = m ((c : Thread nD τ).loc main_arg0) := by
  dsimp only [V, hostOps0]; after_results; rfl

/-- Row `p` of the input block at point `t` is row `1024 t + p` of the first argument. -/
theorem blk0_row (c : Dev nD) (t : Fin cfg0.N) (p : Fin 1024) (r : Fin 131072) (hr : r.val = t.val * 1024 + p.val) :
    row (iblk m c 0 t : S1024x90.Idx → EReal) p = row (m ((c : Thread nD τ).loc main_arg0)) r := by
  obtain ⟨e0, e1, e2, e3⟩ := idx_facts t
  funext k
  unfold row
  refine Eq.trans ?_ (congrFun (V_0 m c) (ix2 r k))
  show V m c main_v0 (((cfg0.win 0).blk t).view.emb (ix2 p k)) = V m c main_v0 (ix2 r k)
  congr 1
  funext a; apply Fin.ext
  match a with
  | ⟨0, _⟩ => show win0_0.index t (0 : Fin 2) * 1024 + 1 * p.val = r.val; omega
  | ⟨1, _⟩ => show win0_0.index t (1 : Fin 2) * 90 + 1 * k.val = k.val; omega

/-- What point `t` leaves in the output block, at block index `y`, is the network's result array at the index `i`
    of the same channel in row `1024 t + y 0`. -/
theorem outs_apply (c : Dev nD) (t : Fin cfg0.N) (y : S1024x4.Idx) (i : S131072x4.Idx)
    (h0 : (i 0).val = t.val * 1024 + (y 0).val) (h1 : (i 1).val = (y 1).val) :
    outsAt0 m c t y = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) i := by
  obtain ⟨p, q, rfl⟩ : ∃ (p : Fin 1024) (q : Fin 4), y = ix2 p q := ⟨y 0, y 1, eq_ix2 y⟩
  obtain ⟨r, q', rfl⟩ : ∃ (r : Fin 131072) (q' : Fin 4), i = ix2 r q' := ⟨i 0, i 1, eq_ix2 i⟩
  obtain rfl : q' = q := Fin.ext h1
  have hr : r.val = t.val * 1024 + p.val := h0
  refine (out0_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (ix2 p q')).trans ?_
  exact blkOut_eq_G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) p q' r (blk0_row m c t p r hr) (BlockReads.blk_1 m c t) (BlockReads.blk_2 m c t) (BlockReads.blk_3 m c t) (BlockReads.blk_4 m c t) (BlockReads.blk_5 m c t) (BlockReads.blk_6 m c t) (BlockReads.blk_7 m c t) (BlockReads.blk_8 m c t) (BlockReads.blk_9 m c t) (BlockReads.blk_10 m c t) (BlockReads.blk_11 m c t) (BlockReads.blk_12 m c t) (BlockReads.blk_13 m c t) (BlockReads.blk_14 m c t) (BlockReads.blk_15 m c t) (BlockReads.blk_16 m c t) (BlockReads.blk_17 m c t) (BlockReads.blk_18 m c t) (BlockReads.blk_19 m c t) (BlockReads.blk_20 m c t) (BlockReads.blk_21 m c t) (BlockReads.blk_22 m c t) (BlockReads.blk_23 m c t) (BlockReads.blk_24 m c t)

/-- WHAT POINT `t` WRITES BACK is block `t` of the network's result array `Nerf.G` of the arguments: rows
    `1024 t` to `1024 t + 1023`, all four channels. -/
theorem flushed_eq (c : Dev nD) (t : Fin cfg0.N) :
    (dats m 0 c).flushed 25 t = ((cfg0.win 25).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) := by
  obtain ⟨e0, e1, e2, e3⟩ := idx_facts t
  rw [ValueP.flushed25]
  funext j
  show outsAt0 m c t j = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (((cfg0.win 25).blk t).view.emb j)
  refine outs_apply m c t j (((cfg0.win 25).blk t).view.emb j) ?_ ?_
  · show win0_25.index t (0 : Fin 2) * 1024 + 1 * (j 0).val = t.val * 1024 + (j 0).val
    omega
  · show win0_25.index t (1 : Fin 2) * 4 + 1 * (j 1).val = (j 1).val
    omega

/-- An index of the result array is in point `t`'s block iff each coordinate is in the block's range on its axis. -/
theorem mem_blk (t : Fin cfg0.N) (i : S131072x4.Idx) :
    i ∈ ((cfg0.win 25).blk t).view.set ↔ ∀ a : Fin 2, win0_25.index t a * S1024x4.size a ≤ (i a).val ∧ (i a).val < win0_25.index t a * S1024x4.size a + S1024x4.size a := by
  show i ∈ ((View.whole main_v18).slice (win0_25.rect t)).set ↔ _
  rw [View.set_slice_whole, Rect.mem_set_unit]
  exact Iff.rfl

/-- THE RESULT ARRAY after the run is `Nerf.G` of the arguments: row `r` lies in the block of point `r / 1024`,
    and every point writes its block back. -/
theorem final (c : Dev nD) : (dats m 0 c).arrAt 25 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) :=
  (dats m 0 c).arrAt_eq_of_cover 25 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) (fun t _ => flushed_eq m c t) fun i => by
    have h0 : (i 0).val < 131072 := idx2_lt0 i
    have h1 : (i 1).val < 4 := idx2_lt1 i
    have hN : cfg0.N = 128 := N_0
    obtain ⟨e0, e1, e2, e3⟩ := idx_facts ⟨(i 0).val / 1024, by omega⟩
    refine ⟨⟨(i 0).val / 1024, by omega⟩, flush0_25 _, ?_⟩
    rw [mem_blk]
    intro a
    match a with
    | ⟨0, _⟩ =>
      show win0_25.index ⟨(i 0).val / 1024, _⟩ (0 : Fin 2) * 1024 ≤ (i 0).val ∧ (i 0).val < win0_25.index ⟨(i 0).val / 1024, _⟩ (0 : Fin 2) * 1024 + 1024
      simp only [] at e2
      omega
    | ⟨1, _⟩ =>
      show win0_25.index ⟨(i 0).val / 1024, _⟩ (1 : Fin 2) * 4 ≤ (i 1).val ∧ (i 1).val < win0_25.index ⟨(i 0).val / 1024, _⟩ (1 : Fin 2) * 4 + 4
      omega

/-- The kernel's run, read: the result array ends at `Nerf.G` of the arguments, the arguments unchanged. -/
theorem run : θ_run defs (onTc (τ := τ) (main (F := Ideal))) ⟨m, fun _ => 0, ρ⟩ fun r => ∀ c : Dev nD,
      r.2.mem ((c : Thread nD τ).loc main_v18) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22) :=
  (θ_run defs _ _).mono (fun r h c => ⟨(h c).1.trans (final m c), (h c).2⟩) (ValueP.run_blocks m ρ)

end Cert.KernelIdeal.Blocks

end
-- ==== Proof.RefLayers.lean ====
/-
  One layer of the network, read at a row, over arbitrary operands.

  Every layer the reference applies to a whole [R, ·] array has the same form: a product with a weight matrix
  (at the extended reals, a sum over the contracted axis), a bias vector broadcast along the rows, and, for a
  rectified layer, a maximum with a zero array. Read at row r and column j, the product is the sum over k of
  the operand at (r, k) times the matrix at (k, j); the broadcast bias is the bias at j; the zero array is 0.
  So row r of the layer's result is the affine (or rectified affine) layer of Spec applied to row r of the
  operand. Slices and joins along the channel axis are, row by row, the parts and the joining of vectors.
-/
import proofs.«139490_j46471546142968_1_alg».proof.ReferenceIdeal
import proofs.«139490_j46471546142968_1_alg».proof.Proof.Spec
import Idealize.ShloMosaic.Lib.ValueIdx
import Idealize.ShloMosaic.Lib.Pipeline.Value
import Idealize.ShloMosaic.PureOps.Ideal.Laws

noncomputable section

namespace Cert.ReferenceIdeal.RefLayers

open Cert.ReferenceIdeal Idealize.ShloMosaic Idealize.ShloMosaic.ValueIdx Nerf

/-! ## The product at a row -/

/-- A product of an [R, K] array with a [K, N] array that contracts the first array's axis 1 with the second's
    axis 0, read at (r, j): the sum over k of the entries at (r, k) and (k, j). The four hypotheses say which
    coordinate of the result index or of the contraction index each operand coordinate is. -/
theorem dot_row {R K N : ℕ} (D : DotDims (⟨2, ![R, K]⟩ : Shape) (⟨2, ![K, N]⟩ : Shape) (⟨2, ![R, N]⟩ : Shape))
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (h : FVec Ideal (⟨2, ![R, K]⟩ : Shape) .f32) (w : FVec Ideal (⟨2, ![K, N]⟩ : Shape) .f32) (r : Fin R) (j : Fin N) :
    Host.dotGeneral (F := Ideal) D none h w (ix2 r j) = dotRow (row h r) (mat w) j := by
  simp only [Host.dotGeneral]
  rw [Ideal.dotGeneral_apply, ← Equiv.sum_comp (contrEquiv1 D K hr hs).symm]
  unfold dotRow row mat
  refine Finset.sum_congr rfl fun k _ => ?_
  have hk := contrEquiv1_symm_val D K hr hs k
  have el : D.lhsIdx (ix2 r j) ((contrEquiv1 D K hr hs).symm k) = ix2 r k := funext fun a => Fin.ext (by
    match a with
    | ⟨0, _⟩ => exact hl0 _ _
    | ⟨1, _⟩ => exact (hl1 _ _).trans hk)
  have er : D.rhsIdx (ix2 r j) ((contrEquiv1 D K hr hs).symm k) = ix2 k j := funext fun a => Fin.ext (by
    match a with
    | ⟨0, _⟩ => exact (hr0 _ _).trans hk
    | ⟨1, _⟩ => exact hr1 _ _)
  rw [el, er]

/-! ## The bias and the zero array at a row -/

/-- A vector of N > 1 entries made a [1, N] array and then broadcast along R rows, read at (r, j): its entry j. -/
theorem bias_row {R N : ℕ} (hN : N ≠ 1)
    (hb1 : (⟨1, ![N]⟩ : Shape).BroadcastsInDim (⟨2, ![1, N]⟩ : Shape) ![1])
    (hb2 : (⟨2, ![1, N]⟩ : Shape).BroadcastsInDim (⟨2, ![R, N]⟩ : Shape) ![0, 1])
    (b : FVec Ideal (⟨1, ![N]⟩ : Shape) .f32) (r : Fin R) (j : Fin N) :
    broadcastInDim (⟨2, ![R, N]⟩ : Shape) ![0, 1] hb2 (broadcastInDim (⟨2, ![1, N]⟩ : Shape) ![1] hb1 b) (ix2 r j) = vec b j := by
  rw [broadcastInDim_apply _ hb2 _ (ix2 r j) (ix2 ⟨0, Nat.one_pos⟩ j) (fun a => match a with
    | ⟨0, _⟩ => by show 0 = if (1 : Nat) = 1 then 0 else r.val; rw [if_pos rfl]
    | ⟨1, _⟩ => by show j.val = if N = 1 then 0 else j.val; rw [if_neg hN])]
  rw [broadcastInDim_apply _ hb1 b (ix2 ⟨0, Nat.one_pos⟩ j) (ix1 j) (fun a => match a with
    | ⟨0, _⟩ => by show j.val = if N = 1 then 0 else j.val; rw [if_neg hN])]
  rfl

/-- The scalar 0 broadcast to an [R, N] array is 0 at every index. -/
theorem zero_row {R N : ℕ} (hb0 : (⟨0, ![]⟩ : Shape).BroadcastsInDim (⟨2, ![R, N]⟩ : Shape) ![])
    (i : (⟨2, ![R, N]⟩ : Shape).Idx) :
    broadcastInDim (⟨2, ![R, N]⟩ : Shape) ![] hb0 (constant (F := Ideal) (⟨0, ![]⟩ : Shape) .f32 0x00000000#32) i = (0 : EReal) := by
  rw [broadcastInDim_apply _ hb0 _ i ix0 (fun a => a.elim0)]
  exact Ideal.ofBits_zero_f32

/-! ## A whole layer at a row -/

/-- Row r of an affine layer's result array is the affine layer on row r of the operand. -/
theorem lin_row {R K N : ℕ} (D : DotDims (⟨2, ![R, K]⟩ : Shape) (⟨2, ![K, N]⟩ : Shape) (⟨2, ![R, N]⟩ : Shape))
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (hN : N ≠ 1)
    (hb1 : (⟨1, ![N]⟩ : Shape).BroadcastsInDim (⟨2, ![1, N]⟩ : Shape) ![1])
    (hb2 : (⟨2, ![1, N]⟩ : Shape).BroadcastsInDim (⟨2, ![R, N]⟩ : Shape) ![0, 1])
    (h : FVec Ideal (⟨2, ![R, K]⟩ : Shape) .f32) (w : FVec Ideal (⟨2, ![K, N]⟩ : Shape) .f32)
    (b : FVec Ideal (⟨1, ![N]⟩ : Shape) .f32) (r : Fin R) :
    row (addf (Host.dotGeneral (F := Ideal) D none h w)
        (broadcastInDim (⟨2, ![R, N]⟩ : Shape) ![0, 1] hb2 (broadcastInDim (⟨2, ![1, N]⟩ : Shape) ![1] hb1 b))) r
      = lin (row h r) (mat w) (vec b) := by
  funext j
  show addf _ _ (ix2 r j) = _
  rw [addf_apply, dot_row D hr hs hl0 hl1 hr0 hr1 h w r j, bias_row hN hb1 hb2 b r j]
  rfl

/-- Row r of a rectified affine layer's result array is the rectified affine layer on row r of the operand. -/
theorem relu_lin_row {R K N : ℕ} (D : DotDims (⟨2, ![R, K]⟩ : Shape) (⟨2, ![K, N]⟩ : Shape) (⟨2, ![R, N]⟩ : Shape))
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (hN : N ≠ 1)
    (hb1 : (⟨1, ![N]⟩ : Shape).BroadcastsInDim (⟨2, ![1, N]⟩ : Shape) ![1])
    (hb2 : (⟨2, ![1, N]⟩ : Shape).BroadcastsInDim (⟨2, ![R, N]⟩ : Shape) ![0, 1])
    (hb0 : (⟨0, ![]⟩ : Shape).BroadcastsInDim (⟨2, ![R, N]⟩ : Shape) ![])
    (h : FVec Ideal (⟨2, ![R, K]⟩ : Shape) .f32) (w : FVec Ideal (⟨2, ![K, N]⟩ : Shape) .f32)
    (b : FVec Ideal (⟨1, ![N]⟩ : Shape) .f32) (r : Fin R) :
    row (maximumf (addf (Host.dotGeneral (F := Ideal) D none h w)
          (broadcastInDim (⟨2, ![R, N]⟩ : Shape) ![0, 1] hb2 (broadcastInDim (⟨2, ![1, N]⟩ : Shape) ![1] hb1 b)))
        (broadcastInDim (⟨2, ![R, N]⟩ : Shape) ![] hb0 (constant (F := Ideal) (⟨0, ![]⟩ : Shape) .f32 0x00000000#32))) r
      = relu (lin (row h r) (mat w) (vec b)) := by
  funext j
  show maximumf _ _ (ix2 r j) = _
  rw [maximumf_apply, zero_row hb0 (ix2 r j)]
  have e := congrFun (lin_row D hr hs hl0 hl1 hr0 hr1 hN hb1 hb2 h w b r) j
  unfold row at e
  rw [e]
  rfl

/-! ## Slices and joins along the channel axis, at a row -/

/-- The slice of the first C' columns, at a row: the first C' entries of the row. -/
theorem slice_head_row {R C C' K₂ : ℕ} (hK : C' + K₂ = C)
    (hS : (⟨2, ![R, C]⟩ : Shape).Slices ![0, 0] (⟨2, ![R, C']⟩ : Shape))
    (x : FVec Ideal (⟨2, ![R, C]⟩ : Shape) .f32) (r : Fin R) :
    row (extractStridedSlice (⟨2, ![R, C']⟩ : Shape) ![0, 0] x hS) r = headPart hK (row x r) := by
  funext k
  exact extractStridedSlice_apply ![0, 0] x hS (ix2 r k) (ix2 r ⟨k.val, by have := k.isLt; omega⟩) (fun a => match a with
    | ⟨0, _⟩ => by show r.val = 0 + r.val; omega
    | ⟨1, _⟩ => by show k.val = 0 + k.val; omega)

/-- The slice of the columns from K₁ on, at a row: the entries of the row from K₁ on. -/
theorem slice_tail_row {R C K₁ C' : ℕ} (hK : K₁ + C' = C)
    (hS : (⟨2, ![R, C]⟩ : Shape).Slices ![0, K₁] (⟨2, ![R, C']⟩ : Shape))
    (x : FVec Ideal (⟨2, ![R, C]⟩ : Shape) .f32) (r : Fin R) :
    row (extractStridedSlice (⟨2, ![R, C']⟩ : Shape) ![0, K₁] x hS) r = tailPart hK (row x r) := by
  funext k
  exact extractStridedSlice_apply ![0, K₁] x hS (ix2 r k) (ix2 r ⟨K₁ + k.val, by have := k.isLt; omega⟩) (fun a => match a with
    | ⟨0, _⟩ => by show r.val = 0 + r.val; omega
    | ⟨1, _⟩ => by show K₁ + k.val = K₁ + k.val; rfl)

/-- Two arrays joined along the channel axis, at a row: the two rows joined. -/
theorem concat_row {R A B C : ℕ} (hK : A + B = C)
    (hC : Shape.Concatenates [(⟨2, ![R, A]⟩ : Shape), (⟨2, ![R, B]⟩ : Shape)] (⟨2, ![R, C]⟩ : Shape) 1)
    (u : FVec Ideal (⟨2, ![R, A]⟩ : Shape) .f32) (v : FVec Ideal (⟨2, ![R, B]⟩ : Shape) .f32) (r : Fin R) :
    row (concatenate (⟨2, ![R, C]⟩ : Shape) 1 [⟨(⟨2, ![R, A]⟩ : Shape), u⟩, ⟨(⟨2, ![R, B]⟩ : Shape), v⟩] hC) r
      = cat hK (row u r) (row v r) := by
  funext k
  unfold cat
  by_cases hk : k.val < A
  · rw [dif_pos hk]
    exact concatenate_pair_apply_left 1 u v hC (ix2 r k) rfl (ix2 r ⟨k.val, hk⟩) (fun b => match b with
      | ⟨0, _⟩ => rfl
      | ⟨1, _⟩ => rfl)
  · rw [dif_neg hk]
    exact concatenate_pair_apply_right 1 u v hC (ix2 r k) rfl rfl
      (ix2 r ⟨k.val - A, by have := k.isLt; omega⟩)
      (fun b hb => match b, hb with
        | ⟨0, _⟩, _ => rfl
        | ⟨1, _⟩, hb => absurd rfl hb)
      (by show (k.val - A) + A = k.val; omega)

end Cert.ReferenceIdeal.RefLayers

end
-- ==== Proof.RefValue.lean ====
/-
  The reference's result array is the network of Spec, row by row.

  The reference applies each layer to the whole [131072, ·] array: a product with the weight matrix (a sum over
  the contracted axis), the bias broadcast along the rows, a maximum with zero. Read at row `r`, each stage is
  the corresponding layer on row `r`. The two skip connections are concatenations along the channel axis
  followed by a product with the whole weight matrix; by `Nerf.lin_cat` that is the two-input layer with the
  matrix's upper and lower rows. The result joins the three colour channels with the density column.
-/
import proofs.«139490_j46471546142968_1_alg».proof.Proof.Gen.ReferenceIdeal.Read
import proofs.«139490_j46471546142968_1_alg».proof.Proof.Spec
import proofs.«139490_j46471546142968_1_alg».proof.Proof.RefLayers
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx Nerf
open Cert.ReferenceIdeal.Gen

section Stages

variable (x0 : (⟨S131072x90, .f32⟩ : BufTy).Contents (Elt Ideal)) (x1 : (⟨S63x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S319x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S256x256, .f32⟩ : BufTy).Contents (Elt Ideal)) (x14 : (⟨S256, .f32⟩ : BufTy).Contents (Elt Ideal)) (x15 : (⟨S256x256, .f32⟩ : BufTy).Contents (Elt Ideal)) (x16 : (⟨S256, .f32⟩ : BufTy).Contents (Elt Ideal)) (x17 : (⟨S256x257, .f32⟩ : BufTy).Contents (Elt Ideal)) (x18 : (⟨S257, .f32⟩ : BufTy).Contents (Elt Ideal)) (x19 : (⟨S283x256, .f32⟩ : BufTy).Contents (Elt Ideal)) (x20 : (⟨S256, .f32⟩ : BufTy).Contents (Elt Ideal)) (x21 : (⟨S256x3, .f32⟩ : BufTy).Contents (Elt Ideal)) (x22 : (⟨S3, .f32⟩ : BufTy).Contents (Elt Ideal)) (r : Fin 131072)

/-- The 63 positional channels of row `r` of the input. -/
abbrev pos : Fin 63 → EReal := headPart (K₁ := 63) (K₂ := 27) rfl (row x0 r)

/-- The 27 view channels of row `r` of the input. -/
abbrev view : Fin 27 → EReal := tailPart (K₁ := 63) (K₂ := 27) rfl (row x0 r)

/-! ## The layer shapes of this network -/

/-- A rectified layer from 256 to 256 values, at a row. -/
theorem layer256_row (h : FVec Ideal S131072x256 .f32) (w : FVec Ideal S256x256 .f32) (b : FVec Ideal S256 .f32) :
    row (maximumf (addf (Host.dotGeneral (F := Ideal) dot_S131072x256_S256x256_S131072x256_1_0_0_1_n_n none h w)
          (broadcastInDim S131072x256 ![0, 1] bcast_S1x256_S131072x256_0_1 (broadcastInDim S1x256 ![1] bcast_S256_S1x256_1 b)))
        (broadcastInDim S131072x256 ![] bcast_S_S131072x256 (constant (F := Ideal) S_ .f32 0x00000000#32))) r
      = relu (lin (row h r) (mat w) (vec b)) :=
  RefLayers.relu_lin_row dot_S131072x256_S256x256_S131072x256_1_0_0_1_n_n rfl rfl lhs_main_v7_0 lhs_main_v7_1 rhs_main_v7_0 rhs_main_v7_1 (by decide) bcast_S256_S1x256_1 bcast_S1x256_S131072x256_0_1 bcast_S_S131072x256 h w b r

/-! ## The input's two parts -/

/-- The slice of columns 0 to 62, at row `r`: the positional channels. -/
theorem v0_row : row (val_main_v0 (F := Ideal) x0) r = pos x0 r :=
  RefLayers.slice_head_row (K₂ := 27) rfl slices_S131072x90_S131072x63_0_0 x0 r

/-- The slice of columns 63 to 89, at row `r`: the view channels. -/
theorem v1_row : row (val_main_v1 (F := Ideal) x0) r = view x0 r :=
  RefLayers.slice_tail_row (K₁ := 63) rfl slices_S131072x90_S131072x27_0_63 x0 r

/-! ## The first trunk -/

theorem v6_row : row (val_main_v6 (F := Ideal) x0 x1 x2) r = relu (lin (pos x0 r) (mat x1) (vec x2)) := by
  refine (RefLayers.relu_lin_row dot_S131072x63_S63x256_S131072x256_1_0_0_1_n_n rfl rfl lhs_main_v2_0 lhs_main_v2_1 rhs_main_v2_0 rhs_main_v2_1 (by decide) bcast_S256_S1x256_1 bcast_S1x256_S131072x256_0_1 bcast_S_S131072x256 (val_main_v0 (F := Ideal) x0) x1 x2 r).trans ?_
  rw [v0_row]

theorem v11_row : row (val_main_v11 (F := Ideal) x0 x1 x2 x3 x4) r = relu (lin (relu (lin (pos x0 r) (mat x1) (vec x2))) (mat x3) (vec x4)) := by
  refine (layer256_row r (val_main_v6 (F := Ideal) x0 x1 x2) x3 x4).trans ?_
  rw [v6_row]

theorem v16_row : row (val_main_v16 (F := Ideal) x0 x1 x2 x3 x4 x5 x6) r = relu (lin (relu (lin (relu (lin (pos x0 r) (mat x1) (vec x2))) (mat x3) (vec x4))) (mat x5) (vec x6)) := by
  refine (layer256_row r (val_main_v11 (F := Ideal) x0 x1 x2 x3 x4) x5 x6).trans ?_
  rw [v11_row]

/-- After four rectified layers: the first trunk on the positional channels. -/
theorem v21_row : row (val_main_v21 (F := Ideal) x0 x1 x2 x3 x4 x5 x6 x7 x8) r = trunk1 (pos x0 r) (mat x1) (vec x2) (mat x3) (vec x4) (mat x5) (vec x6) (mat x7) (vec x8) := by
  refine (layer256_row r (val_main_v16 (F := Ideal) x0 x1 x2 x3 x4 x5 x6) x7 x8).trans ?_
  rw [v16_row]
  rfl

/-! ## The second trunk -/

/-- The skip connection: the positional channels joined with the first trunk's values. -/
theorem v22_row : row (val_main_v22 (F := Ideal) x0 x1 x2 x3 x4 x5 x6 x7 x8) r = cat (K₁ := 63) (K₂ := 256) rfl (pos x0 r) (trunk1 (pos x0 r) (mat x1) (vec x2) (mat x3) (vec x4) (mat x5) (vec x6) (mat x7) (vec x8)) := by
  refine (RefLayers.concat_row (A := 63) (B := 256) rfl concatenates_S131072x63_S131072x256_S131072x319_d1 (val_main_v0 (F := Ideal) x0) (val_main_v21 (F := Ideal) x0 x1 x2 x3 x4 x5 x6 x7 x8) r).trans ?_
  rw [v0_row, v21_row]

/-- The layer on the joined vector is the two-input layer with the upper 63 and lower 256 rows of its matrix. -/
theorem v27_row : row (val_main_v27 (F := Ideal) x0 x1 x2 x3 x4 x5 x6 x7 x8 x9 x10) r = relu (lin2 (pos x0 r) (top (K₁ := 63) (K₂ := 256) rfl (mat x9)) (trunk1 (pos x0 r) (mat x1) (vec x2) (mat x3) (vec x4) (mat x5) (vec x6) (mat x7) (vec x8)) (bot (K₁ := 63) (K₂ := 256) rfl (mat x9)) (vec x10)) := by
  refine (RefLayers.relu_lin_row dot_S131072x319_S319x256_S131072x256_1_0_0_1_n_n rfl rfl lhs_main_v23_0 lhs_main_v23_1 rhs_main_v23_0 rhs_main_v23_1 (by decide) bcast_S256_S1x256_1 bcast_S1x256_S131072x256_0_1 bcast_S_S131072x256 (val_main_v22 (F := Ideal) x0 x1 x2 x3 x4 x5 x6 x7 x8) x9 x10 r).trans ?_
  rw [v22_row, lin_cat]

theorem v32_row : row (val_main_v32 (F := Ideal) x0 x1 x2 x3 x4 x5 x6 x7 x8 x9 x10 x11 x12) r = relu (lin (relu (lin2 (pos x0 r) (top (K₁ := 63) (K₂ := 256) rfl (mat x9)) (trunk1 (pos x0 r) (mat x1) (vec x2) (mat x3) (vec x4) (mat x5) (vec x6) (mat x7) (vec x8)) (bot (K₁ := 63) (K₂ := 256) rfl (mat x9)) (vec x10))) (mat x11) (vec x12)) := by
  refine (layer256_row r (val_main_v27 (F := Ideal) x0 x1 x2 x3 x4 x5 x6 x7 x8 x9 x10) x11 x12).trans ?_
  rw [v27_row]

theorem v37_row : row (val_main_v37 (F := Ideal) x0 x1 x2 x3 x4 x5 x6 x7 x8 x9 x10 x11 x12 x13 x14) r = relu (lin (relu (lin (relu (lin2 (pos x0 r) (top (K₁ := 63) (K₂ := 256) rfl (mat x9)) (trunk1 (pos x0 r) (mat x1) (vec x2) (mat x3) (vec x4) (mat x5) (vec x6) (mat x7) (vec x8)) (bot (K₁ := 63) (K₂ := 256) rfl (mat x9)) (vec x10))) (mat x11) (vec x12))) (mat x13) (vec x14)) := by
  refine (layer256_row r (val_main_v32 (F := Ideal) x0 x1 x2 x3 x4 x5 x6 x7 x8 x9 x10 x11 x12) x13 x14).trans ?_
  rw [v32_row]

/-- After four rectified layers: the second trunk. -/
theorem v42_row : row (val_main_v42 (F := Ideal) x0 x1 x2 x3 x4 x5 x6 x7 x8 x9 x10 x11 x12 x13 x14 x15 x16) r = trunk2 (pos x0 r) (trunk1 (pos x0 r) (mat x1) (vec x2) (mat x3) (vec x4) (mat x5) (vec x6) (mat x7) (vec x8)) (top (K₁ := 63) (K₂ := 256) rfl (mat x9)) (bot (K₁ := 63) (K₂ := 256) rfl (mat x9)) (vec x10) (mat x11) (vec x12) (mat x13) (vec x14) (mat x15) (vec x16) := by
  refine (layer256_row r (val_main_v37 (F := Ideal) x0 x1 x2 x3 x4 x5 x6 x7 x8 x9 x10 x11 x12 x13 x14) x15 x16).trans ?_
  rw [v37_row]
  rfl

/-- The plain affine layer to 257 values: the density and the features of row `r`. -/
theorem v46_row : row (val_main_v46 (F := Ideal) x0 x1 x2 x3 x4 x5 x6 x7 x8 x9 x10 x11 x12 x13 x14 x15 x16 x17 x18) r = hidRow (row x0 r) (mat x1) (vec x2) (mat x3) (vec x4) (mat x5) (vec x6) (mat x7) (vec x8) (mat x9) (vec x10) (mat x11) (vec x12) (mat x13) (vec x14) (mat x15) (vec x16) (mat x17) (vec x18) := by
  refine (RefLayers.lin_row dot_S131072x256_S256x257_S131072x257_1_0_0_1_n_n rfl rfl lhs_main_v43_0 lhs_main_v43_1 rhs_main_v43_0 rhs_main_v43_1 (by decide) bcast_S257_S1x257_1 bcast_S1x257_S131072x257_0_1 (val_main_v42 (F := Ideal) x0 x1 x2 x3 x4 x5 x6 x7 x8 x9 x10 x11 x12 x13 x14 x15 x16) x17 x18 r).trans ?_
  rw [v42_row]
  rfl

/-! ## The density column, the features, and the colour head -/

/-- Column 0 of the 257 values: the density. -/
theorem v47_row : row (val_main_v47 (F := Ideal) x0 x1 x2 x3 x4 x5 x6 x7 x8 x9 x10 x11 x12 x13 x14 x15 x16 x17 x18) r = headPart (K₁ := 1) (K₂ := 256) rfl (hidRow (row x0 r) (mat x1) (vec x2) (mat x3) (vec x4) (mat x5) (vec x6) (mat x7) (vec x8) (mat x9) (vec x10) (mat x11) (vec x12) (mat x13) (vec x14) (mat x15) (vec x16) (mat x17) (vec x18)) := by
  refine (RefLayers.slice_head_row (K₂ := 256) rfl slices_S131072x257_S131072x1_0_0 (val_main_v46 (F := Ideal) x0 x1 x2 x3 x4 x5 x6 x7 x8 x9 x10 x11 x12 x13 x14 x15 x16 x17 x18) r).trans ?_
  rw [v46_row]

/-- Columns 1 to 256 of the 257 values: the features. -/
theorem v48_row : row (val_main_v48 (F := Ideal) x0 x1 x2 x3 x4 x5 x6 x7 x8 x9 x10 x11 x12 x13 x14 x15 x16 x17 x18) r = tailPart (K₁ := 1) (K₂ := 256) rfl (hidRow (row x0 r) (mat x1) (vec x2) (mat x3) (vec x4) (mat x5) (vec x6) (mat x7) (vec x8) (mat x9) (vec x10) (mat x11) (vec x12) (mat x13) (vec x14) (mat x15) (vec x16) (mat x17) (vec x18)) := by
  refine (RefLayers.slice_tail_row (K₁ := 1) rfl slices_S131072x257_S131072x256_0_1 (val_main_v46 (F := Ideal) x0 x1 x2 x3 x4 x5 x6 x7 x8 x9 x10 x11 x12 x13 x14 x15 x16 x17 x18) r).trans ?_
  rw [v46_row]

/-- The view channels joined with the features. -/
theorem v49_row : row (val_main_v49 (F := Ideal) x0 x1 x2 x3 x4 x5 x6 x7 x8 x9 x10 x11 x12 x13 x14 x15 x16 x17 x18) r = cat (K₁ := 27) (K₂ := 256) rfl (view x0 r) (tailPart (K₁ := 1) (K₂ := 256) rfl (hidRow (row x0 r) (mat x1) (vec x2) (mat x3) (vec x4) (mat x5) (vec x6) (mat x7) (vec x8) (mat x9) (vec x10) (mat x11) (vec x12) (mat x13) (vec x14) (mat x15) (vec x16) (mat x17) (vec x18))) := by
  refine (RefLayers.concat_row (A := 27) (B := 256) rfl concatenates_S131072x27_S131072x256_S131072x283_d1 (val_main_v1 (F := Ideal) x0) (val_main_v48 (F := Ideal) x0 x1 x2 x3 x4 x5 x6 x7 x8 x9 x10 x11 x12 x13 x14 x15 x16 x17 x18) r).trans ?_
  rw [v1_row, v48_row]

/-- The layer on the joined vector is the two-input layer with the upper 27 and lower 256 rows of its matrix. -/
theorem v54_row : row (val_main_v54 (F := Ideal) x0 x1 x2 x3 x4 x5 x6 x7 x8 x9 x10 x11 x12 x13 x14 x15 x16 x17 x18 x19 x20) r = relu (lin2 (view x0 r) (top (K₁ := 27) (K₂ := 256) rfl (mat x19)) (tailPart (K₁ := 1) (K₂ := 256) rfl (hidRow (row x0 r) (mat x1) (vec x2) (mat x3) (vec x4) (mat x5) (vec x6) (mat x7) (vec x8) (mat x9) (vec x10) (mat x11) (vec x12) (mat x13) (vec x14) (mat x15) (vec x16) (mat x17) (vec x18))) (bot (K₁ := 27) (K₂ := 256) rfl (mat x19)) (vec x20)) := by
  refine (RefLayers.relu_lin_row dot_S131072x283_S283x256_S131072x256_1_0_0_1_n_n rfl rfl lhs_main_v50_0 lhs_main_v50_1 rhs_main_v50_0 rhs_main_v50_1 (by decide) bcast_S256_S1x256_1 bcast_S1x256_S131072x256_0_1 bcast_S_S131072x256 (val_main_v49 (F := Ideal) x0 x1 x2 x3 x4 x5 x6 x7 x8 x9 x10 x11 x12 x13 x14 x15 x16 x17 x18) x19 x20 r).trans ?_
  rw [v49_row, lin_cat]

/-- The plain affine layer to 3 values: the colour of row `r`. -/
theorem v58_row : row (val_main_v58 (F := Ideal) x0 x1 x2 x3 x4 x5 x6 x7 x8 x9 x10 x11 x12 x13 x14 x15 x16 x17 x18 x19 x20 x21 x22) r = colour (view x0 r) (tailPart (K₁ := 1) (K₂ := 256) rfl (hidRow (row x0 r) (mat x1) (vec x2) (mat x3) (vec x4) (mat x5) (vec x6) (mat x7) (vec x8) (mat x9) (vec x10) (mat x11) (vec x12) (mat x13) (vec x14) (mat x15) (vec x16) (mat x17) (vec x18))) (top (K₁ := 27) (K₂ := 256) rfl (mat x19)) (bot (K₁ := 27) (K₂ := 256) rfl (mat x19)) (vec x20) (mat x21) (vec x22) := by
  refine (RefLayers.lin_row dot_S131072x256_S256x3_S131072x3_1_0_0_1_n_n rfl rfl lhs_main_v55_0 lhs_main_v55_1 rhs_main_v55_0 rhs_main_v55_1 (by decide) bcast_S3_S1x3_1 bcast_S1x3_S131072x3_0_1 (val_main_v54 (F := Ideal) x0 x1 x2 x3 x4 x5 x6 x7 x8 x9 x10 x11 x12 x13 x14 x15 x16 x17 x18 x19 x20) x21 x22 r).trans ?_
  rw [v54_row]
  rfl

/-- The result row: the three colour values joined with the one-entry density column. -/
theorem v59_row : row (val_main_v59 (F := Ideal) x0 x1 x2 x3 x4 x5 x6 x7 x8 x9 x10 x11 x12 x13 x14 x15 x16 x17 x18 x19 x20 x21 x22) r = cat (K₁ := 3) (K₂ := 1) rfl (colour (view x0 r) (tailPart (K₁ := 1) (K₂ := 256) rfl (hidRow (row x0 r) (mat x1) (vec x2) (mat x3) (vec x4) (mat x5) (vec x6) (mat x7) (vec x8) (mat x9) (vec x10) (mat x11) (vec x12) (mat x13) (vec x14) (mat x15) (vec x16) (mat x17) (vec x18))) (top (K₁ := 27) (K₂ := 256) rfl (mat x19)) (bot (K₁ := 27) (K₂ := 256) rfl (mat x19)) (vec x20) (mat x21) (vec x22)) (headPart (K₁ := 1) (K₂ := 256) rfl (hidRow (row x0 r) (mat x1) (vec x2) (mat x3) (vec x4) (mat x5) (vec x6) (mat x7) (vec x8) (mat x9) (vec x10) (mat x11) (vec x12) (mat x13) (vec x14) (mat x15) (vec x16) (mat x17) (vec x18))) := by
  refine (RefLayers.concat_row (A := 3) (B := 1) rfl concatenates_S131072x3_S131072x1_S131072x4_d1 (val_main_v58 (F := Ideal) x0 x1 x2 x3 x4 x5 x6 x7 x8 x9 x10 x11 x12 x13 x14 x15 x16 x17 x18 x19 x20 x21 x22) (val_main_v47 (F := Ideal) x0 x1 x2 x3 x4 x5 x6 x7 x8 x9 x10 x11 x12 x13 x14 x15 x16 x17 x18) r).trans ?_
  rw [v58_row, v47_row]

end Stages

/-- The reference's result at row `r`, channel `q`: the network on row `r` of the first argument. -/
theorem ref_apply (x0 : (⟨S131072x90, .f32⟩ : BufTy).Contents (Elt Ideal)) (x1 : (⟨S63x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S319x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S256x256, .f32⟩ : BufTy).Contents (Elt Ideal)) (x14 : (⟨S256, .f32⟩ : BufTy).Contents (Elt Ideal)) (x15 : (⟨S256x256, .f32⟩ : BufTy).Contents (Elt Ideal)) (x16 : (⟨S256, .f32⟩ : BufTy).Contents (Elt Ideal)) (x17 : (⟨S256x257, .f32⟩ : BufTy).Contents (Elt Ideal)) (x18 : (⟨S257, .f32⟩ : BufTy).Contents (Elt Ideal)) (x19 : (⟨S283x256, .f32⟩ : BufTy).Contents (Elt Ideal)) (x20 : (⟨S256, .f32⟩ : BufTy).Contents (Elt Ideal)) (x21 : (⟨S256x3, .f32⟩ : BufTy).Contents (Elt Ideal)) (x22 : (⟨S3, .f32⟩ : BufTy).Contents (Elt Ideal)) (r : Fin 131072) (q : Fin 4) :
    val_main_v59 (F := Ideal) x0 x1 x2 x3 x4 x5 x6 x7 x8 x9 x10 x11 x12 x13 x14 x15 x16 x17 x18 x19 x20 x21 x22 (ix2 r q)
      = outRow (row x0 r) (mat x1) (vec x2) (mat x3) (vec x4) (mat x5) (vec x6) (mat x7) (vec x8) (mat x9) (vec x10) (mat x11) (vec x12) (mat x13) (vec x14) (mat x15) (vec x16) (mat x17) (vec x18) (mat x19) (vec x20) (mat x21) (vec x22) q := by
  refine (congrFun (v59_row x0 x1 x2 x3 x4 x5 x6 x7 x8 x9 x10 x11 x12 x13 x14 x15 x16 x17 x18 x19 x20 x21 x22 r) q).trans ?_
  unfold cat outRow
  by_cases hq : q.val < 3
  · rw [dif_pos hq, dif_pos hq]
  · rw [dif_neg hq, dif_neg hq]
    unfold headPart
    congr 1
    exact Fin.ext (by show q.val - 3 = 0; have := q.isLt; omega)

/-- So the reference's result array is `Nerf.G` of the arguments. -/
theorem ref_eq_G (x0 : (⟨S131072x90, .f32⟩ : BufTy).Contents (Elt Ideal)) (x1 : (⟨S63x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S319x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S256x256, .f32⟩ : BufTy).Contents (Elt Ideal)) (x14 : (⟨S256, .f32⟩ : BufTy).Contents (Elt Ideal)) (x15 : (⟨S256x256, .f32⟩ : BufTy).Contents (Elt Ideal)) (x16 : (⟨S256, .f32⟩ : BufTy).Contents (Elt Ideal)) (x17 : (⟨S256x257, .f32⟩ : BufTy).Contents (Elt Ideal)) (x18 : (⟨S257, .f32⟩ : BufTy).Contents (Elt Ideal)) (x19 : (⟨S283x256, .f32⟩ : BufTy).Contents (Elt Ideal)) (x20 : (⟨S256, .f32⟩ : BufTy).Contents (Elt Ideal)) (x21 : (⟨S256x3, .f32⟩ : BufTy).Contents (Elt Ideal)) (x22 : (⟨S3, .f32⟩ : BufTy).Contents (Elt Ideal)) :
    val_main_v59 (F := Ideal) x0 x1 x2 x3 x4 x5 x6 x7 x8 x9 x10 x11 x12 x13 x14 x15 x16 x17 x18 x19 x20 x21 x22 = G x0 x1 x2 x3 x4 x5 x6 x7 x8 x9 x10 x11 x12 x13 x14 x15 x16 x17 x18 x19 x20 x21 x22 := by
  funext i
  rw [eq_ix2 i]
  exact ref_apply x0 x1 x2 x3 x4 x5 x6 x7 x8 x9 x10 x11 x12 x13 x14 x15 x16 x17 x18 x19 x20 x21 x22 (i 0) (i 1)

end Cert.ReferenceIdeal.RefValue

end
-- ==== Proof.lean ====
/-
  A NeRF-style multilayer perceptron on 131072 rows of 90 channels: the kernel against the plain reference.

  Both programs compute, for every input row, the network of Proof/Spec.lean: a first trunk of four rectified
  affine layers on the 63 positional channels; a second trunk whose first layer takes the positional channels
  joined with the first trunk's values; a 257-wide affine layer giving the density and 256 features; a colour
  head whose first layer takes the 27 view channels joined with the features; the result row is the three
  colour values followed by the density.

  The reference applies every layer to whole arrays and joins vectors by concatenation before one product with
  the whole weight matrix. The kernel works on blocks of 1024 rows, narrows the input and the weights to bf16
  (the identity on extended reals), and replaces each product on a joined vector by two products, one with the
  upper rows of the weight matrix and one with the lower rows, sliced on the host. The one law that joins the
  two sides is that a finite sum over the joined index range is the sum of the sums over its two parts
  (`Nerf.dotRow_cat`), which holds in every additive commutative monoid; no finiteness of the inputs is used.

  KernelPay reads the kernel's two stored values at a block row as the network on that row; KernelBlock and
  KernelArray carry that from one block to the whole result array (the 128 blocks of 1024 rows cover it);
  RefValue reads the reference's result at a row as the same network. Both result arrays are `Nerf.G` of the
  argument arrays, so they are equal wherever the arguments agree.
-/
import proofs.«139490_j46471546142968_1_alg».proof.Defs
import proofs.«139490_j46471546142968_1_alg».proof.Proof.Gen.Kernel
import proofs.«139490_j46471546142968_1_alg».proof.Proof.Gen.Kernel.Skeleton
import proofs.«139490_j46471546142968_1_alg».proof.Proof.Gen.Kernel.Launch
import proofs.«139490_j46471546142968_1_alg».proof.Proof.Gen.Kernel.Points
import proofs.«139490_j46471546142968_1_alg».proof.Proof.KernelFrame
import proofs.«139490_j46471546142968_1_alg».proof.Proof.Gen.KernelIdeal
import proofs.«139490_j46471546142968_1_alg».proof.Proof.Gen.KernelIdeal.Skeleton
import proofs.«139490_j46471546142968_1_alg».proof.Proof.Gen.KernelIdeal.Launch
import proofs.«139490_j46471546142968_1_alg».proof.Proof.Gen.KernelIdeal.Points
import proofs.«139490_j46471546142968_1_alg».proof.Proof.KernelIdealFrame
import proofs.«139490_j46471546142968_1_alg».proof.Proof.Gen.ReferenceIdeal
import proofs.«139490_j46471546142968_1_alg».proof.Proof.Gen.Pre_finite_inputs
import proofs.«139490_j46471546142968_1_alg».proof.Proof.KernelIdealValue
import proofs.«139490_j46471546142968_1_alg».proof.Proof.Gen.ReferenceIdeal.Run
import proofs.«139490_j46471546142968_1_alg».proof.Proof.Gen.ReferenceIdeal.Read
import proofs.«139490_j46471546142968_1_alg».proof.Proof.Spec
import proofs.«139490_j46471546142968_1_alg».proof.Proof.KernelArray
import proofs.«139490_j46471546142968_1_alg».proof.Proof.RefValue
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.GenP.frame m ρ

/-- So does the idealized kernel. -/
theorem frame_kernelIdeal : Cert.frame_KernelIdeal := fun m ρ _ => Cert.KernelIdeal.GenP.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The reference's result term is `Nerf.G` of its argument arrays. -/
theorem ref_res (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v59 m' c = Nerf.G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) :=
  (Cert.ReferenceIdeal.Read.val_main_v59_eq m' c).trans (Cert.ReferenceIdeal.RefValue.ref_eq_G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)))

/-- `Nerf.G` of equal argument arrays is equal. -/
theorem G_congr {B0 B0' : (⟨2, ![131072, 90]⟩ : Shape).Idx → EReal} {B1 B1' : (⟨2, ![63, 256]⟩ : Shape).Idx → EReal} {B2 B2' : (⟨1, ![256]⟩ : Shape).Idx → EReal} {B3 B3' : (⟨2, ![256, 256]⟩ : Shape).Idx → EReal} {B4 B4' : (⟨1, ![256]⟩ : Shape).Idx → EReal} {B5 B5' : (⟨2, ![256, 256]⟩ : Shape).Idx → EReal} {B6 B6' : (⟨1, ![256]⟩ : Shape).Idx → EReal} {B7 B7' : (⟨2, ![256, 256]⟩ : Shape).Idx → EReal} {B8 B8' : (⟨1, ![256]⟩ : Shape).Idx → EReal} {B9 B9' : (⟨2, ![319, 256]⟩ : Shape).Idx → EReal} {B10 B10' : (⟨1, ![256]⟩ : Shape).Idx → EReal} {B11 B11' : (⟨2, ![256, 256]⟩ : Shape).Idx → EReal} {B12 B12' : (⟨1, ![256]⟩ : Shape).Idx → EReal} {B13 B13' : (⟨2, ![256, 256]⟩ : Shape).Idx → EReal} {B14 B14' : (⟨1, ![256]⟩ : Shape).Idx → EReal} {B15 B15' : (⟨2, ![256, 256]⟩ : Shape).Idx → EReal} {B16 B16' : (⟨1, ![256]⟩ : Shape).Idx → EReal} {B17 B17' : (⟨2, ![256, 257]⟩ : Shape).Idx → EReal} {B18 B18' : (⟨1, ![257]⟩ : Shape).Idx → EReal} {B19 B19' : (⟨2, ![283, 256]⟩ : Shape).Idx → EReal} {B20 B20' : (⟨1, ![256]⟩ : Shape).Idx → EReal} {B21 B21' : (⟨2, ![256, 3]⟩ : Shape).Idx → EReal} {B22 B22' : (⟨1, ![3]⟩ : Shape).Idx → EReal}
    (h0 : B0 = B0') (h1 : B1 = B1') (h2 : B2 = B2') (h3 : B3 = B3') (h4 : B4 = B4') (h5 : B5 = B5') (h6 : B6 = B6') (h7 : B7 = B7') (h8 : B8 = B8') (h9 : B9 = B9') (h10 : B10 = B10') (h11 : B11 = B11') (h12 : B12 = B12') (h13 : B13 = B13') (h14 : B14 = B14') (h15 : B15 = B15') (h16 : B16 = B16') (h17 : B17 = B17') (h18 : B18 = B18') (h19 : B19 = B19') (h20 : B20 = B20') (h21 : B21 = B21') (h22 : B22 = B22') :
    Nerf.G B0 B1 B2 B3 B4 B5 B6 B7 B8 B9 B10 B11 B12 B13 B14 B15 B16 B17 B18 B19 B20 B21 B22 = Nerf.G B0' B1' B2' B3' B4' B5' B6' B7' B8' B9' B10' B11' B12' B13' B14' B15' B16' B17' B18' B19' B20' B21' B22' := by
  subst h0 h1 h2 h3 h4 h5 h6 h7 h8 h9 h10 h11 h12 h13 h14 h15 h16 h17 h18 h19 h20 h21 h22
  rfl

/-- From memories that agree on the 23 arguments both programs end with the result array `Nerf.G` of the
    arguments: the kernel's by its 128 blocks, the reference's row by row. -/
theorem algebraic : Cert.algebraic_KernelIdeal_ReferenceIdeal := by
  intro m ρ m' ρ' _ hagree
  refine ⟨fun c => Nerf.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), Cert.KernelIdeal.Blocks.run m ρ, ?_⟩
  refine (θ_run Cert.ReferenceIdeal.defs _ _).mono (fun _ h c => ⟨((h c).1.trans (ref_res m' c)).trans ?_, (h c).2⟩)
    (Cert.ReferenceIdeal.Value.run (F := Ideal) m' ρ')
  obtain ⟨a0, a1, a2, a3, a4, a5, a6, a7, a8, a9, a10, a11, a12, a13, a14, a15, a16, a17, a18, a19, a20, a21, a22⟩ := hagree c
  exact G_congr a0 a1 a2 a3 a4 a5 a6 a7 a8 a9 a10 a11 a12 a13 a14 a15 a16 a17 a18 a19 a20 a21 a22

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
